-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v149)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v149) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v188) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000 : S_.BroadcastsInDim S50000 (![] : Fin 0 → Fin S50000.rank)
  reducesTo_S50000_S_d0 : S50000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S128x128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x600000 32) (main_arg2 : FVec F S50000 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000 .f32 := Host.absf main_arg2
  let main_cst_0 : FVec F S_ .f32 := constant S_ .f32 0x7F800000#32
  let main_v5 : FVec F S50000 .f32 := broadcastInDim S50000 ![] bcast_S_S50000 main_cst_0
  let main_v6 : IVec S50000 1 := cmpf .olt main_v4 main_v5
  let main_c_1 : IVec S_ 1 := constantI S_ 1 1#1
  let main_v7 : IVec S_ 1 := (fun x v => Host.reduce IntOp.andi x v reducesTo_S50000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S100000x128 : Shape := ⟨2, ![100000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S100000 : Shape := ⟨1, ![100000]⟩
abbrev S600000x1 : Shape := ⟨2, ![600000, 1]⟩
abbrev S5000x128 : Shape := ⟨2, ![5000, 128]⟩
abbrev S600000x128 : Shape := ⟨2, ![600000, 128]⟩
abbrev S50000x128 : Shape := ⟨2, ![50000, 128]⟩
abbrev S1x128 : Shape := ⟨2, ![1, 128]⟩

abbrev nBuf : Space → Nat
  | .hbm => 202
  | .vmem => 30
  | .smem => 0
  | _ => 0

abbrev hbmTy0_0 (i : Nat) : BufTy := match i % 128 with
  | 0 => ⟨S100000x128, .f32⟩
  | 1 => ⟨S2x600000, .i32⟩
  | 2 => ⟨S50000, .f32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S1x600000, .i32⟩
  | 10 => ⟨S600000, .i32⟩
  | 11 => ⟨S1x600000, .i32⟩
  | 12 => ⟨S600000, .i32⟩
  | 13 => ⟨S_, .f32⟩
  | 14 => ⟨S600000, .f32⟩
  | 15 => ⟨S_, .f32⟩
  | 16 => ⟨S100000, .f32⟩
  | 17 => ⟨S600000x1, .i32⟩
  | 18 => ⟨S100000, .f32⟩
  | 19 => ⟨S_, .f32⟩
  | 20 => ⟨S100000, .f32⟩
  | 21 => ⟨S100000, .i1⟩
  | 22 => ⟨S_, .f32⟩
  | 23 => ⟨S100000, .f32⟩
  | 24 => ⟨S100000, .f32⟩
  | 25 => ⟨S_, .f32⟩
  | 26 => ⟨S_, .f32⟩
  | 27 => ⟨S100000, .f32⟩
  | 28 => ⟨S100000, .f32⟩
  | 29 => ⟨S_, .f32⟩
  | 30 => ⟨S50000, .f32⟩
  | 31 => ⟨S600000x1, .i32⟩
  | 32 => ⟨S50000, .f32⟩
  | 33 => ⟨S_, .f32⟩
  | 34 => ⟨S50000, .f32⟩
  | 35 => ⟨S50000, .i1⟩
  | 36 => ⟨S_, .f32⟩
  | 37 => ⟨S50000, .f32⟩
  | 38 => ⟨S50000, .f32⟩
  | 39 => ⟨S_, .f32⟩
  | 40 => ⟨S_, .f32⟩
  | 41 => ⟨S50000, .f32⟩
  | 42 => ⟨S50000, .f32⟩
  | 43 => ⟨S100000x128, .f32⟩
  | 44 => ⟨S_, .i32⟩
  | 45 => ⟨S600000, .i32⟩
  | 46 => ⟨S600000, .i1⟩
  | 47 => ⟨S_, .i32⟩
  | 48 => ⟨S600000, .i32⟩
  | 49 => ⟨S600000, .i32⟩
  | 50 => ⟨S600000, .i32⟩
  | 51 => ⟨S600000x1, .i32⟩
  | 52 => ⟨S600000, .f32⟩
  | 53 => ⟨S600000x1, .f32⟩
  | 54 => ⟨S_, .i32⟩
  | 55 => ⟨S600000, .i32⟩
  | 56 => ⟨S600000, .i1⟩
  | 57 => ⟨S_, .i32⟩
  | 58 => ⟨S600000, .i32⟩
  | 59 => ⟨S600000, .i32⟩
  | 60 => ⟨S600000, .i32⟩
  | 61 => ⟨S600000x1, .i32⟩
  | 62 => ⟨S600000x128, .f32⟩
  | 63 => ⟨S600000x128, .f32⟩
  | 64 => ⟨S600000x128, .f32⟩
  | 65 => ⟨S_, .f32⟩
  | 66 => ⟨S50000x128, .f32⟩
  | 67 => ⟨S600000x1, .i32⟩
  | 68 => ⟨S50000x128, .f32⟩
  | 69 => ⟨S_, .i32⟩
  | 70 => ⟨S600000, .i32⟩
  | 71 => ⟨S600000, .i1⟩
  | 72 => ⟨S_, .i32⟩
  | 73 => ⟨S600000, .i32⟩
  | 74 => ⟨S600000, .i32⟩
  | 75 => ⟨S600000, .i32⟩
  | 76 => ⟨S600000x1, .i32⟩
  | 77 => ⟨S600000, .f32⟩
  | 78 => ⟨S600000x1, .f32⟩
  | 79 => ⟨S_, .i32⟩
  | 80 => ⟨S600000, .i32⟩
  | 81 => ⟨S600000, .i1⟩
  | 82 => ⟨S_, .i32⟩
  | 83 => ⟨S600000, .i32⟩
  | 84 => ⟨S600000, .i32⟩
  | 85 => ⟨S600000, .i32⟩
  | 86 => ⟨S600000x1, .i32⟩
  | 87 => ⟨S600000x128, .f32⟩
  | 88 => ⟨S600000x128, .f32⟩
  | 89 => ⟨S600000x128, .f32⟩
  | 90 => ⟨S_, .f32⟩
  | 91 => ⟨S100000x128, .f32⟩
  | 92 => ⟨S600000x1, .i32⟩
  | 93 => ⟨S100000x128, .f32⟩
  | 94 => ⟨S1x128, .f32⟩
  | 95 => ⟨S100000x128, .f32⟩
  | 96 => ⟨S100000x128, .f32⟩
  | 97 => ⟨S_, .i32⟩
  | 98 => ⟨S600000, .i32⟩
  | 99 => ⟨S600000, .i1⟩
  | 100 => ⟨S_, .i32⟩
  | 101 => ⟨S600000, .i32⟩
  | 102 => ⟨S600000, .i32⟩
  | 103 => ⟨S600000, .i32⟩
  | 104 => ⟨S600000x1, .i32⟩
  | 105 => ⟨S600000, .f32⟩
  | 106 => ⟨S600000x1, .f32⟩
  | 107 => ⟨S_, .i32⟩
  | 108 => ⟨S600000, .i32⟩
  | 109 => ⟨S600000, .i1⟩
  | 110 => ⟨S_, .i32⟩
  | 111 => ⟨S600000, .i32⟩
  | 112 => ⟨S600000, .i32⟩
  | 113 => ⟨S600000, .i32⟩
  | 114 => ⟨S600000x1, .i32⟩
  | 115 => ⟨S600000x128, .f32⟩
  | 116 => ⟨S600000x128, .f32⟩
  | 117 => ⟨S600000x128, .f32⟩
  | 118 => ⟨S_, .f32⟩
  | 119 => ⟨S50000x128, .f32⟩
  | 120 => ⟨S600000x1, .i32⟩
  | 121 => ⟨S50000x128, .f32⟩
  | 122 => ⟨S_, .i32⟩
  | 123 => ⟨S600000, .i32⟩
  | 124 => ⟨S600000, .i1⟩
  | 125 => ⟨S_, .i32⟩
  | 126 => ⟨S600000, .i32⟩
  | 127 => ⟨S600000, .i32⟩
  | _ => ⟨S100000x128, .f32⟩

abbrev hbmTy0_1 (i : Nat) : BufTy := match i % 128 with
  | 0 => ⟨S600000, .i32⟩
  | 1 => ⟨S600000x1, .i32⟩
  | 2 => ⟨S600000, .f32⟩
  | 3 => ⟨S600000x1, .f32⟩
  | 4 => ⟨S_, .i32⟩
  | 5 => ⟨S600000, .i32⟩
  | 6 => ⟨S600000, .i1⟩
  | 7 => ⟨S_, .i32⟩
  | 8 => ⟨S600000, .i32⟩
  | 9 => ⟨S600000, .i32⟩
  | 10 => ⟨S600000, .i32⟩
  | 11 => ⟨S600000x1, .i32⟩
  | 12 => ⟨S600000x128, .f32⟩
  | 13 => ⟨S600000x128, .f32⟩
  | 14 => ⟨S600000x128, .f32⟩
  | 15 => ⟨S_, .f32⟩
  | 16 => ⟨S100000x128, .f32⟩
  | 17 => ⟨S600000x1, .i32⟩
  | 18 => ⟨S100000x128, .f32⟩
  | 19 => ⟨S1x128, .f32⟩
  | 20 => ⟨S100000x128, .f32⟩
  | 21 => ⟨S100000x128, .f32⟩
  | 22 => ⟨S_, .i32⟩
  | 23 => ⟨S600000, .i32⟩
  | 24 => ⟨S600000, .i1⟩
  | 25 => ⟨S_, .i32⟩
  | 26 => ⟨S600000, .i32⟩
  | 27 => ⟨S600000, .i32⟩
  | 28 => ⟨S600000, .i32⟩
  | 29 => ⟨S600000x1, .i32⟩
  | 30 => ⟨S600000, .f32⟩
  | 31 => ⟨S600000x1, .f32⟩
  | 32 => ⟨S_, .i32⟩
  | 33 => ⟨S600000, .i32⟩
  | 34 => ⟨S600000, .i1⟩
  | 35 => ⟨S_, .i32⟩
  | 36 => ⟨S600000, .i32⟩
  | 37 => ⟨S600000, .i32⟩
  | 38 => ⟨S600000, .i32⟩
  | 39 => ⟨S600000x1, .i32⟩
  | 40 => ⟨S600000x128, .f32⟩
  | 41 => ⟨S600000x128, .f32⟩
  | 42 => ⟨S600000x128, .f32⟩
  | 43 => ⟨S_, .f32⟩
  | 44 => ⟨S50000x128, .f32⟩
  | 45 => ⟨S600000x1, .i32⟩
  | 46 => ⟨S50000x128, .f32⟩
  | 47 => ⟨S_, .i32⟩
  | 48 => ⟨S600000, .i32⟩
  | 49 => ⟨S600000, .i1⟩
  | 50 => ⟨S_, .i32⟩
  | 51 => ⟨S600000, .i32⟩
  | 52 => ⟨S600000, .i32⟩
  | 53 => ⟨S600000, .i32⟩
  | 54 => ⟨S600000x1, .i32⟩
  | 55 => ⟨S600000, .f32⟩
  | 56 => ⟨S600000x1, .f32⟩
  | 57 => ⟨S_, .i32⟩
  | 58 => ⟨S600000, .i32⟩
  | 59 => ⟨S600000, .i1⟩
  | 60 => ⟨S_, .i32⟩
  | 61 => ⟨S600000, .i32⟩
  | 62 => ⟨S600000, .i32⟩
  | 63 => ⟨S600000, .i32⟩
  | 64 => ⟨S600000x1, .i32⟩
  | 65 => ⟨S600000x128, .f32⟩
  | 66 => ⟨S600000x128, .f32⟩
  | 67 => ⟨S600000x128, .f32⟩
  | 68 => ⟨S_, .f32⟩
  | 69 => ⟨S100000x128, .f32⟩
  | 70 => ⟨S600000x1, .i32⟩
  | 71 => ⟨S100000x128, .f32⟩
  | 72 => ⟨S1x128, .f32⟩
  | 73 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v12 : Ref sig .tc := ⟨.hbm, 28, rfl⟩
abbrev main_cst_4 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_5 : Ref sig .tc := ⟨.hbm, 33, rfl⟩
abbrev main_v16 : Ref sig .tc := ⟨.hbm, 34, rfl⟩
abbrev main_v17 : Ref sig .tc := ⟨.hbm, 35, rfl⟩
abbrev main_cst_6 : Ref sig .tc := ⟨.hbm, 36, rfl⟩
abbrev main_v18 : Ref sig .tc := ⟨.hbm, 37, rfl⟩
abbrev main_v19 : Ref sig .tc := ⟨.hbm, 38, rfl⟩
abbrev main_cst_7 : Ref sig .tc := ⟨.hbm, 39, rfl⟩
abbrev main_call1_v0 : Ref sig .tc := ⟨.hbm, 40, rfl⟩
abbrev main_call1_v1 : Ref sig .tc := ⟨.hbm, 41, rfl⟩
abbrev main_v20 : Ref sig .tc := ⟨.hbm, 42, rfl⟩
abbrev main_v21 : Ref sig .tc := ⟨.hbm, 43, rfl⟩
abbrev main_c : Ref sig .tc := ⟨.hbm, 44, rfl⟩
abbrev main_v22 : Ref sig .tc := ⟨.hbm, 45, rfl⟩
abbrev main_v23 : Ref sig .tc := ⟨.hbm, 46, rfl⟩
abbrev main_c_8 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_9 : Ref sig .tc := ⟨.hbm, 54, rfl⟩
abbrev main_v30 : Ref sig .tc := ⟨.hbm, 55, rfl⟩
abbrev main_v31 : Ref sig .tc := ⟨.hbm, 56, rfl⟩
abbrev main_c_10 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_11 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_c_12 : Ref sig .tc := ⟨.hbm, 69, rfl⟩
abbrev main_v42 : Ref sig .tc := ⟨.hbm, 70, rfl⟩
abbrev main_v43 : Ref sig .tc := ⟨.hbm, 71, rfl⟩
abbrev main_c_13 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_c_14 : Ref sig .tc := ⟨.hbm, 79, rfl⟩
abbrev main_v50 : Ref sig .tc := ⟨.hbm, 80, rfl⟩
abbrev main_v51 : Ref sig .tc := ⟨.hbm, 81, rfl⟩
abbrev main_c_15 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_16 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_c_17 : Ref sig .tc := ⟨.hbm, 97, rfl⟩
abbrev main_v65 : Ref sig .tc := ⟨.hbm, 98, rfl⟩
abbrev main_v66 : Ref sig .tc := ⟨.hbm, 99, rfl⟩
abbrev main_c_18 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_c_19 : Ref sig .tc := ⟨.hbm, 107, rfl⟩
abbrev main_v73 : Ref sig .tc := ⟨.hbm, 108, rfl⟩
abbrev main_v74 : Ref sig .tc := ⟨.hbm, 109, rfl⟩
abbrev main_c_20 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_21 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_c_22 : Ref sig .tc := ⟨.hbm, 122, rfl⟩
abbrev main_v85 : Ref sig .tc := ⟨.hbm, 123, rfl⟩
abbrev main_v86 : Ref sig .tc := ⟨.hbm, 124, rfl⟩
abbrev main_c_23 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_c_24 : Ref sig .tc := ⟨.hbm, 132, rfl⟩
abbrev main_v93 : Ref sig .tc := ⟨.hbm, 133, rfl⟩
abbrev main_v94 : Ref sig .tc := ⟨.hbm, 134, rfl⟩
abbrev main_c_25 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_cst_26 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_c_27 : Ref sig .tc := ⟨.hbm, 150, rfl⟩
abbrev main_v108 : Ref sig .tc := ⟨.hbm, 151, rfl⟩
abbrev main_v109 : Ref sig .tc := ⟨.hbm, 152, rfl⟩
abbrev main_c_28 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_c_29 : Ref sig .tc := ⟨.hbm, 160, rfl⟩
abbrev main_v116 : Ref sig .tc := ⟨.hbm, 161, rfl⟩
abbrev main_v117 : Ref sig .tc := ⟨.hbm, 162, rfl⟩
abbrev main_c_30 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_cst_31 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_c_32 : Ref sig .tc := ⟨.hbm, 175, rfl⟩
abbrev main_v128 : Ref sig .tc := ⟨.hbm, 176, rfl⟩
abbrev main_v129 : Ref sig .tc := ⟨.hbm, 177, rfl⟩
abbrev main_c_33 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_c_34 : Ref sig .tc := ⟨.hbm, 185, rfl⟩
abbrev main_v136 : Ref sig .tc := ⟨.hbm, 186, rfl⟩
abbrev main_v137 : Ref sig .tc := ⟨.hbm, 187, rfl⟩
abbrev main_c_35 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_cst_36 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S_S50000 : S_.BroadcastsInDim S50000 (![] : Fin 0 → Fin S50000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S600000x1_S600000_n_0_0_1_wf : ScatterDims.WF S100000 S600000x1 S600000 [] [0] [0] 1
  scatter_S50000_S600000x1_S600000_n_0_0_1_wf : ScatterDims.WF S50000 S600000x1 S600000 [] [0] [0] 1
  dot_S5000x128_S128x128_S5000x128_1_0_0_1_n_n_wf : DotDims.WF S5000x128 S128x128 S5000x128 [1] [0] [0] [1] [] []
  gather_S50000_S600000x1_S600000_n_0_n_n_0_1_1_wf : GatherDims.WF S50000 S600000x1 S600000 [] [0] [] [0] [] 1 ![1]
  gather_S100000x128_S600000x1_S600000x128_1_0_n_n_0_1_1128_wf : GatherDims.WF S100000x128 S600000x1 S600000x128 [1] [0] [] [0] [] 1 ![1, 128]
  scatter_S50000x128_S600000x1_S600000x128_1_0_0_1_wf : ScatterDims.WF S50000x128 S600000x1 S600000x128 [1] [0] [0] 1
  gather_S100000_S600000x1_S600000_n_0_n_n_0_1_1_wf : GatherDims.WF S100000 S600000x1 S600000 [] [0] [] [0] [] 1 ![1]
  gather_S50000x128_S600000x1_S600000x128_1_0_n_n_0_1_1128_wf : GatherDims.WF S50000x128 S600000x1 S600000x128 [1] [0] [] [0] [] 1 ![1, 128]
  scatter_S100000x128_S600000x1_S600000x128_1_0_0_1_wf : ScatterDims.WF S100000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v61) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v62) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v63) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v63) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v64) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v104) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v105) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v106) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v106) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v107) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v147) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v148) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v149) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S100000 : Shape := ⟨1, ![100000]⟩
abbrev S600000x1 : Shape := ⟨2, ![600000, 1]⟩
abbrev S600000x128 : Shape := ⟨2, ![600000, 128]⟩
abbrev S50000x128 : Shape := ⟨2, ![50000, 128]⟩
abbrev S1x128 : Shape := ⟨2, ![1, 128]⟩

abbrev nBuf : Space → Nat
  | .hbm => 295
  | .vmem => 0
  | .smem => 0
  | _ => 0

abbrev hbmTy0_0 (i : Nat) : BufTy := match i % 128 with
  | 0 => ⟨S100000x128, .f32⟩
  | 1 => ⟨S2x600000, .i32⟩
  | 2 => ⟨S50000, .f32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S1x600000, .i32⟩
  | 10 => ⟨S600000, .i32⟩
  | 11 => ⟨S1x600000, .i32⟩
  | 12 => ⟨S600000, .i32⟩
  | 13 => ⟨S100000x128, .f32⟩
  | 14 => ⟨S_, .f32⟩
  | 15 => ⟨S600000, .f32⟩
  | 16 => ⟨S_, .f32⟩
  | 17 => ⟨S100000, .f32⟩
  | 18 => ⟨S600000x1, .i32⟩
  | 19 => ⟨S100000, .f32⟩
  | 20 => ⟨S_, .f32⟩
  | 21 => ⟨S100000, .f32⟩
  | 22 => ⟨S100000, .i1⟩
  | 23 => ⟨S_, .f32⟩
  | 24 => ⟨S100000, .f32⟩
  | 25 => ⟨S100000, .f32⟩
  | 26 => ⟨S_, .f32⟩
  | 27 => ⟨S_, .f32⟩
  | 28 => ⟨S100000, .f32⟩
  | 29 => ⟨S100000, .f32⟩
  | 30 => ⟨S_, .f32⟩
  | 31 => ⟨S50000, .f32⟩
  | 32 => ⟨S600000x1, .i32⟩
  | 33 => ⟨S50000, .f32⟩
  | 34 => ⟨S_, .f32⟩
  | 35 => ⟨S50000, .f32⟩
  | 36 => ⟨S50000, .i1⟩
  | 37 => ⟨S_, .f32⟩
  | 38 => ⟨S50000, .f32⟩
  | 39 => ⟨S50000, .f32⟩
  | 40 => ⟨S_, .f32⟩
  | 41 => ⟨S_, .f32⟩
  | 42 => ⟨S50000, .f32⟩
  | 43 => ⟨S50000, .f32⟩
  | 44 => ⟨S_, .i32⟩
  | 45 => ⟨S600000, .i32⟩
  | 46 => ⟨S600000, .i1⟩
  | 47 => ⟨S_, .i32⟩
  | 48 => ⟨S600000, .i32⟩
  | 49 => ⟨S600000, .i32⟩
  | 50 => ⟨S600000, .i32⟩
  | 51 => ⟨S600000x1, .i32⟩
  | 52 => ⟨S600000, .f32⟩
  | 53 => ⟨S600000x1, .f32⟩
  | 54 => ⟨S_, .i32⟩
  | 55 => ⟨S600000, .i32⟩
  | 56 => ⟨S600000, .i1⟩
  | 57 => ⟨S_, .i32⟩
  | 58 => ⟨S600000, .i32⟩
  | 59 => ⟨S600000, .i32⟩
  | 60 => ⟨S600000, .i32⟩
  | 61 => ⟨S600000x1, .i32⟩
  | 62 => ⟨S600000x128, .f32⟩
  | 63 => ⟨S600000x128, .f32⟩
  | 64 => ⟨S600000x128, .f32⟩
  | 65 => ⟨S_, .f32⟩
  | 66 => ⟨S50000x128, .f32⟩
  | 67 => ⟨S600000x1, .i32⟩
  | 68 => ⟨S50000x128, .f32⟩
  | 69 => ⟨S_, .i32⟩
  | 70 => ⟨S600000, .i32⟩
  | 71 => ⟨S600000, .i1⟩
  | 72 => ⟨S_, .i32⟩
  | 73 => ⟨S600000, .i32⟩
  | 74 => ⟨S600000, .i32⟩
  | 75 => ⟨S600000, .i32⟩
  | 76 => ⟨S600000x1, .i32⟩
  | 77 => ⟨S600000, .f32⟩
  | 78 => ⟨S600000x1, .f32⟩
  | 79 => ⟨S_, .i32⟩
  | 80 => ⟨S600000, .i32⟩
  | 81 => ⟨S600000, .i1⟩
  | 82 => ⟨S_, .i32⟩
  | 83 => ⟨S600000, .i32⟩
  | 84 => ⟨S600000, .i32⟩
  | 85 => ⟨S600000, .i32⟩
  | 86 => ⟨S600000x1, .i32⟩
  | 87 => ⟨S600000x128, .f32⟩
  | 88 => ⟨S600000x128, .f32⟩
  | 89 => ⟨S600000x128, .f32⟩
  | 90 => ⟨S_, .f32⟩
  | 91 => ⟨S100000x128, .f32⟩
  | 92 => ⟨S600000x1, .i32⟩
  | 93 => ⟨S100000x128, .f32⟩
  | 94 => ⟨S1x128, .f32⟩
  | 95 => ⟨S100000x128, .f32⟩
  | 96 => ⟨S100000x128, .f32⟩
  | 97 => ⟨S_, .f32⟩
  | 98 => ⟨S100000x128, .f32⟩
  | 99 => ⟨S100000x128, .i1⟩
  | 100 => ⟨S_, .f32⟩
  | 101 => ⟨S100000x128, .f32⟩
  | 102 => ⟨S100000x128, .i1⟩
  | 103 => ⟨S_, .f32⟩
  | 104 => ⟨S_, .f32⟩
  | 105 => ⟨S100000x128, .f32⟩
  | 106 => ⟨S100000x128, .f32⟩
  | 107 => ⟨S100000x128, .f32⟩
  | 108 => ⟨S_, .f32⟩
  | 109 => ⟨S100000x128, .f32⟩
  | 110 => ⟨S100000x128, .f32⟩
  | 111 => ⟨S100000x128, .f32⟩
  | 112 => ⟨S100000x128, .f32⟩
  | 113 => ⟨S_, .f32⟩
  | 114 => ⟨S600000, .f32⟩
  | 115 => ⟨S_, .f32⟩
  | 116 => ⟨S100000, .f32⟩
  | 117 => ⟨S600000x1, .i32⟩
  | 118 => ⟨S100000, .f32⟩
  | 119 => ⟨S_, .f32⟩
  | 120 => ⟨S100000, .f32⟩
  | 121 => ⟨S100000, .i1⟩
  | 122 => ⟨S_, .f32⟩
  | 123 => ⟨S100000, .f32⟩
  | 124 => ⟨S100000, .f32⟩
  | 125 => ⟨S_, .f32⟩
  | 126 => ⟨S_, .f32⟩
  | 127 => ⟨S100000, .f32⟩
  | _ => ⟨S100000x128, .f32⟩

abbrev hbmTy0_1 (i : Nat) : BufTy := match i % 128 with
  | 0 => ⟨S100000, .f32⟩
  | 1 => ⟨S_, .f32⟩
  | 2 => ⟨S50000, .f32⟩
  | 3 => ⟨S600000x1, .i32⟩
  | 4 => ⟨S50000, .f32⟩
  | 5 => ⟨S_, .f32⟩
  | 6 => ⟨S50000, .f32⟩
  | 7 => ⟨S50000, .i1⟩
  | 8 => ⟨S_, .f32⟩
  | 9 => ⟨S50000, .f32⟩
  | 10 => ⟨S50000, .f32⟩
  | 11 => ⟨S_, .f32⟩
  | 12 => ⟨S_, .f32⟩
  | 13 => ⟨S50000, .f32⟩
  | 14 => ⟨S50000, .f32⟩
  | 15 => ⟨S_, .i32⟩
  | 16 => ⟨S600000, .i32⟩
  | 17 => ⟨S600000, .i1⟩
  | 18 => ⟨S_, .i32⟩
  | 19 => ⟨S600000, .i32⟩
  | 20 => ⟨S600000, .i32⟩
  | 21 => ⟨S600000, .i32⟩
  | 22 => ⟨S600000x1, .i32⟩
  | 23 => ⟨S600000, .f32⟩
  | 24 => ⟨S600000x1, .f32⟩
  | 25 => ⟨S_, .i32⟩
  | 26 => ⟨S600000, .i32⟩
  | 27 => ⟨S600000, .i1⟩
  | 28 => ⟨S_, .i32⟩
  | 29 => ⟨S600000, .i32⟩
  | 30 => ⟨S600000, .i32⟩
  | 31 => ⟨S600000, .i32⟩
  | 32 => ⟨S600000x1, .i32⟩
  | 33 => ⟨S600000x128, .f32⟩
  | 34 => ⟨S600000x128, .f32⟩
  | 35 => ⟨S600000x128, .f32⟩
  | 36 => ⟨S_, .f32⟩
  | 37 => ⟨S50000x128, .f32⟩
  | 38 => ⟨S600000x1, .i32⟩
  | 39 => ⟨S50000x128, .f32⟩
  | 40 => ⟨S_, .i32⟩
  | 41 => ⟨S600000, .i32⟩
  | 42 => ⟨S600000, .i1⟩
  | 43 => ⟨S_, .i32⟩
  | 44 => ⟨S600000, .i32⟩
  | 45 => ⟨S600000, .i32⟩
  | 46 => ⟨S600000, .i32⟩
  | 47 => ⟨S600000x1, .i32⟩
  | 48 => ⟨S600000, .f32⟩
  | 49 => ⟨S600000x1, .f32⟩
  | 50 => ⟨S_, .i32⟩
  | 51 => ⟨S600000, .i32⟩
  | 52 => ⟨S600000, .i1⟩
  | 53 => ⟨S_, .i32⟩
  | 54 => ⟨S600000, .i32⟩
  | 55 => ⟨S600000, .i32⟩
  | 56 => ⟨S600000, .i32⟩
  | 57 => ⟨S600000x1, .i32⟩
  | 58 => ⟨S600000x128, .f32⟩
  | 59 => ⟨S600000x128, .f32⟩
  | 60 => ⟨S600000x128, .f32⟩
  | 61 => ⟨S_, .f32⟩
  | 62 => ⟨S100000x128, .f32⟩
  | 63 => ⟨S600000x1, .i32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .i1⟩
  | 71 => ⟨S_, .f32⟩
  | 72 => ⟨S100000x128, .f32⟩
  | 73 => ⟨S100000x128, .i1⟩
  | 74 => ⟨S_, .f32⟩
  | 75 => ⟨S_, .f32⟩
  | 76 => ⟨S100000x128, .f32⟩
  | 77 => ⟨S100000x128, .f32⟩
  | 78 => ⟨S100000x128, .f32⟩
  | 79 => ⟨S_, .f32⟩
  | 80 => ⟨S100000x128, .f32⟩
  | 81 => ⟨S100000x128, .f32⟩
  | 82 => ⟨S100000x128, .f32⟩
  | 83 => ⟨S100000x128, .f32⟩
  | 84 => ⟨S_, .f32⟩
  | 85 => ⟨S600000, .f32⟩
  | 86 => ⟨S_, .f32⟩
  | 87 => ⟨S100000, .f32⟩
  | 88 => ⟨S600000x1, .i32⟩
  | 89 => ⟨S100000, .f32⟩
  | 90 => ⟨S_, .f32⟩
  | 91 => ⟨S100000, .f32⟩
  | 92 => ⟨S100000, .i1⟩
  | 93 => ⟨S_, .f32⟩
  | 94 => ⟨S100000, .f32⟩
  | 95 => ⟨S100000, .f32⟩
  | 96 => ⟨S_, .f32⟩
  | 97 => ⟨S_, .f32⟩
  | 98 => ⟨S100000, .f32⟩
  | 99 => ⟨S100000, .f32⟩
  | 100 => ⟨S_, .f32⟩
  | 101 => ⟨S50000, .f32⟩
  | 102 => ⟨S600000x1, .i32⟩
  | 103 => ⟨S50000, .f32⟩
  | 104 => ⟨S_, .f32⟩
  | 105 => ⟨S50000, .f32⟩
  | 106 => ⟨S50000, .i1⟩
  | 107 => ⟨S_, .f32⟩
  | 108 => ⟨S50000, .f32⟩
  | 109 => ⟨S50000, .f32⟩
  | 110 => ⟨S_, .f32⟩
  | 111 => ⟨S_, .f32⟩
  | 112 => ⟨S50000, .f32⟩
  | 113 => ⟨S50000, .f32⟩
  | 114 => ⟨S_, .i32⟩
  | 115 => ⟨S600000, .i32⟩
  | 116 => ⟨S600000, .i1⟩
  | 117 => ⟨S_, .i32⟩
  | 118 => ⟨S600000, .i32⟩
  | 119 => ⟨S600000, .i32⟩
  | 120 => ⟨S600000, .i32⟩
  | 121 => ⟨S600000x1, .i32⟩
  | 122 => ⟨S600000, .f32⟩
  | 123 => ⟨S600000x1, .f32⟩
  | 124 => ⟨S_, .i32⟩
  | 125 => ⟨S600000, .i32⟩
  | 126 => ⟨S600000, .i1⟩
  | 127 => ⟨S_, .i32⟩
  | _ => ⟨S100000x128, .f32⟩

abbrev hbmTy0_2 (i : Nat) : BufTy := match i % 128 with
  | 0 => ⟨S600000, .i32⟩
  | 1 => ⟨S600000, .i32⟩
  | 2 => ⟨S600000, .i32⟩
  | 3 => ⟨S600000x1, .i32⟩
  | 4 => ⟨S600000x128, .f32⟩
  | 5 => ⟨S600000x128, .f32⟩
  | 6 => ⟨S600000x128, .f32⟩
  | 7 => ⟨S_, .f32⟩
  | 8 => ⟨S50000x128, .f32⟩
  | 9 => ⟨S600000x1, .i32⟩
  | 10 => ⟨S50000x128, .f32⟩
  | 11 => ⟨S_, .i32⟩
  | 12 => ⟨S600000, .i32⟩
  | 13 => ⟨S600000, .i1⟩
  | 14 => ⟨S_, .i32⟩
  | 15 => ⟨S600000, .i32⟩
  | 16 => ⟨S600000, .i32⟩
  | 17 => ⟨S600000, .i32⟩
  | 18 => ⟨S600000x1, .i32⟩
  | 19 => ⟨S600000, .f32⟩
  | 20 => ⟨S600000x1, .f32⟩
  | 21 => ⟨S_, .i32⟩
  | 22 => ⟨S600000, .i32⟩
  | 23 => ⟨S600000, .i1⟩
  | 24 => ⟨S_, .i32⟩
  | 25 => ⟨S600000, .i32⟩
  | 26 => ⟨S600000, .i32⟩
  | 27 => ⟨S600000, .i32⟩
  | 28 => ⟨S600000x1, .i32⟩
  | 29 => ⟨S600000x128, .f32⟩
  | 30 => ⟨S600000x128, .f32⟩
  | 31 => ⟨S600000x128, .f32⟩
  | 32 => ⟨S_, .f32⟩
  | 33 => ⟨S100000x128, .f32⟩
  | 34 => ⟨S600000x1, .i32⟩
  | 35 => ⟨S100000x128, .f32⟩
  | 36 => ⟨S1x128, .f32⟩
  | 37 => ⟨S100000x128, .f32⟩
  | 38 => ⟨S100000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v13 : Ref sig .tc := ⟨.hbm, 29, rfl⟩
abbrev main_cst_4 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_5 : Ref sig .tc := ⟨.hbm, 34, rfl⟩
abbrev main_v17 : Ref sig .tc := ⟨.hbm, 35, rfl⟩
abbrev main_v18 : Ref sig .tc := ⟨.hbm, 36, rfl⟩
abbrev main_cst_6 : Ref sig .tc := ⟨.hbm, 37, rfl⟩
abbrev main_v19 : Ref sig .tc := ⟨.hbm, 38, rfl⟩
abbrev main_v20 : Ref sig .tc := ⟨.hbm, 39, rfl⟩
abbrev main_cst_7 : Ref sig .tc := ⟨.hbm, 40, rfl⟩
abbrev main_call1_v0 : Ref sig .tc := ⟨.hbm, 41, rfl⟩
abbrev main_call1_v1 : Ref sig .tc := ⟨.hbm, 42, rfl⟩
abbrev main_v21 : Ref sig .tc := ⟨.hbm, 43, rfl⟩
abbrev main_c : Ref sig .tc := ⟨.hbm, 44, rfl⟩
abbrev main_v22 : Ref sig .tc := ⟨.hbm, 45, rfl⟩
abbrev main_v23 : Ref sig .tc := ⟨.hbm, 46, rfl⟩
abbrev main_c_8 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_9 : Ref sig .tc := ⟨.hbm, 54, rfl⟩
abbrev main_v30 : Ref sig .tc := ⟨.hbm, 55, rfl⟩
abbrev main_v31 : Ref sig .tc := ⟨.hbm, 56, rfl⟩
abbrev main_c_10 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_11 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_c_12 : Ref sig .tc := ⟨.hbm, 69, rfl⟩
abbrev main_v42 : Ref sig .tc := ⟨.hbm, 70, rfl⟩
abbrev main_v43 : Ref sig .tc := ⟨.hbm, 71, rfl⟩
abbrev main_c_13 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_c_14 : Ref sig .tc := ⟨.hbm, 79, rfl⟩
abbrev main_v50 : Ref sig .tc := ⟨.hbm, 80, rfl⟩
abbrev main_v51 : Ref sig .tc := ⟨.hbm, 81, rfl⟩
abbrev main_c_15 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_16 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_call2_cst : Ref sig .tc := ⟨.hbm, 97, rfl⟩
abbrev main_call2_v0 : Ref sig .tc := ⟨.hbm, 98, rfl⟩
abbrev main_call2_v1 : Ref sig .tc := ⟨.hbm, 99, rfl⟩
abbrev main_call2_cst_0 : Ref sig .tc := ⟨.hbm, 100, rfl⟩
abbrev main_call2_v2 : Ref sig .tc := ⟨.hbm, 101, rfl⟩
abbrev main_call2_v3 : Ref sig .tc := ⟨.hbm, 102, rfl⟩
abbrev main_call2_cst_1 : Ref sig .tc := ⟨.hbm, 103, rfl⟩
abbrev main_call2_call0_v0 : Ref sig .tc := ⟨.hbm, 104, rfl⟩
abbrev main_call2_call0_v1 : Ref sig .tc := ⟨.hbm, 105, rfl⟩
abbrev main_call2_v4 : Ref sig .tc := ⟨.hbm, 106, rfl⟩
abbrev main_call2_v5 : Ref sig .tc := ⟨.hbm, 107, rfl⟩
abbrev main_call2_cst_2 : Ref sig .tc := ⟨.hbm, 108, rfl⟩
abbrev main_call2_v6 : Ref sig .tc := ⟨.hbm, 109, rfl⟩
abbrev main_call2_v7 : Ref sig .tc := ⟨.hbm, 110, rfl⟩
abbrev main_v65 : Ref sig .tc := ⟨.hbm, 111, rfl⟩
abbrev main_v66 : Ref sig .tc := ⟨.hbm, 112, rfl⟩
abbrev main_cst_17 : Ref sig .tc := ⟨.hbm, 113, rfl⟩
abbrev main_v67 : Ref sig .tc := ⟨.hbm, 114, rfl⟩
abbrev main_cst_18 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_cst_19 : Ref sig .tc := ⟨.hbm, 119, rfl⟩
abbrev main_v71 : Ref sig .tc := ⟨.hbm, 120, rfl⟩
abbrev main_v72 : Ref sig .tc := ⟨.hbm, 121, rfl⟩
abbrev main_cst_20 : Ref sig .tc := ⟨.hbm, 122, rfl⟩
abbrev main_v73 : Ref sig .tc := ⟨.hbm, 123, rfl⟩
abbrev main_v74 : Ref sig .tc := ⟨.hbm, 124, rfl⟩
abbrev main_cst_21 : Ref sig .tc := ⟨.hbm, 125, rfl⟩
abbrev main_call3_v0 : Ref sig .tc := ⟨.hbm, 126, rfl⟩
abbrev main_call3_v1 : Ref sig .tc := ⟨.hbm, 127, rfl⟩
abbrev main_v75 : Ref sig .tc := ⟨.hbm, 128, rfl⟩
abbrev main_cst_22 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_cst_23 : Ref sig .tc := ⟨.hbm, 133, rfl⟩
abbrev main_v79 : Ref sig .tc := ⟨.hbm, 134, rfl⟩
abbrev main_v80 : Ref sig .tc := ⟨.hbm, 135, rfl⟩
abbrev main_cst_24 : Ref sig .tc := ⟨.hbm, 136, rfl⟩
abbrev main_v81 : Ref sig .tc := ⟨.hbm, 137, rfl⟩
abbrev main_v82 : Ref sig .tc := ⟨.hbm, 138, rfl⟩
abbrev main_cst_25 : Ref sig .tc := ⟨.hbm, 139, rfl⟩
abbrev main_call4_v0 : Ref sig .tc := ⟨.hbm, 140, rfl⟩
abbrev main_call4_v1 : Ref sig .tc := ⟨.hbm, 141, rfl⟩
abbrev main_v83 : Ref sig .tc := ⟨.hbm, 142, rfl⟩
abbrev main_c_26 : Ref sig .tc := ⟨.hbm, 143, rfl⟩
abbrev main_v84 : Ref sig .tc := ⟨.hbm, 144, rfl⟩
abbrev main_v85 : Ref sig .tc := ⟨.hbm, 145, rfl⟩
abbrev main_c_27 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_c_28 : Ref sig .tc := ⟨.hbm, 153, rfl⟩
abbrev main_v92 : Ref sig .tc := ⟨.hbm, 154, rfl⟩
abbrev main_v93 : Ref sig .tc := ⟨.hbm, 155, rfl⟩
abbrev main_c_29 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_cst_30 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_c_31 : Ref sig .tc := ⟨.hbm, 168, rfl⟩
abbrev main_v104 : Ref sig .tc := ⟨.hbm, 169, rfl⟩
abbrev main_v105 : Ref sig .tc := ⟨.hbm, 170, rfl⟩
abbrev main_c_32 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_c_33 : Ref sig .tc := ⟨.hbm, 178, rfl⟩
abbrev main_v112 : Ref sig .tc := ⟨.hbm, 179, rfl⟩
abbrev main_v113 : Ref sig .tc := ⟨.hbm, 180, rfl⟩
abbrev main_c_34 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_cst_35 : Ref sig .tc := ⟨.hbm, 189, rfl⟩
abbrev main_v121 : Ref sig .tc := ⟨.hbm, 190, rfl⟩
abbrev main_v122 : Ref sig .tc := ⟨.hbm, 191, rfl⟩
abbrev main_v123 : Ref sig .tc := ⟨.hbm, 192, rfl⟩
abbrev main_v124 : Ref sig .tc := ⟨.hbm, 193, rfl⟩
abbrev main_v125 : Ref sig .tc := ⟨.hbm, 194, rfl⟩
abbrev main_v126 : Ref sig .tc := ⟨.hbm, 195, rfl⟩
abbrev main_call5_cst : Ref sig .tc := ⟨.hbm, 196, rfl⟩
abbrev main_call5_v0 : Ref sig .tc := ⟨.hbm, 197, rfl⟩
abbrev main_call5_v1 : Ref sig .tc := ⟨.hbm, 198, rfl⟩
abbrev main_call5_cst_0 : Ref sig .tc := ⟨.hbm, 199, rfl⟩
abbrev main_call5_v2 : Ref sig .tc := ⟨.hbm, 200, rfl⟩
abbrev main_call5_v3 : Ref sig .tc := ⟨.hbm, 201, rfl⟩
abbrev main_call5_cst_1 : Ref sig .tc := ⟨.hbm, 202, rfl⟩
abbrev main_call5_call0_v0 : Ref sig .tc := ⟨.hbm, 203, rfl⟩
abbrev main_call5_call0_v1 : Ref sig .tc := ⟨.hbm, 204, rfl⟩
abbrev main_call5_v4 : Ref sig .tc := ⟨.hbm, 205, rfl⟩
abbrev main_call5_v5 : Ref sig .tc := ⟨.hbm, 206, rfl⟩
abbrev main_call5_cst_2 : Ref sig .tc := ⟨.hbm, 207, rfl⟩
abbrev main_call5_v6 : Ref sig .tc := ⟨.hbm, 208, rfl⟩
abbrev main_call5_v7 : Ref sig .tc := ⟨.hbm, 209, rfl⟩
abbrev main_v127 : Ref sig .tc := ⟨.hbm, 210, rfl⟩
abbrev main_v128 : Ref sig .tc := ⟨.hbm, 211, rfl⟩
abbrev main_cst_36 : Ref sig .tc := ⟨.hbm, 212, rfl⟩
abbrev main_v129 : Ref sig .tc := ⟨.hbm, 213, rfl⟩
abbrev main_cst_37 : Ref sig .tc := ⟨.hbm, 214, rfl⟩
abbrev main_v130 : Ref sig .tc := ⟨.hbm, 215, rfl⟩
abbrev main_v131 : Ref sig .tc := ⟨.hbm, 216, rfl⟩
abbrev main_v132 : Ref sig .tc := ⟨.hbm, 217, rfl⟩
abbrev main_cst_38 : Ref sig .tc := ⟨.hbm, 218, rfl⟩
abbrev main_v133 : Ref sig .tc := ⟨.hbm, 219, rfl⟩
abbrev main_v134 : Ref sig .tc := ⟨.hbm, 220, rfl⟩
abbrev main_cst_39 : Ref sig .tc := ⟨.hbm, 221, rfl⟩
abbrev main_v135 : Ref sig .tc := ⟨.hbm, 222, rfl⟩
abbrev main_v136 : Ref sig .tc := ⟨.hbm, 223, rfl⟩
abbrev main_cst_40 : Ref sig .tc := ⟨.hbm, 224, rfl⟩
abbrev main_call6_v0 : Ref sig .tc := ⟨.hbm, 225, rfl⟩
abbrev main_call6_v1 : Ref sig .tc := ⟨.hbm, 226, rfl⟩
abbrev main_v137 : Ref sig .tc := ⟨.hbm, 227, rfl⟩
abbrev main_cst_41 : Ref sig .tc := ⟨.hbm, 228, rfl⟩
abbrev main_v138 : Ref sig .tc := ⟨.hbm, 229, rfl⟩
abbrev main_v139 : Ref sig .tc := ⟨.hbm, 230, rfl⟩
abbrev main_v140 : Ref sig .tc := ⟨.hbm, 231, rfl⟩
abbrev main_cst_42 : Ref sig .tc := ⟨.hbm, 232, rfl⟩
abbrev main_v141 : Ref sig .tc := ⟨.hbm, 233, rfl⟩
abbrev main_v142 : Ref sig .tc := ⟨.hbm, 234, rfl⟩
abbrev main_cst_43 : Ref sig .tc := ⟨.hbm, 235, rfl⟩
abbrev main_v143 : Ref sig .tc := ⟨.hbm, 236, rfl⟩
abbrev main_v144 : Ref sig .tc := ⟨.hbm, 237, rfl⟩
abbrev main_cst_44 : Ref sig .tc := ⟨.hbm, 238, rfl⟩
abbrev main_call7_v0 : Ref sig .tc := ⟨.hbm, 239, rfl⟩
abbrev main_call7_v1 : Ref sig .tc := ⟨.hbm, 240, rfl⟩
abbrev main_v145 : Ref sig .tc := ⟨.hbm, 241, rfl⟩
abbrev main_c_45 : Ref sig .tc := ⟨.hbm, 242, rfl⟩
abbrev main_v146 : Ref sig .tc := ⟨.hbm, 243, rfl⟩
abbrev main_v147 : Ref sig .tc := ⟨.hbm, 244, rfl⟩
abbrev main_c_46 : Ref sig .tc := ⟨.hbm, 245, rfl⟩
abbrev main_v148 : Ref sig .tc := ⟨.hbm, 246, rfl⟩
abbrev main_v149 : Ref sig .tc := ⟨.hbm, 247, rfl⟩
abbrev main_v150 : Ref sig .tc := ⟨.hbm, 248, rfl⟩
abbrev main_v151 : Ref sig .tc := ⟨.hbm, 249, rfl⟩
abbrev main_v152 : Ref sig .tc := ⟨.hbm, 250, rfl⟩
abbrev main_v153 : Ref sig .tc := ⟨.hbm, 251, rfl⟩
abbrev main_c_47 : Ref sig .tc := ⟨.hbm, 252, rfl⟩
abbrev main_v154 : Ref sig .tc := ⟨.hbm, 253, rfl⟩
abbrev main_v155 : Ref sig .tc := ⟨.hbm, 254, rfl⟩
abbrev main_c_48 : Ref sig .tc := ⟨.hbm, 255, rfl⟩
abbrev main_v156 : Ref sig .tc := ⟨.hbm, 256, rfl⟩
abbrev main_v157 : Ref sig .tc := ⟨.hbm, 257, rfl⟩
abbrev main_v158 : Ref sig .tc := ⟨.hbm, 258, rfl⟩
abbrev main_v159 : Ref sig .tc := ⟨.hbm, 259, rfl⟩
abbrev main_v160 : Ref sig .tc := ⟨.hbm, 260, rfl⟩
abbrev main_v161 : Ref sig .tc := ⟨.hbm, 261, rfl⟩
abbrev main_v162 : Ref sig .tc := ⟨.hbm, 262, rfl⟩
abbrev main_cst_49 : Ref sig .tc := ⟨.hbm, 263, rfl⟩
abbrev main_v163 : Ref sig .tc := ⟨.hbm, 264, rfl⟩
abbrev main_v164 : Ref sig .tc := ⟨.hbm, 265, rfl⟩
abbrev main_v165 : Ref sig .tc := ⟨.hbm, 266, rfl⟩
abbrev main_c_50 : Ref sig .tc := ⟨.hbm, 267, rfl⟩
abbrev main_v166 : Ref sig .tc := ⟨.hbm, 268, rfl⟩
abbrev main_v167 : Ref sig .tc := ⟨.hbm, 269, rfl⟩
abbrev main_c_51 : Ref sig .tc := ⟨.hbm, 270, rfl⟩
abbrev main_v168 : Ref sig .tc := ⟨.hbm, 271, rfl⟩
abbrev main_v169 : Ref sig .tc := ⟨.hbm, 272, rfl⟩
abbrev main_v170 : Ref sig .tc := ⟨.hbm, 273, rfl⟩
abbrev main_v171 : Ref sig .tc := ⟨.hbm, 274, rfl⟩
abbrev main_v172 : Ref sig .tc := ⟨.hbm, 275, rfl⟩
abbrev main_v173 : Ref sig .tc := ⟨.hbm, 276, rfl⟩
abbrev main_c_52 : Ref sig .tc := ⟨.hbm, 277, rfl⟩
abbrev main_v174 : Ref sig .tc := ⟨.hbm, 278, rfl⟩
abbrev main_v175 : Ref sig .tc := ⟨.hbm, 279, rfl⟩
abbrev main_c_53 : Ref sig .tc := ⟨.hbm, 280, rfl⟩
abbrev main_v176 : Ref sig .tc := ⟨.hbm, 281, rfl⟩
abbrev main_v177 : Ref sig .tc := ⟨.hbm, 282, rfl⟩
abbrev main_v178 : Ref sig .tc := ⟨.hbm, 283, rfl⟩
abbrev main_v179 : Ref sig .tc := ⟨.hbm, 284, rfl⟩
abbrev main_v180 : Ref sig .tc := ⟨.hbm, 285, rfl⟩
abbrev main_v181 : Ref sig .tc := ⟨.hbm, 286, rfl⟩
abbrev main_v182 : Ref sig .tc := ⟨.hbm, 287, rfl⟩
abbrev main_cst_54 : Ref sig .tc := ⟨.hbm, 288, rfl⟩
abbrev main_v183 : Ref sig .tc := ⟨.hbm, 289, rfl⟩
abbrev main_v184 : Ref sig .tc := ⟨.hbm, 290, rfl⟩
abbrev main_v185 : Ref sig .tc := ⟨.hbm, 291, rfl⟩
abbrev main_v186 : Ref sig .tc := ⟨.hbm, 292, rfl⟩
abbrev main_v187 : Ref sig .tc := ⟨.hbm, 293, rfl⟩
abbrev main_v188 : Ref sig .tc := ⟨.hbm, 294, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S_S50000 : S_.BroadcastsInDim S50000 (![] : Fin 0 → Fin S50000.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  scatter_S100000_S600000x1_S600000_n_0_0_1_wf : ScatterDims.WF S100000 S600000x1 S600000 [] [0] [0] 1
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  gather_S100000x128_S600000x1_S600000x128_1_0_n_n_0_1_1128_wf : GatherDims.WF S100000x128 S600000x1 S600000x128 [1] [0] [] [0] [] 1 ![1, 128]
  scatter_S50000x128_S600000x1_S600000x128_1_0_0_1_wf : ScatterDims.WF S50000x128 S600000x1 S600000x128 [1] [0] [0] 1
  gather_S100000_S600000x1_S600000_n_0_n_n_0_1_1_wf : GatherDims.WF S100000 S600000x1 S600000 [] [0] [] [0] [] 1 ![1]
  gather_S50000x128_S600000x1_S600000x128_1_0_n_n_0_1_1128_wf : GatherDims.WF S50000x128 S600000x1 S600000x128 [1] [0] [] [0] [] 1 ![1, 128]
  scatter_S100000x128_S600000x1_S600000x128_1_0_0_1_wf : ScatterDims.WF S100000x128 S600000x1 S600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

class Facts : Prop extends Facts₀ where

variable [Facts]
-- ==== Proof.Spec.lean ====
/-
  What the two programs compute, layer by layer, as whole-array functions over the extended reals.

  One layer of the network is: the rows of the activations times a 128 × 128 weight matrix (`mm`), then a
  gather / scatter-add chain through the hypergraph's incidence lists that both programs spell with the same
  host operations, then the bias row added to every row (`bias`) and, for the two inner layers, the
  exponential linear unit applied entry by entry (`biasElu`).
-/
import Idealize.ShloMosaic.PureOps.Ideal
import Idealize.ShloMosaic.Lib.ValueIdx

noncomputable section

open scoped BigOperators

namespace Cert.Spec

open Idealize.ShloMosaic Idealize.ShloMosaic.ValueIdx

/-- The activations' shape: one row of 128 features per node. -/
abbrev SN : Shape := ⟨2, ![100000, 128]⟩
/-- A weight matrix's shape. -/
abbrev SW : Shape := ⟨2, ![128, 128]⟩
/-- A bias vector laid out as one row. -/
abbrev SR : Shape := ⟨2, ![1, 128]⟩

/-- A bias vector's shape. -/
abbrev SB : Shape := ⟨1, ![128]⟩

/-- A bias vector laid out as the one row of a [1, 128] array. -/
def row (b : SB.Idx → EReal) : SR.Idx → EReal := fun i => b (ix1 (i 1))

theorem row_apply (b : SB.Idx → EReal) (c : Fin 128) : row b (ix2 0 c) = b (ix1 c) := rfl

/-- Rows times weights: entry (r, c) is the sum over k of x[r, k] · w[k, c]. -/
def mm (x : SN.Idx → EReal) (w : SW.Idx → EReal) : SN.Idx → EReal :=
  fun i => ∑ k : Fin 128, x (ix2 (i 0) k) * w (ix2 k (i 1))

theorem mm_apply (x : SN.Idx → EReal) (w : SW.Idx → EReal) (r : Fin 100000) (c : Fin 128) :
    mm x w (ix2 r c) = ∑ k : Fin 128, x (ix2 r k) * w (ix2 k c) := rfl

/-- The exponential linear unit on one extended real: y where y > 0, and e^y − 1 elsewhere (the comparison and
    the two constants are the float operations' own at the ideal instance, the words those of 0.0 and 1.0). -/
def elu (y : EReal) : EReal :=
  Scalar.select (FloatOps.cmpf (F := Ideal) (φ := .f32) .ogt y (FloatOps.ofBits (F := Ideal) .f32 0x00000000#32)) y
    (FloatOps.subf (F := Ideal) (φ := .f32) (FloatOps.exp (F := Ideal) (φ := .f32) y) (FloatOps.ofBits (F := Ideal) .f32 0x3F800000#32))

/-- The bias row added to every row. -/
def bias (t : SN.Idx → EReal) (b : SR.Idx → EReal) : SN.Idx → EReal :=
  fun i => t i + b (ix2 0 (i 1))

theorem bias_apply (t : SN.Idx → EReal) (b : SR.Idx → EReal) (r : Fin 100000) (c : Fin 128) :
    bias t b (ix2 r c) = t (ix2 r c) + b (ix2 0 c) := rfl

/-- The bias row added to every row, then the exponential linear unit entry by entry. -/
def biasElu (t : SN.Idx → EReal) (b : SR.Idx → EReal) : SN.Idx → EReal :=
  fun i => elu (t i + b (ix2 0 (i 1)))

theorem biasElu_apply (t : SN.Idx → EReal) (b : SR.Idx → EReal) (r : Fin 100000) (c : Fin 128) :
    biasElu t b (ix2 r c) = elu (t (ix2 r c) + b (ix2 0 c)) := rfl

end Cert.Spec

end
-- ==== Proof.KRegionMM.lean ====
import proofs.«118884_j61538291417104_1_alg».proof.Proof.Gen.KernelIdeal.Frame
import proofs.«118884_j61538291417104_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionMM

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

/-! ## The product's operand indices, axis by axis

The three regions' product contracts the left operand's axis 1 with the right operand's axis 0: at output index
(r, c) and contraction position k the left operand is read at (r, k) and the right one at (k, c). -/

private theorem lhs_axis0 (j : S5000x128.Idx) (k : dot_S5000x128_S128x128_S5000x128_1_0_0_1_n_n.contr.Idx) :
    ((dot_S5000x128_S128x128_S5000x128_1_0_0_1_n_n.lhsIdx j k) 0).val = (j 0).val := rfl

private theorem lhs_axis1 (j : S5000x128.Idx) (k : dot_S5000x128_S128x128_S5000x128_1_0_0_1_n_n.contr.Idx) :
    ((dot_S5000x128_S128x128_S5000x128_1_0_0_1_n_n.lhsIdx j k) 1).val = (k ⟨0, by decide⟩).val :=
  DotDims.lhsIdx_val_of_single (d := dot_S5000x128_S128x128_S5000x128_1_0_0_1_n_n) (cl := 1) rfl j k

private theorem rhs_axis0 (j : S5000x128.Idx) (k : dot_S5000x128_S128x128_S5000x128_1_0_0_1_n_n.contr.Idx) :
    ((dot_S5000x128_S128x128_S5000x128_1_0_0_1_n_n.rhsIdx j k) 0).val = (k ⟨0, by decide⟩).val :=
  DotDims.rhsIdx_val_of_single (d := dot_S5000x128_S128x128_S5000x128_1_0_0_1_n_n) (cr := 0) rfl j k

private theorem rhs_axis1 (j : S5000x128.Idx) (k : dot_S5000x128_S128x128_S5000x128_1_0_0_1_n_n.contr.Idx) :
    ((dot_S5000x128_S128x128_S5000x128_1_0_0_1_n_n.rhsIdx j k) 1).val = (j 1).val := rfl

/-- The product into a zero accumulator, read at (p, q): the sum over k of x[p, k] · w[k, q]. -/
private theorem prod_apply (x : FVec Ideal S5000x128 .bf16) (w : FVec Ideal S128x128 .bf16) (p : Fin 5000) (q : Fin 128) :
    (matmul dot_S5000x128_S128x128_S5000x128_1_0_0_1_n_n none x w (constant (F := Ideal) S5000x128 .f32 0x00000000#32) : FVec Ideal S5000x128 .f32) (ix2 p q)
      = ∑ k : Fin 128, x (ix2 p k) * w (ix2 k q) := by
  refine (Ideal.matmul_constant_zero_apply dot_S5000x128_S128x128_S5000x128_1_0_0_1_n_n none x w (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := by
    funext a; apply Fin.ext
    match a with
    | ⟨0, _⟩ => exact lhs_axis0 _ _
    | ⟨1, _⟩ => exact (lhs_axis1 _ _).trans hk
  have er : dot_S5000x128_S128x128_S5000x128_1_0_0_1_n_n.rhsIdx (ix2 p q) ((contrEquiv1 dot_S5000x128_S128x128_S5000x128_1_0_0_1_n_n 128 rfl rfl).symm k) = ix2 k q := by
    funext a; apply Fin.ext
    match a with
    | ⟨0, _⟩ => exact (rhs_axis0 _ _).trans hk
    | ⟨1, _⟩ => exact rhs_axis1 _ _
  rw [el, er]

/-- Region 0's payload at (p, q): the narrowing of the two operands is the identity on the extended reals. -/
private theorem pay0_apply (x : Vec Ideal S5000x128 .f32) (w : Vec Ideal S128x128 .f32) (p : Fin 5000) (q : Fin 128) :
    k0_pay1 (F := Ideal) x w (ix2 p q) = ∑ k : Fin 128, x (ix2 p k) * w (ix2 k q) := by
  unfold k0_pay1
  exact prod_apply _ _ p q

/-- Regions 2 and 4 first cast the left block to its own shape, which changes nothing. -/
private theorem pay2_apply (x : Vec Ideal S5000x128 .f32) (w : Vec Ideal S128x128 .f32) (p : Fin 5000) (q : Fin 128) :
    k2_pay1 (F := Ideal) x w (ix2 p q) = ∑ k : Fin 128, x (ix2 p k) * w (ix2 k q) := by
  unfold k2_pay1
  simp only [shapeCast_self]
  exact prod_apply _ _ p q

private theorem pay4_apply (x : Vec Ideal S5000x128 .f32) (w : Vec Ideal S128x128 .f32) (p : Fin 5000) (q : Fin 128) :
    k4_pay1 (F := Ideal) x w (ix2 p q) = ∑ k : Fin 128, x (ix2 p k) * w (ix2 k q) := by
  unfold k4_pay1
  simp only [shapeCast_self]
  exact prod_apply _ _ p q

/-! ## Region 0: from the blocks to the array -/

private theorem hz : (![0, 0] : Fin 2 → Nat) = fun _ => 0 := funext fun a => by fin_cases a <;> rfl

/-- The product's entry at array index i from a block's: if row p of the left block is row (i 0) of the left array and
    column q of the right block is column (i 1) of the right array, the block product at (p, q) is the array product at i. -/
private theorem sum_eq_mm (x : Vec Ideal S5000x128 .f32) (w : Vec Ideal S128x128 .f32)
    (X : Cert.Spec.SN.Idx → EReal) (W : Cert.Spec.SW.Idx → EReal) (p : Fin 5000) (q : Fin 128) (i : Cert.Spec.SN.Idx)
    (hx : ∀ k : Fin 128, x (ix2 p k) = X (ix2 (i 0) k)) (hw : ∀ k : Fin 128, w (ix2 k q) = W (ix2 k (i 1))) :
    ∑ k : Fin 128, x (ix2 p k) * w (ix2 k q) = Cert.Spec.mm X W i :=
  Finset.sum_congr rfl fun k _ => by rw [hx k, hw k]

/-- The printed index maps over the 20 points: the row blocks of the left operand and of the result move with the point,
    the weight matrix stays. -/
private theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every row block of the result is some point's. -/
private theorem onto0 : ∀ b : Fin 20, ∃ t : Fin cfg0.N, win0_2.index t = ![b.val, 0] :=
  (by decide +kernel : ∀ b : Fin 20, ∃ t : Fin grid0.N, win0_2.index t = ![b.val, 0])

/-- Region 0's payload at a block index j against the array product at i, given where row (j 0) of the left block
    and column (j 1) of the right block sit in the two arrays. -/
private theorem pay0_mm (x : Vec Ideal S5000x128 .f32) (w : Vec Ideal S128x128 .f32)
    (X : Cert.Spec.SN.Idx → EReal) (W : Cert.Spec.SW.Idx → EReal) (j : S5000x128.Idx) (i : Cert.Spec.SN.Idx)
    (hx : ∀ k : Fin 128, x (ix2 (j 0) k) = X (ix2 (i 0) k)) (hw : ∀ k : Fin 128, w (ix2 k (j 1)) = W (ix2 k (i 1))) :
    k0_pay1 (F := Ideal) x w j = Cert.Spec.mm X W i := by
  obtain ⟨p, q, rfl⟩ : ∃ (p : Fin 5000) (q : Fin 128), j = ix2 p q := ⟨j 0, j 1, eq_ix2 j⟩
  exact (pay0_apply x w p q).trans (sum_eq_mm x w X W p q i hx hw)

/-- What point t writes back is block t of the product of the two arrays as the region finds them. -/
private theorem flushed0 (c : Dev nD) (t : Fin cfg0.N) :
    (dat0 (F := Ideal) V c).flushed 2 t
      = ((cfg0.win 2).blk t).view.read (Elt Ideal) (Cert.Spec.mm (V c main_arg0) (V c main_arg3)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e00, e01, e10, e11, e20, e21⟩ := idx0 t
  funext j
  show k0_pay1 (F := Ideal) (iblk0 V c 0 t) (iblk0 V c 1 t) ((cfg0.win 2).xinj (grid0.coords t) j)
    = Cert.Spec.mm (V c main_arg0) (V c main_arg3) (((cfg0.win 2).blk t).view.emb j)
  refine pay0_mm (iblk0 V c 0 t) (iblk0 V c 1 t) (V c main_arg0) (V c main_arg3) ((cfg0.win 2).xinj (grid0.coords t) j) (((cfg0.win 2).blk t).view.emb j) (fun k => ?_) (fun k => ?_)
  · -- row (j 0) of the left block is row 5000·t + (j 0) of the left array
    show V c main_arg0 (((cfg0.win 0).blk t).view.emb (ix2 ((cfg0.win 2).xinj (grid0.coords t) j 0) k)) = _
    refine congrArg (V c main_arg0) ?_
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · -- the right block is the whole weight matrix
    show V c main_arg3 (((cfg0.win 1).blk t).view.emb (ix2 k ((cfg0.win 2).xinj (grid0.coords t) j 1))) = _
    refine congrArg (V c main_arg3) ?_
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the result array lies in point t's block iff each coordinate lies in the block's range on its axis. -/
private theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v21).slice (win0_2.rect t)).set ↔ _
  rw [View.set_slice_whole, Rect.mem_set_unit]
  exact Iff.rfl

/-- The 20 row blocks tile the array: row r lies in the block of point r / 5000. -/
private theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- Region 0 leaves in its output array the rows of its first operand times its second. -/
theorem mm0 (c : Dev nD) : (dat0 (F := Ideal) V c).arrAt 2 cfg0.N = Cert.Spec.mm (V c main_arg0) (V c main_arg3) :=
  (dat0 (F := Ideal) V c).arrAt_eq_of_cover 2 (Cert.Spec.mm (V c main_arg0) (V c main_arg3)) (fun t _ => flushed0 V c t) cover0

/-! ## Region 2: from the blocks to the array -/

/-- The printed index maps over the 20 points: the row blocks of the left operand and of the result move with the point,
    the weight matrix stays. -/
private theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Every row block of the result is some point's. -/
private theorem onto2 : ∀ b : Fin 20, ∃ t : Fin cfg2.N, win2_2.index t = ![b.val, 0] :=
  (by decide +kernel : ∀ b : Fin 20, ∃ t : Fin grid2.N, win2_2.index t = ![b.val, 0])

/-- Region 2's payload at a block index j against the array product at i, given where row (j 0) of the left block
    and column (j 1) of the right block sit in the two arrays. -/
private theorem pay2_mm (x : Vec Ideal S5000x128 .f32) (w : Vec Ideal S128x128 .f32)
    (X : Cert.Spec.SN.Idx → EReal) (W : Cert.Spec.SW.Idx → EReal) (j : S5000x128.Idx) (i : Cert.Spec.SN.Idx)
    (hx : ∀ k : Fin 128, x (ix2 (j 0) k) = X (ix2 (i 0) k)) (hw : ∀ k : Fin 128, w (ix2 k (j 1)) = W (ix2 k (i 1))) :
    k2_pay1 (F := Ideal) x w j = Cert.Spec.mm X W i := by
  obtain ⟨p, q, rfl⟩ : ∃ (p : Fin 5000) (q : Fin 128), j = ix2 p q := ⟨j 0, j 1, eq_ix2 j⟩
  exact (pay2_apply x w p q).trans (sum_eq_mm x w X W p q i hx hw)

/-- What point t writes back is block t of the product of the two arrays as the region finds them. -/
private theorem flushed2 (c : Dev nD) (t : Fin cfg2.N) :
    (dat2 (F := Ideal) V c).flushed 2 t
      = ((cfg2.win 2).blk t).view.read (Elt Ideal) (Cert.Spec.mm (V c main_v63) (V c main_arg5)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨e00, e01, e10, e11, e20, e21⟩ := idx2 t
  funext j
  show k2_pay1 (F := Ideal) (iblk2 V c 0 t) (iblk2 V c 1 t) ((cfg2.win 2).xinj (grid2.coords t) j)
    = Cert.Spec.mm (V c main_v63) (V c main_arg5) (((cfg2.win 2).blk t).view.emb j)
  refine pay2_mm (iblk2 V c 0 t) (iblk2 V c 1 t) (V c main_v63) (V c main_arg5) ((cfg2.win 2).xinj (grid2.coords t) j) (((cfg2.win 2).blk t).view.emb j) (fun k => ?_) (fun k => ?_)
  · -- row (j 0) of the left block is row 5000·t + (j 0) of the left array
    show V c main_v63 (((cfg2.win 0).blk t).view.emb (ix2 ((cfg2.win 2).xinj (grid2.coords t) j 0) k)) = _
    refine congrArg (V c main_v63) ?_
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  · -- the right block is the whole weight matrix
    show V c main_arg5 (((cfg2.win 1).blk t).view.emb (ix2 k ((cfg2.win 2).xinj (grid2.coords t) j 1))) = _
    refine congrArg (V c main_arg5) ?_
    funext a; apply Fin.ext
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega

/-- An index of the result array lies in point t's block iff each coordinate lies in the block's range on its axis. -/
private theorem mem_blk2 (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v64).slice (win2_2.rect t)).set ↔ _
  rw [View.set_slice_whole, Rect.mem_set_unit]
  exact Iff.rfl

/-- The 20 row blocks tile the array: row r lies in the block of point r / 5000. -/
private theorem cover2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := onto2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

theorem mm2 (c : Dev nD) : (dat2 (F := Ideal) V c).arrAt 2 cfg2.N = Cert.Spec.mm (V c main_v63) (V c main_arg5) :=
  (dat2 (F := Ideal) V c).arrAt_eq_of_cover 2 (Cert.Spec.mm (V c main_v63) (V c main_arg5)) (fun t _ => flushed2 V c t) cover2

/-! ## Region 4: from the blocks to the array -/

/-- The printed index maps over the 20 points: the row blocks of the left operand and of the result move with the point,
    the weight matrix stays. -/
private theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Every row block of the result is some point's. -/
private theorem onto4 : ∀ b : Fin 20, ∃ t : Fin cfg4.N, win4_2.index t = ![b.val, 0] :=
  (by decide +kernel : ∀ b : Fin 20, ∃ t : Fin grid4.N, win4_2.index t = ![b.val, 0])

/-- Region 4's payload at a block index j against the array product at i, given where row (j 0) of the left block
    and column (j 1) of the right block sit in the two arrays. -/
private theorem pay4_mm (x : Vec Ideal S5000x128 .f32) (w : Vec Ideal S128x128 .f32)
    (X : Cert.Spec.SN.Idx → EReal) (W : Cert.Spec.SW.Idx → EReal) (j : S5000x128.Idx) (i : Cert.Spec.SN.Idx)
    (hx : ∀ k : Fin 128, x (ix2 (j 0) k) = X (ix2 (i 0) k)) (hw : ∀ k : Fin 128, w (ix2 k (j 1)) = W (ix2 k (i 1))) :
    k4_pay1 (F := Ideal) x w j = Cert.Spec.mm X W i := by
  obtain ⟨p, q, rfl⟩ : ∃ (p : Fin 5000) (q : Fin 128), j = ix2 p q := ⟨j 0, j 1, eq_ix2 j⟩
  exact (pay4_apply x w p q).trans (sum_eq_mm x w X W p q i hx hw)

/-- What point t writes back is block t of the product of the two arrays as the region finds them. -/
private theorem flushed4 (c : Dev nD) (t : Fin cfg4.N) :
    (dat4 (F := Ideal) V c).flushed 2 t
      = ((cfg4.win 2).blk t).view.read (Elt Ideal) (Cert.Spec.mm (V c main_v106) (V c main_arg7)) := by
  show (cfg4.win 2).cut (grid4.coords t) ((dat4 V c).after 2 t) = _
  rw [after4_2]
  unfold out4_2
  rw [View.canon_unit_zero hz]
  simp only [View.ld_unit_zero (S := S5000x128) hz, View.ld_unit_zero (S := S128x128) hz]
  obtain ⟨e00, e01, e10, e11, e20, e21⟩ := idx4 t
  funext j
  show k4_pay1 (F := Ideal) (iblk4 V c 0 t) (iblk4 V c 1 t) ((cfg4.win 2).xinj (grid4.coords t) j)
    = Cert.Spec.mm (V c main_v106) (V c main_arg7) (((cfg4.win 2).blk t).view.emb j)
  refine pay4_mm (iblk4 V c 0 t) (iblk4 V c 1 t) (V c main_v106) (V c main_arg7) ((cfg4.win 2).xinj (grid4.coords t) j) (((cfg4.win 2).blk t).view.emb j) (fun k => ?_) (fun k => ?_)
  · -- row (j 0) of the left block is row 5000·t + (j 0) of the left array
    show V c main_v106 (((cfg4.win 0).blk t).view.emb (ix2 ((cfg4.win 2).xinj (grid4.coords t) j 0) k)) = _
    refine congrArg (V c main_v106) ?_
    funext a; apply Fin.ext
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 128 + 1 * k.val = k.val; omega
  · -- the right block is the whole weight matrix
    show V c main_arg7 (((cfg4.win 1).blk t).view.emb (ix2 k ((cfg4.win 2).xinj (grid4.coords t) j 1))) = _
    refine congrArg (V c main_arg7) ?_
    funext a; apply Fin.ext
    match a with
    | ⟨0, _⟩ => show win4_1.index t (0 : Fin 2) * 128 + 1 * k.val = k.val; omega
    | ⟨1, _⟩ => show win4_1.index t (1 : Fin 2) * 128 + 1 * (j 1).val = win4_2.index t (1 : Fin 2) * 128 + 1 * (j 1).val; omega

/-- An index of the result array lies in point t's block iff each coordinate lies in the block's range on its axis. -/
private theorem mem_blk4 (t : Fin cfg4.N) (i : S100000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v107).slice (win4_2.rect t)).set ↔ _
  rw [View.set_slice_whole, Rect.mem_set_unit]
  exact Iff.rfl

/-- The 20 row blocks tile the array: row r lies in the block of point r / 5000. -/
private theorem cover4 (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  obtain ⟨t, ht⟩ := onto4 ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_blk4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

theorem mm4 (c : Dev nD) : (dat4 (F := Ideal) V c).arrAt 2 cfg4.N = Cert.Spec.mm (V c main_v106) (V c main_arg7) :=
  (dat4 (F := Ideal) V c).arrAt_eq_of_cover 2 (Cert.Spec.mm (V c main_v106) (V c main_arg7)) (fun t _ => flushed4 V c t) cover4

end Cert.KernelIdeal.RegionMM

end
-- ==== Proof.KRegionBE.lean ====
import proofs.«118884_j61538291417104_1_alg».proof.Proof.Gen.KernelIdeal.Frame
import proofs.«118884_j61538291417104_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionBE

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

/-! ## One entry of a block: what the three bias bodies store there -/

/-- The zero offsets of a whole-buffer access, as the constant function. -/
private theorem zero_offsets : (![0, 0] : Fin 2 → Nat) = fun _ => 0 := funext fun a => by fin_cases a <;> rfl

/-- The bias row broadcast over the 5000 rows of a block, read at row p and column q, is the row's entry q. -/
private theorem rowBroadcast_apply (x : Vec Ideal S1x128 .f32) (p : Fin 5000) (q : Fin 128) :
    broadcastTo S5000x128 x broadcasts_S1x128_S5000x128 (ix2 p q) = x (ix2 0 q) := by
  refine broadcastTo_apply x broadcasts_S1x128_S5000x128 (ix2 p q) (ix2 0 q) fun a => ?_
  match a with
  | ⟨0, _⟩ => rfl
  | ⟨1, _⟩ => rfl

/-- What all three bodies form first, at row p and column q: the block's entry plus the bias row's entry in column q
    (the two casts are to the operand's own shape, so they change nothing). -/
private theorem preactivation_apply (x0 : Vec Ideal S5000x128 .f32) (x1 : Vec Ideal S1x128 .f32) (p : Fin 5000) (q : Fin 128) :
    addf (F := Ideal) (s := S5000x128) (φ := .f32) (shapeCast S5000x128 x0 shapeCasts_S5000x128_S5000x128)
        (broadcastTo S5000x128 (shapeCast S1x128 x1 shapeCasts_S1x128_S1x128) broadcasts_S1x128_S5000x128) (ix2 p q)
      = ((x0 (ix2 p q) : EReal) + (x1 (ix2 0 q) : EReal)) := by
  rw [addf_apply, shapeCast_self, shapeCast_self, rowBroadcast_apply]

/-- The first inner layer's body stores, at each entry, the exponential linear unit of that sum: the comparison with
    zero, the exponential and the subtraction of one all act entry by entry. -/
private theorem eluPayload1_apply (x0 : Vec Ideal S5000x128 .f32) (x1 : Vec Ideal S1x128 .f32) (p : Fin 5000) (q : Fin 128) :
    k1_pay1 x0 x1 (ix2 p q) = Cert.Spec.elu (x0 (ix2 p q) + x1 (ix2 0 q)) :=
  congrArg Cert.Spec.elu (preactivation_apply x0 x1 p q)

/-- The second inner layer's body stores the same function of its own two blocks. -/
private theorem eluPayload3_apply (x0 : Vec Ideal S5000x128 .f32) (x1 : Vec Ideal S1x128 .f32) (p : Fin 5000) (q : Fin 128) :
    k3_pay1 x0 x1 (ix2 p q) = Cert.Spec.elu (x0 (ix2 p q) + x1 (ix2 0 q)) :=
  congrArg Cert.Spec.elu (preactivation_apply x0 x1 p q)

/-- The last layer's body stores the sum itself: no activation follows it. -/
private theorem biasPayload5_apply (x0 : Vec Ideal S5000x128 .f32) (x1 : Vec Ideal S1x128 .f32) (p : Fin 5000) (q : Fin 128) :
    k5_pay1 x0 x1 (ix2 p q) = (fun y : EReal => y) (x0 (ix2 p q) + x1 (ix2 0 q)) :=
  preactivation_apply x0 x1 p q

/-- One stored entry against the whole arrays, for a body that applies g entry by entry after the sum and a
    whole-array function G that does the same with the bias row (G A B i = g (A i + B (0, column of i))): if the
    activations' block entry at j is the array A at index i, the bias block is the bias row B itself, and i and j
    are in the same column, then the stored entry at j is G A B at i. -/
private theorem entry_of_block (g : EReal → EReal)
    (pay : Vec Ideal S5000x128 .f32 → Vec Ideal S1x128 .f32 → FVec Ideal S5000x128 .f32)
    (hpay : ∀ (x0 : Vec Ideal S5000x128 .f32) (x1 : Vec Ideal S1x128 .f32) (p : Fin 5000) (q : Fin 128),
      pay x0 x1 (ix2 p q) = g (x0 (ix2 p q) + x1 (ix2 0 q)))
    (G : (Cert.Spec.SN.Idx → EReal) → (Cert.Spec.SR.Idx → EReal) → Cert.Spec.SN.Idx → EReal)
    (hG : ∀ (A : Cert.Spec.SN.Idx → EReal) (B : Cert.Spec.SR.Idx → EReal) (i : Cert.Spec.SN.Idx),
      G A B i = g (A i + B (ix2 0 (i 1))))
    (A : Cert.Spec.SN.Idx → EReal) (B : Cert.Spec.SR.Idx → EReal)
    (x0 : Vec Ideal S5000x128 .f32) (x1 : Vec Ideal S1x128 .f32) (j : S5000x128.Idx) (i : Cert.Spec.SN.Idx)
    (h0 : x0 j = A i) (h1 : ∀ q : Fin 128, x1 (ix2 0 q) = B (ix2 0 q)) (hq : i 1 = j 1) :
    pay x0 x1 j = G A B i := by
  obtain ⟨p, q, rfl⟩ : ∃ (p : Fin 5000) (q : Fin 128), j = ix2 p q := ⟨j 0, j 1, eq_ix2 j⟩
  rw [hpay, hG, h0, h1, hq]

/-- Row r of the 100000 lies in the block of 5000 rows numbered r / 5000, and that number is one of the 20. -/
private theorem row_in_block (r : Nat) (hr : r < 100000) :
    r / 5000 < 20 ∧ r / 5000 * 5000 ≤ r ∧ r < r / 5000 * 5000 + 5000 := by omega

/-! ## Region 1: the first inner layer's bias and activation -/

/-- The three index maps of region 1 over its 20 grid points: the activations' block and the output's block are both
    block t of the rows (and the only block of the columns); the bias row's block is always the whole row. -/
private theorem indexMaps1 : ∀ t : Fin cfg1.N,
      win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What grid point t writes back is block t of the layer's whole-array function of the two arrays the region finds:
    an entry of a block sits in its array at block number × block size + its place in the block, on each axis. -/
private theorem writeback1_eq (c : Dev nD) (t : Fin cfg1.N) :
    (dat1 (F := Ideal) V c).flushed 2 t
      = ((cfg1.win 2).blk t).view.read (Elt Ideal) (Cert.Spec.biasElu (V c main_v61) (V c main_v62)) := by
  show (cfg1.win 2).cut (grid1.coords t) ((dat1 V c).after 2 t) = _
  rw [after1_2]
  unfold out1_2
  rw [View.canon_unit_zero zero_offsets]
  simp only [View.ld_unit_zero (S := S5000x128) zero_offsets, View.ld_unit_zero (S := S1x128) zero_offsets]
  obtain ⟨e0, e1, e2, e3, e4, e5⟩ := indexMaps1 t
  funext j
  show k1_pay1 (iblk1 V c 0 t) (iblk1 V c 1 t) j
    = Cert.Spec.biasElu (V c main_v61) (V c main_v62) (((cfg1.win 2).blk t).view.emb j)
  refine entry_of_block Cert.Spec.elu k1_pay1 eluPayload1_apply Cert.Spec.biasElu (fun _ _ _ => rfl)
    (V c main_v61) (V c main_v62) (iblk1 V c 0 t) (iblk1 V c 1 t) j
    (((cfg1.win 2).blk t).view.emb j) ?_ ?_ ?_
  · show V c main_v61 (((cfg1.win 0).blk t).view.emb j) = V c main_v61 (((cfg1.win 2).blk t).view.emb j)
    refine congrArg (V c main_v61) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  · intro q
    show V c main_v62 (((cfg1.win 1).blk t).view.emb (ix2 0 q)) = V c main_v62 (ix2 0 q)
    refine congrArg (V c main_v62) (funext fun a => Fin.ext ?_)
    match a with
    | ⟨0, _⟩ => show win1_1.index t (0 : Fin 2) * 1 + 1 * 0 = 0; omega
    | ⟨1, _⟩ => show win1_1.index t (1 : Fin 2) * 128 + 1 * q.val = q.val; omega
  · refine Fin.ext ?_
    show win1_2.index t (1 : Fin 2) * 128 + 1 * (j 1).val = (j 1).val
    omega

/-- An index of the output array lies in point t's block iff, on each axis, it lies in the block's range. -/
private theorem mem_block1 (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v63).slice (win1_2.rect t)).set ↔ _
  rw [View.set_slice_whole, Rect.mem_set_unit]
  exact Iff.rfl

/-- The 20 blocks of 5000 rows tile the output array: row r is written by the point r / 5000. -/
private theorem rows_covered1 (i : S100000x128.Idx) :
    ∃ t : Fin cfg1.N, (cfg1.win 2).flush t = true ∧ i ∈ ((cfg1.win 2).blk t).view.set := by
  have hi1 : (i 1).val < 128 := (i 1).isLt
  obtain ⟨hlt, hlo, hhi⟩ := row_in_block (i 0).val (i 0).isLt
  have hN : cfg1.N = 20 := by decide
  let t : Fin cfg1.N := ⟨(i 0).val / 5000, by rw [hN]; exact hlt⟩
  have ht : t.val = (i 0).val / 5000 := rfl
  obtain ⟨e0, e1, e2, e3, e4, e5⟩ := indexMaps1 t
  refine ⟨t, flush1_2 t, ?_⟩
  rw [mem_block1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

theorem be1 (c : Dev nD) : (dat1 (F := Ideal) V c).arrAt 2 cfg1.N = Cert.Spec.biasElu (V c main_v61) (V c main_v62) := by
  exact (dat1 V c).arrAt_eq_of_cover 2 (Cert.Spec.biasElu (V c main_v61) (V c main_v62)) (fun t _ => writeback1_eq V c t) rows_covered1

/-! ## Region 3: the second inner layer's bias and activation -/

/-- The three index maps of region 3 over its 20 grid points: the activations' block and the output's block are both
    block t of the rows (and the only block of the columns); the bias row's block is always the whole row. -/
private theorem indexMaps3 : ∀ t : Fin cfg3.N,
      win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What grid point t writes back is block t of the layer's whole-array function of the two arrays the region finds:
    an entry of a block sits in its array at block number × block size + its place in the block, on each axis. -/
private theorem writeback3_eq (c : Dev nD) (t : Fin cfg3.N) :
    (dat3 (F := Ideal) V c).flushed 2 t
      = ((cfg3.win 2).blk t).view.read (Elt Ideal) (Cert.Spec.biasElu (V c main_v104) (V c main_v105)) := by
  show (cfg3.win 2).cut (grid3.coords t) ((dat3 V c).after 2 t) = _
  rw [after3_2]
  unfold out3_2
  rw [View.canon_unit_zero zero_offsets]
  simp only [View.ld_unit_zero (S := S5000x128) zero_offsets, View.ld_unit_zero (S := S1x128) zero_offsets]
  obtain ⟨e0, e1, e2, e3, e4, e5⟩ := indexMaps3 t
  funext j
  show k3_pay1 (iblk3 V c 0 t) (iblk3 V c 1 t) j
    = Cert.Spec.biasElu (V c main_v104) (V c main_v105) (((cfg3.win 2).blk t).view.emb j)
  refine entry_of_block Cert.Spec.elu k3_pay1 eluPayload3_apply Cert.Spec.biasElu (fun _ _ _ => rfl)
    (V c main_v104) (V c main_v105) (iblk3 V c 0 t) (iblk3 V c 1 t) j
    (((cfg3.win 2).blk t).view.emb j) ?_ ?_ ?_
  · show V c main_v104 (((cfg3.win 0).blk t).view.emb j) = V c main_v104 (((cfg3.win 2).blk t).view.emb j)
    refine congrArg (V c main_v104) (funext fun a => Fin.ext ?_)
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * (j 1).val = win3_2.index t (1 : Fin 2) * 128 + 1 * (j 1).val; omega
  · intro q
    show V c main_v105 (((cfg3.win 1).blk t).view.emb (ix2 0 q)) = V c main_v105 (ix2 0 q)
    refine congrArg (V c main_v105) (funext fun a => Fin.ext ?_)
    match a with
    | ⟨0, _⟩ => show win3_1.index t (0 : Fin 2) * 1 + 1 * 0 = 0; omega
    | ⟨1, _⟩ => show win3_1.index t (1 : Fin 2) * 128 + 1 * q.val = q.val; omega
  · refine Fin.ext ?_
    show win3_2.index t (1 : Fin 2) * 128 + 1 * (j 1).val = (j 1).val
    omega

/-- An index of the output array lies in point t's block iff, on each axis, it lies in the block's range. -/
private theorem mem_block3 (t : Fin cfg3.N) (i : S100000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v106).slice (win3_2.rect t)).set ↔ _
  rw [View.set_slice_whole, Rect.mem_set_unit]
  exact Iff.rfl

/-- The 20 blocks of 5000 rows tile the output array: row r is written by the point r / 5000. -/
private theorem rows_covered3 (i : S100000x128.Idx) :
    ∃ t : Fin cfg3.N, (cfg3.win 2).flush t = true ∧ i ∈ ((cfg3.win 2).blk t).view.set := by
  have hi1 : (i 1).val < 128 := (i 1).isLt
  obtain ⟨hlt, hlo, hhi⟩ := row_in_block (i 0).val (i 0).isLt
  have hN : cfg3.N = 20 := by decide
  let t : Fin cfg3.N := ⟨(i 0).val / 5000, by rw [hN]; exact hlt⟩
  have ht : t.val = (i 0).val / 5000 := rfl
  obtain ⟨e0, e1, e2, e3, e4, e5⟩ := indexMaps3 t
  refine ⟨t, flush3_2 t, ?_⟩
  rw [mem_block3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

theorem be3 (c : Dev nD) : (dat3 (F := Ideal) V c).arrAt 2 cfg3.N = Cert.Spec.biasElu (V c main_v104) (V c main_v105) := by
  exact (dat3 V c).arrAt_eq_of_cover 2 (Cert.Spec.biasElu (V c main_v104) (V c main_v105)) (fun t _ => writeback3_eq V c t) rows_covered3

/-! ## Region 5: the last layer's bias -/

/-- The three index maps of region 5 over its 20 grid points: the activations' block and the output's block are both
    block t of the rows (and the only block of the columns); the bias row's block is always the whole row. -/
private theorem indexMaps5 : ∀ t : Fin cfg5.N,
      win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What grid point t writes back is block t of the layer's whole-array function of the two arrays the region finds:
    an entry of a block sits in its array at block number × block size + its place in the block, on each axis. -/
private theorem writeback5_eq (c : Dev nD) (t : Fin cfg5.N) :
    (dat5 (F := Ideal) V c).flushed 2 t
      = ((cfg5.win 2).blk t).view.read (Elt Ideal) (Cert.Spec.bias (V c main_v147) (V c main_v148)) := by
  show (cfg5.win 2).cut (grid5.coords t) ((dat5 V c).after 2 t) = _
  rw [after5_2]
  unfold out5_2
  rw [View.canon_unit_zero zero_offsets]
  simp only [View.ld_unit_zero (S := S5000x128) zero_offsets, View.ld_unit_zero (S := S1x128) zero_offsets]
  obtain ⟨e0, e1, e2, e3, e4, e5⟩ := indexMaps5 t
  funext j
  show k5_pay1 (iblk5 V c 0 t) (iblk5 V c 1 t) j
    = Cert.Spec.bias (V c main_v147) (V c main_v148) (((cfg5.win 2).blk t).view.emb j)
  refine entry_of_block (fun y : EReal => y) k5_pay1 biasPayload5_apply Cert.Spec.bias (fun _ _ _ => rfl)
    (V c main_v147) (V c main_v148) (iblk5 V c 0 t) (iblk5 V c 1 t) j
    (((cfg5.win 2).blk t).view.emb j) ?_ ?_ ?_
  · show V c main_v147 (((cfg5.win 0).blk t).view.emb j) = V c main_v147 (((cfg5.win 2).blk t).view.emb j)
    refine congrArg (V c main_v147) (funext fun a => Fin.ext ?_)
    match a with
    | ⟨0, _⟩ => show win5_0.index t (0 : Fin 2) * 5000 + 1 * (j 0).val = win5_2.index t (0 : Fin 2) * 5000 + 1 * (j 0).val; omega
    | ⟨1, _⟩ => show win5_0.index t (1 : Fin 2) * 128 + 1 * (j 1).val = win5_2.index t (1 : Fin 2) * 128 + 1 * (j 1).val; omega
  · intro q
    show V c main_v148 (((cfg5.win 1).blk t).view.emb (ix2 0 q)) = V c main_v148 (ix2 0 q)
    refine congrArg (V c main_v148) (funext fun a => Fin.ext ?_)
    match a with
    | ⟨0, _⟩ => show win5_1.index t (0 : Fin 2) * 1 + 1 * 0 = 0; omega
    | ⟨1, _⟩ => show win5_1.index t (1 : Fin 2) * 128 + 1 * q.val = q.val; omega
  · refine Fin.ext ?_
    show win5_2.index t (1 : Fin 2) * 128 + 1 * (j 1).val = (j 1).val
    omega

/-- An index of the output array lies in point t's block iff, on each axis, it lies in the block's range. -/
private theorem mem_block5 (t : Fin cfg5.N) (i : S100000x128.Idx) :
    i ∈ ((cfg5.win 2).blk t).view.set ↔ ∀ a : Fin 2, win5_2.index t a * S5000x128.size a ≤ (i a).val
      ∧ (i a).val < win5_2.index t a * S5000x128.size a + S5000x128.size a := by
  show i ∈ ((View.whole main_v149).slice (win5_2.rect t)).set ↔ _
  rw [View.set_slice_whole, Rect.mem_set_unit]
  exact Iff.rfl

/-- The 20 blocks of 5000 rows tile the output array: row r is written by the point r / 5000. -/
private theorem rows_covered5 (i : S100000x128.Idx) :
    ∃ t : Fin cfg5.N, (cfg5.win 2).flush t = true ∧ i ∈ ((cfg5.win 2).blk t).view.set := by
  have hi1 : (i 1).val < 128 := (i 1).isLt
  obtain ⟨hlt, hlo, hhi⟩ := row_in_block (i 0).val (i 0).isLt
  have hN : cfg5.N = 20 := by decide
  let t : Fin cfg5.N := ⟨(i 0).val / 5000, by rw [hN]; exact hlt⟩
  have ht : t.val = (i 0).val / 5000 := rfl
  obtain ⟨e0, e1, e2, e3, e4, e5⟩ := indexMaps5 t
  refine ⟨t, flush5_2 t, ?_⟩
  rw [mem_block5]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 128 ≤ (i 1).val ∧ (i 1).val < win5_2.index t (1 : Fin 2) * 128 + 128; omega

theorem b5 (c : Dev nD) : (dat5 (F := Ideal) V c).arrAt 2 cfg5.N = Cert.Spec.bias (V c main_v147) (V c main_v148) := by
  exact (dat5 V c).arrAt_eq_of_cover 2 (Cert.Spec.bias (V c main_v147) (V c main_v148)) (fun t _ => writeback5_eq V c t) rows_covered5

end Cert.KernelIdeal.RegionBE

end
-- ==== Proof.RefOps.lean ====
/- GENERATED by the command  python3 scratch/mkrefops.py proof/ReferenceIdeal.lean 118884_j61538291417104_1_alg main_call1,main_v61,main_v66,main_call4,main_v123,main_v128,main_call7,main_v185,main_v188 > proof/Proof/RefOps.lean  run in the unit directory:
   the reference's @main as literal lists of its 286 host operations, in order, the module-local functions' bodies written
   out at their calls over each call's buffer record, cut into 9 stretches; and, per stretch, that each operation touches
   TensorCore references only. A table of the printed program's lines: no argument is made here. -/
import proofs.«118884_j61538291417104_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- Stretch 0 of @main: 35 operations, in order. -/
abbrev c0 : List (HloOp τ sig (Elt F)) :=
  [ StableHlo.unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000,
    StableHlo.binary main_arg0 main_arg3 main_v4 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_cst (constant S_ .f32 0x3F800000#32),
    StableHlo.unary main_cst main_v5 (broadcastInDim S600000 ![] bcast_S_S600000 : (⟨S_, .f32⟩ : BufTy).Contents (Elt F) → (⟨S600000, .f32⟩ : BufTy).Contents (Elt F)),
    StableHlo.nullary main_cst_0 (constant S_ .f32 0x00000000#32),
    StableHlo.unary main_cst_0 main_v6 (broadcastInDim S100000 ![] bcast_S_S100000 : (⟨S_, .f32⟩ : BufTy).Contents (Elt F) → (⟨S100000, .f32⟩ : BufTy).Contents (Elt F)),
    StableHlo.unary main_v1 main_v7 (broadcastInDim S600000x1 ![0] bcast_S600000_S600000x1_0 : (⟨S600000, .i32⟩ : BufTy).Contents (Elt F) → (⟨S600000x1, .i32⟩ : BufTy).Contents (Elt F)),
    StableHlo.ternary main_v6 main_v7 main_v5 main_v8 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    StableHlo.nullary main_cst_1 (constant S_ .f32 0x00000000#32),
    StableHlo.unary main_cst_1 main_v9 (broadcastInDim S100000 ![] bcast_S_S100000 : (⟨S_, .f32⟩ : BufTy).Contents (Elt F) → (⟨S100000, .f32⟩ : BufTy).Contents (Elt F)),
    StableHlo.binary main_v8 main_v9 main_v10 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0x3F800000#32),
    StableHlo.unary main_cst_2 main_v11 (broadcastInDim S100000 ![] bcast_S_S100000 : (⟨S_, .f32⟩ : BufTy).Contents (Elt F) → (⟨S100000, .f32⟩ : BufTy).Contents (Elt F)),
    StableHlo.binary main_v11 main_v8 main_v12 (Host.divf : (⟨S100000, .f32⟩ : BufTy).Contents (Elt F) → (⟨S100000, .f32⟩ : BufTy).Contents (Elt F) → (⟨S100000, .f32⟩ : BufTy).Contents (Elt F)),
    StableHlo.nullary main_cst_3 (constant S_ .f32 0x00000000#32),
    StableHlo.TRef.unary (.of main_cst_3 : StableHlo.TRef sig ⟨S_, .f32⟩) main_call0.v0 id,
    StableHlo.TRef.unary main_call0.v0 main_call0.v1 (broadcastInDim S100000 ![] bcast_S_S100000),
    StableHlo.TRef.ternary (.of main_v10 : StableHlo.TRef sig ⟨S100000, .i1⟩) (.of main_v12 : StableHlo.TRef sig ⟨S100000, .f32⟩) main_call0.v1 main_call0.v2 select,
    StableHlo.nullary main_cst_4 (constant S_ .f32 0x00000000#32),
    StableHlo.unary main_cst_4 main_v14 (broadcastInDim S50000 ![] bcast_S_S50000 : (⟨S_, .f32⟩ : BufTy).Contents (Elt F) → (⟨S50000, .f32⟩ : BufTy).Contents (Elt F)),
    StableHlo.unary main_v3 main_v15 (broadcastInDim S600000x1 ![0] bcast_S600000_S600000x1_0 : (⟨S600000, .i32⟩ : BufTy).Contents (Elt F) → (⟨S600000x1, .i32⟩ : BufTy).Contents (Elt F)),
    StableHlo.ternary main_v14 main_v15 main_v5 main_v16 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    StableHlo.nullary main_cst_5 (constant S_ .f32 0x00000000#32),
    StableHlo.unary main_cst_5 main_v17 (broadcastInDim S50000 ![] bcast_S_S50000 : (⟨S_, .f32⟩ : BufTy).Contents (Elt F) → (⟨S50000, .f32⟩ : BufTy).Contents (Elt F)),
    StableHlo.binary main_v16 main_v17 main_v18 (cmpf .ogt : (⟨S50000, .f32⟩ : BufTy).Contents (Elt F) → (⟨S50000, .f32⟩ : BufTy).Contents (Elt F) → (⟨S50000, .i1⟩ : BufTy).Contents (Elt F)),
    StableHlo.nullary main_cst_6 (constant S_ .f32 0x3F800000#32),
    StableHlo.unary main_cst_6 main_v19 (broadcastInDim S50000 ![] bcast_S_S50000 : (⟨S_, .f32⟩ : BufTy).Contents (Elt F) → (⟨S50000, .f32⟩ : BufTy).Contents (Elt F)),
    StableHlo.binary main_v19 main_v16 main_v20 (Host.divf : (⟨S50000, .f32⟩ : BufTy).Contents (Elt F) → (⟨S50000, .f32⟩ : BufTy).Contents (Elt F) → (⟨S50000, .f32⟩ : BufTy).Contents (Elt F)),
    StableHlo.nullary main_cst_7 (constant S_ .f32 0x00000000#32),
    StableHlo.TRef.unary (.of main_cst_7 : StableHlo.TRef sig ⟨S_, .f32⟩) main_call1.v0 id,
    StableHlo.TRef.unary main_call1.v0 main_call1.v1 (broadcastInDim S50000 ![] bcast_S_S50000),
    StableHlo.TRef.ternary (.of main_v18 : StableHlo.TRef sig ⟨S50000, .i1⟩) (.of main_v20 : StableHlo.TRef sig ⟨S50000, .f32⟩) main_call1.v1 main_call1.v2 select ]
theorem c0_sub : (c0 : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub ..⟩

/-- Stretch 1 of @main: 50 operations, in order. -/
abbrev c1 : List (HloOp τ sig (Elt F)) :=
  [ StableHlo.nullary main_c (constantI S_ 32 0#32),
    StableHlo.unary main_c main_v22 (broadcastInDim S600000 ![] bcast_S_S600000 : (⟨S_, .i32⟩ : BufTy).Contents (Elt F) → (⟨S600000, .i32⟩ : BufTy).Contents (Elt F)),
    StableHlo.binary main_v3 main_v22 main_v23 (cmpi .slt : (⟨S600000, .i32⟩ : BufTy).Contents (Elt F) → (⟨S600000, .i32⟩ : BufTy).Contents (Elt F) → (⟨S600000, .i1⟩ : BufTy).Contents (Elt F)),
    StableHlo.nullary main_c_8 (constantI S_ 32 50000#32),
    StableHlo.unary main_c_8 main_v24 (broadcastInDim S600000 ![] bcast_S_S600000 : (⟨S_, .i32⟩ : BufTy).Contents (Elt F) → (⟨S600000, .i32⟩ : BufTy).Contents (Elt F)),
    StableHlo.binary main_v3 main_v24 main_v25 (addi : (⟨S600000, .i32⟩ : BufTy).Contents (Elt F) → (⟨S600000, .i32⟩ : BufTy).Contents (Elt F) → (⟨S600000, .i32⟩ : BufTy).Contents (Elt F)),
    StableHlo.ternary main_v23 main_v25 main_v3 main_v26 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v26 main_v27 (broadcastInDim S600000x1 ![0] bcast_S600000_S600000x1_0 : (⟨S600000, .i32⟩ : BufTy).Contents (Elt F) → (⟨S600000x1, .i32⟩ : BufTy).Contents (Elt F)),
    StableHlo.binary main_v21 main_v27 main_v28 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    StableHlo.unary main_v28 main_v29 (broadcastInDim S600000x1 ![0] bcast_S600000_S600000x1_0 : (⟨S600000, .f32⟩ : BufTy).Contents (Elt F) → (⟨S600000x1, .f32⟩ : BufTy).Contents (Elt F)),
    StableHlo.nullary main_c_9 (constantI S_ 32 0#32),
    StableHlo.unary main_c_9 main_v30 (broadcastInDim S600000 ![] bcast_S_S600000 : (⟨S_, .i32⟩ : BufTy).Contents (Elt F) → (⟨S600000, .i32⟩ : BufTy).Contents (Elt F)),
    StableHlo.binary main_v1 main_v30 main_v31 (cmpi .slt : (⟨S600000, .i32⟩ : BufTy).Contents (Elt F) → (⟨S600000, .i32⟩ : BufTy).Contents (Elt F) → (⟨S600000, .i1⟩ : BufTy).Contents (Elt F)),
    StableHlo.nullary main_c_10 (constantI S_ 32 100000#32),
    StableHlo.unary main_c_10 main_v32 (broadcastInDim S600000 ![] bcast_S_S600000 : (⟨S_, .i32⟩ : BufTy).Contents (Elt F) → (⟨S600000, .i32⟩ : BufTy).Contents (Elt F)),
    StableHlo.binary main_v1 main_v32 main_v33 (addi : (⟨S600000, .i32⟩ : BufTy).Contents (Elt F) → (⟨S600000, .i32⟩ : BufTy).Contents (Elt F) → (⟨S600000, .i32⟩ : BufTy).Contents (Elt F)),
    StableHlo.ternary main_v31 main_v33 main_v1 main_v34 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v34 main_v35 (broadcastInDim S600000x1 ![0] bcast_S600000_S600000x1_0 : (⟨S600000, .i32⟩ : BufTy).Contents (Elt F) → (⟨S600000x1, .i32⟩ : BufTy).Contents (Elt F)),
    StableHlo.binary main_v4 main_v35 main_v36 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.unary main_v29 main_v37 (broadcastInDim S600000x128 ![0, 1] bcast_S600000x1_S600000x128_0_1 : (⟨S600000x1, .f32⟩ : BufTy).Contents (Elt F) → (⟨S600000x128, .f32⟩ : BufTy).Contents (Elt F)),
    StableHlo.binary main_v37 main_v36 main_v38 (mulf : (⟨S600000x128, .f32⟩ : BufTy).Contents (Elt F) → (⟨S600000x128, .f32⟩ : BufTy).Contents (Elt F) → (⟨S600000x128, .f32⟩ : BufTy).Contents (Elt F)),
    StableHlo.nullary main_cst_11 (constant S_ .f32 0x00000000#32),
    StableHlo.unary main_cst_11 main_v39 (broadcastInDim S50000x128 ![] bcast_S_S50000x128 : (⟨S_, .f32⟩ : BufTy).Contents (Elt F) → (⟨S50000x128, .f32⟩ : BufTy).Contents (Elt F)),
    StableHlo.unary main_v3 main_v40 (broadcastInDim S600000x1 ![0] bcast_S600000_S600000x1_0 : (⟨S600000, .i32⟩ : BufTy).Contents (Elt F) → (⟨S600000x1, .i32⟩ : BufTy).Contents (Elt F)),
    StableHlo.ternary main_v39 main_v40 main_v38 main_v41 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.nullary main_c_12 (constantI S_ 32 0#32),
    StableHlo.unary main_c_12 main_v42 (broadcastInDim S600000 ![] bcast_S_S600000 : (⟨S_, .i32⟩ : BufTy).Contents (Elt F) → (⟨S600000, .i32⟩ : BufTy).Contents (Elt F)),
    StableHlo.binary main_v1 main_v42 main_v43 (cmpi .slt : (⟨S600000, .i32⟩ : BufTy).Contents (Elt F) → (⟨S600000, .i32⟩ : BufTy).Contents (Elt F) → (⟨S600000, .i1⟩ : BufTy).Contents (Elt F)),
    StableHlo.nullary main_c_13 (constantI S_ 32 100000#32),
    StableHlo.unary main_c_13 main_v44 (broadcastInDim S600000 ![] bcast_S_S600000 : (⟨S_, .i32⟩ : BufTy).Contents (Elt F) → (⟨S600000, .i32⟩ : BufTy).Contents (Elt F)),
    StableHlo.binary main_v1 main_v44 main_v45 (addi : (⟨S600000, .i32⟩ : BufTy).Contents (Elt F) → (⟨S600000, .i32⟩ : BufTy).Contents (Elt F) → (⟨S600000, .i32⟩ : BufTy).Contents (Elt F)),
    StableHlo.ternary main_v43 main_v45 main_v1 main_v46 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v46 main_v47 (broadcastInDim S600000x1 ![0] bcast_S600000_S600000x1_0 : (⟨S600000, .i32⟩ : BufTy).Contents (Elt F) → (⟨S600000x1, .i32⟩ : BufTy).Contents (Elt F)),
    StableHlo.binary main_v13 main_v47 main_v48 ((fun x i => Host.gather gather_S100000_S600000x1_S600000_n_0_n_n_0_1_1 x i) : (⟨S100000, .f32⟩ : BufTy).Contents (Elt F) → (⟨S600000x1, .i32⟩ : BufTy).Contents (Elt F) → (⟨S600000, .f32⟩ : BufTy).Contents (Elt F)),
    StableHlo.unary main_v48 main_v49 (broadcastInDim S600000x1 ![0] bcast_S600000_S600000x1_0 : (⟨S600000, .f32⟩ : BufTy).Contents (Elt F) → (⟨S600000x1, .f32⟩ : BufTy).Contents (Elt F)),
    StableHlo.nullary main_c_14 (constantI S_ 32 0#32),
    StableHlo.unary main_c_14 main_v50 (broadcastInDim S600000 ![] bcast_S_S600000 : (⟨S_, .i32⟩ : BufTy).Contents (Elt F) → (⟨S600000, .i32⟩ : BufTy).Contents (Elt F)),
    StableHlo.binary main_v3 main_v50 main_v51 (cmpi .slt : (⟨S600000, .i32⟩ : BufTy).Contents (Elt F) → (⟨S600000, .i32⟩ : BufTy).Contents (Elt F) → (⟨S600000, .i1⟩ : BufTy).Contents (Elt F)),
    StableHlo.nullary main_c_15 (constantI S_ 32 50000#32),
    StableHlo.unary main_c_15 main_v52 (broadcastInDim S600000 ![] bcast_S_S600000 : (⟨S_, .i32⟩ : BufTy).Contents (Elt F) → (⟨S600000, .i32⟩ : BufTy).Contents (Elt F)),
    StableHlo.binary main_v3 main_v52 main_v53 (addi : (⟨S600000, .i32⟩ : BufTy).Contents (Elt F) → (⟨S600000, .i32⟩ : BufTy).Contents (Elt F) → (⟨S600000, .i32⟩ : BufTy).Contents (Elt F)),
    StableHlo.ternary main_v51 main_v53 main_v3 main_v54 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v54 main_v55 (broadcastInDim S600000x1 ![0] bcast_S600000_S600000x1_0 : (⟨S600000, .i32⟩ : BufTy).Contents (Elt F) → (⟨S600000x1, .i32⟩ : BufTy).Contents (Elt F)),
    StableHlo.binary main_v41 main_v55 main_v56 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.unary main_v49 main_v57 (broadcastInDim S600000x128 ![0, 1] bcast_S600000x1_S600000x128_0_1 : (⟨S600000x1, .f32⟩ : BufTy).Contents (Elt F) → (⟨S600000x128, .f32⟩ : BufTy).Contents (Elt F)),
    StableHlo.binary main_v57 main_v56 main_v58 (mulf : (⟨S600000x128, .f32⟩ : BufTy).Contents (Elt F) → (⟨S600000x128, .f32⟩ : BufTy).Contents (Elt F) → (⟨S600000x128, .f32⟩ : BufTy).Contents (Elt F)),
    StableHlo.nullary main_cst_16 (constant S_ .f32 0x00000000#32),
    StableHlo.unary main_cst_16 main_v59 (broadcastInDim S100000x128 ![] bcast_S_S100000x128 : (⟨S_, .f32⟩ : BufTy).Contents (Elt F) → (⟨S100000x128, .f32⟩ : BufTy).Contents (Elt F)),
    StableHlo.unary main_v1 main_v60 (broadcastInDim S600000x1 ![0] bcast_S600000_S600000x1_0 : (⟨S600000, .i32⟩ : BufTy).Contents (Elt F) → (⟨S600000x1, .i32⟩ : BufTy).Contents (Elt F)),
    StableHlo.ternary main_v59 main_v60 main_v58 main_v61 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)) ]
theorem c1_sub : (c1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩

/-- Stretch 2 of @main: 19 operations, in order. -/
abbrev c2 : List (HloOp τ sig (Elt F)) :=
  [ StableHlo.unary main_arg4 main_v62 (broadcastInDim S1x128 ![1] bcast_S128_S1x128_1 : (⟨S128, .f32⟩ : BufTy).Contents (Elt F) → (⟨S1x128, .f32⟩ : BufTy).Contents (Elt F)),
    StableHlo.unary main_v62 main_v63 (broadcastInDim S100000x128 ![0, 1] bcast_S1x128_S100000x128_0_1 : (⟨S1x128, .f32⟩ : BufTy).Contents (Elt F) → (⟨S100000x128, .f32⟩ : BufTy).Contents (Elt F)),
    StableHlo.binary main_v61 main_v63 main_v64 (addf : (⟨S100000x128, .f32⟩ : BufTy).Contents (Elt F) → (⟨S100000x128, .f32⟩ : BufTy).Contents (Elt F) → (⟨S100000x128, .f32⟩ : BufTy).Contents (Elt F)),
    StableHlo.TRef.nullary main_call2.cst (constant S_ .f32 0x00000000#32),
    StableHlo.TRef.unary main_call2.cst main_call2.v0 (broadcastInDim S100000x128 ![] bcast_S_S100000x128),
    StableHlo.TRef.binary (.of main_v64 : StableHlo.TRef sig ⟨S100000x128, .f32⟩) main_call2.v0 main_call2.v1 (cmpf .ogt),
    StableHlo.TRef.nullary main_call2.cst_0 (constant S_ .f32 0x00000000#32),
    StableHlo.TRef.unary main_call2.cst_0 main_call2.v2 (broadcastInDim S100000x128 ![] bcast_S_S100000x128),
    StableHlo.TRef.binary (.of main_v64 : StableHlo.TRef sig ⟨S100000x128, .f32⟩) main_call2.v2 main_call2.v3 (cmpf .ogt),
    StableHlo.TRef.nullary main_call2.cst_1 (constant S_ .f32 0x00000000#32),
    StableHlo.TRef.unary (main_call2.cst_1 : StableHlo.TRef sig ⟨S_, .f32⟩) main_call2.call0.v0 id,
    StableHlo.TRef.unary main_call2.call0.v0 main_call2.call0.v1 (broadcastInDim S100000x128 ![] bcast_S_S100000x128),
    StableHlo.TRef.ternary (main_call2.v3 : StableHlo.TRef sig ⟨S100000x128, .i1⟩) main_call2.call0.v1 (.of main_v64 : StableHlo.TRef sig ⟨S100000x128, .f32⟩) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S100000x128 ![] bcast_S_S100000x128),
    StableHlo.TRef.binary main_call2.v6 main_call2.v5 main_call2.v7 mulf,
    StableHlo.TRef.ternary (main_call2.v1 : StableHlo.TRef sig ⟨S100000x128, .i1⟩) (.of main_v64 : StableHlo.TRef sig ⟨S100000x128, .f32⟩) (main_call2.v7 : StableHlo.TRef sig ⟨S100000x128, .f32⟩) main_call2.call1.v0 select,
    StableHlo.binary main_v65 main_arg5 main_v66 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]
theorem c2_sub : (c2 : List (HloOp τ sig (Elt F))).Forall fun op => op.bufs ⊆ tcRefs τ sig :=
  ⟨unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub ..⟩

/-- Stretch 3 of @main: 30 operations, in order. -/
abbrev c3 : List (HloOp τ sig (Elt F)) :=
  [ StableHlo.nullary main_cst_17 (constant S_ .f32 0x3F800000#32),
    StableHlo.unary main_cst_17 main_v67 (broadcastInDim S600000 ![] bcast_S_S600000 : (⟨S_, .f32⟩ : BufTy).Contents (Elt F) → (⟨S600000, .f32⟩ : BufTy).Contents (Elt F)),
    StableHlo.nullary main_cst_18 (constant S_ .f32 0x00000000#32),
    StableHlo.unary main_cst_18 main_v68 (broadcastInDim S100000 ![] bcast_S_S100000 : (⟨S_, .f32⟩ : BufTy).Contents (Elt F) → (⟨S100000, .f32⟩ : BufTy).Contents (Elt F)),
    StableHlo.unary main_v1 main_v69 (broadcastInDim S600000x1 ![0] bcast_S600000_S600000x1_0 : (⟨S600000, .i32⟩ : BufTy).Contents (Elt F) → (⟨S600000x1, .i32⟩ : BufTy).Contents (Elt F)),
    StableHlo.ternary main_v68 main_v69 main_v67 main_v70 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    StableHlo.nullary main_cst_19 (constant S_ .f32 0x00000000#32),
    StableHlo.unary main_cst_19 main_v71 (broadcastInDim S100000 ![] bcast_S_S100000 : (⟨S_, .f32⟩ : BufTy).Contents (Elt F) → (⟨S100000, .f32⟩ : BufTy).Contents (Elt F)),
    StableHlo.binary main_v70 main_v71 main_v72 (cmpf .ogt : (⟨S100000, .f32⟩ : BufTy).Contents (Elt F) → (⟨S100000, .f32⟩ : BufTy).Contents (Elt F) → (⟨S100000, .i1⟩ : BufTy).Contents (Elt F)),
    StableHlo.nullary main_cst_20 (constant S_ .f32 0x3F800000#32),
    StableHlo.unary main_cst_20 main_v73 (broadcastInDim S100000 ![] bcast_S_S100000 : (⟨S_, .f32⟩ : BufTy).Contents (Elt F) → (⟨S100000, .f32⟩ : BufTy).Contents (Elt F)),
    StableHlo.binary main_v73 main_v70 main_v74 (Host.divf : (⟨S100000, .f32⟩ : BufTy).Contents (Elt F) → (⟨S100000, .f32⟩ : BufTy).Contents (Elt F) → (⟨S100000, .f32⟩ : BufTy).Contents (Elt F)),
    StableHlo.nullary main_cst_21 (constant S_ .f32 0x00000000#32),
    StableHlo.TRef.unary (.of main_cst_21 : StableHlo.TRef sig ⟨S_, .f32⟩) main_call3.v0 id,
    StableHlo.TRef.unary main_call3.v0 main_call3.v1 (broadcastInDim S100000 ![] bcast_S_S100000),
    StableHlo.TRef.ternary (.of main_v72 : StableHlo.TRef sig ⟨S100000, .i1⟩) (.of main_v74 : StableHlo.TRef sig ⟨S100000, .f32⟩) main_call3.v1 main_call3.v2 select,
    StableHlo.nullary main_cst_22 (constant S_ .f32 0x00000000#32),
    StableHlo.unary main_cst_22 main_v76 (broadcastInDim S50000 ![] bcast_S_S50000 : (⟨S_, .f32⟩ : BufTy).Contents (Elt F) → (⟨S50000, .f32⟩ : BufTy).Contents (Elt F)),
    StableHlo.unary main_v3 main_v77 (broadcastInDim S600000x1 ![0] bcast_S600000_S600000x1_0 : (⟨S600000, .i32⟩ : BufTy).Contents (Elt F) → (⟨S600000x1, .i32⟩ : BufTy).Contents (Elt F)),
    StableHlo.ternary main_v76 main_v77 main_v67 main_v78 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    StableHlo.nullary main_cst_23 (constant S_ .f32 0x00000000#32),
    StableHlo.unary main_cst_23 main_v79 (broadcastInDim S50000 ![] bcast_S_S50000 : (⟨S_, .f32⟩ : BufTy).Contents (Elt F) → (⟨S50000, .f32⟩ : BufTy).Contents (Elt F)),
    StableHlo.binary main_v78 main_v79 main_v80 (cmpf .ogt : (⟨S50000, .f32⟩ : BufTy).Contents (Elt F) → (⟨S50000, .f32⟩ : BufTy).Contents (Elt F) → (⟨S50000, .i1⟩ : BufTy).Contents (Elt F)),
    StableHlo.nullary main_cst_24 (constant S_ .f32 0x3F800000#32),
    StableHlo.unary main_cst_24 main_v81 (broadcastInDim S50000 ![] bcast_S_S50000 : (⟨S_, .f32⟩ : BufTy).Contents (Elt F) → (⟨S50000, .f32⟩ : BufTy).Contents (Elt F)),
    StableHlo.binary main_v81 main_v78 main_v82 (Host.divf : (⟨S50000, .f32⟩ : BufTy).Contents (Elt F) → (⟨S50000, .f32⟩ : BufTy).Contents (Elt F) → (⟨S50000, .f32⟩ : BufTy).Contents (Elt F)),
    StableHlo.nullary main_cst_25 (constant S_ .f32 0x00000000#32),
    StableHlo.TRef.unary (.of main_cst_25 : StableHlo.TRef sig ⟨S_, .f32⟩) main_call4.v0 id,
    StableHlo.TRef.unary main_call4.v0 main_call4.v1 (broadcastInDim S50000 ![] bcast_S_S50000),
    StableHlo.TRef.ternary (.of main_v80 : StableHlo.TRef sig ⟨S50000, .i1⟩) (.of main_v82 : StableHlo.TRef sig ⟨S50000, .f32⟩) main_call4.v1 main_call4.v2 select ]
theorem c3_sub : (c3 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub ..⟩

/-- Stretch 4 of @main: 50 operations, in order. -/
abbrev c4 : List (HloOp τ sig (Elt F)) :=
  [ StableHlo.nullary main_c_26 (constantI S_ 32 0#32),
    StableHlo.unary main_c_26 main_v84 (broadcastInDim S600000 ![] bcast_S_S600000 : (⟨S_, .i32⟩ : BufTy).Contents (Elt F) → (⟨S600000, .i32⟩ : BufTy).Contents (Elt F)),
    StableHlo.binary main_v3 main_v84 main_v85 (cmpi .slt : (⟨S600000, .i32⟩ : BufTy).Contents (Elt F) → (⟨S600000, .i32⟩ : BufTy).Contents (Elt F) → (⟨S600000, .i1⟩ : BufTy).Contents (Elt F)),
    StableHlo.nullary main_c_27 (constantI S_ 32 50000#32),
    StableHlo.unary main_c_27 main_v86 (broadcastInDim S600000 ![] bcast_S_S600000 : (⟨S_, .i32⟩ : BufTy).Contents (Elt F) → (⟨S600000, .i32⟩ : BufTy).Contents (Elt F)),
    StableHlo.binary main_v3 main_v86 main_v87 (addi : (⟨S600000, .i32⟩ : BufTy).Contents (Elt F) → (⟨S600000, .i32⟩ : BufTy).Contents (Elt F) → (⟨S600000, .i32⟩ : BufTy).Contents (Elt F)),
    StableHlo.ternary main_v85 main_v87 main_v3 main_v88 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v88 main_v89 (broadcastInDim S600000x1 ![0] bcast_S600000_S600000x1_0 : (⟨S600000, .i32⟩ : BufTy).Contents (Elt F) → (⟨S600000x1, .i32⟩ : BufTy).Contents (Elt F)),
    StableHlo.binary main_v83 main_v89 main_v90 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    StableHlo.unary main_v90 main_v91 (broadcastInDim S600000x1 ![0] bcast_S600000_S600000x1_0 : (⟨S600000, .f32⟩ : BufTy).Contents (Elt F) → (⟨S600000x1, .f32⟩ : BufTy).Contents (Elt F)),
    StableHlo.nullary main_c_28 (constantI S_ 32 0#32),
    StableHlo.unary main_c_28 main_v92 (broadcastInDim S600000 ![] bcast_S_S600000 : (⟨S_, .i32⟩ : BufTy).Contents (Elt F) → (⟨S600000, .i32⟩ : BufTy).Contents (Elt F)),
    StableHlo.binary main_v1 main_v92 main_v93 (cmpi .slt : (⟨S600000, .i32⟩ : BufTy).Contents (Elt F) → (⟨S600000, .i32⟩ : BufTy).Contents (Elt F) → (⟨S600000, .i1⟩ : BufTy).Contents (Elt F)),
    StableHlo.nullary main_c_29 (constantI S_ 32 100000#32),
    StableHlo.unary main_c_29 main_v94 (broadcastInDim S600000 ![] bcast_S_S600000 : (⟨S_, .i32⟩ : BufTy).Contents (Elt F) → (⟨S600000, .i32⟩ : BufTy).Contents (Elt F)),
    StableHlo.binary main_v1 main_v94 main_v95 (addi : (⟨S600000, .i32⟩ : BufTy).Contents (Elt F) → (⟨S600000, .i32⟩ : BufTy).Contents (Elt F) → (⟨S600000, .i32⟩ : BufTy).Contents (Elt F)),
    StableHlo.ternary main_v93 main_v95 main_v1 main_v96 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v96 main_v97 (broadcastInDim S600000x1 ![0] bcast_S600000_S600000x1_0 : (⟨S600000, .i32⟩ : BufTy).Contents (Elt F) → (⟨S600000x1, .i32⟩ : BufTy).Contents (Elt F)),
    StableHlo.binary main_v66 main_v97 main_v98 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.unary main_v91 main_v99 (broadcastInDim S600000x128 ![0, 1] bcast_S600000x1_S600000x128_0_1 : (⟨S600000x1, .f32⟩ : BufTy).Contents (Elt F) → (⟨S600000x128, .f32⟩ : BufTy).Contents (Elt F)),
    StableHlo.binary main_v99 main_v98 main_v100 (mulf : (⟨S600000x128, .f32⟩ : BufTy).Contents (Elt F) → (⟨S600000x128, .f32⟩ : BufTy).Contents (Elt F) → (⟨S600000x128, .f32⟩ : BufTy).Contents (Elt F)),
    StableHlo.nullary main_cst_30 (constant S_ .f32 0x00000000#32),
    StableHlo.unary main_cst_30 main_v101 (broadcastInDim S50000x128 ![] bcast_S_S50000x128 : (⟨S_, .f32⟩ : BufTy).Contents (Elt F) → (⟨S50000x128, .f32⟩ : BufTy).Contents (Elt F)),
    StableHlo.unary main_v3 main_v102 (broadcastInDim S600000x1 ![0] bcast_S600000_S600000x1_0 : (⟨S600000, .i32⟩ : BufTy).Contents (Elt F) → (⟨S600000x1, .i32⟩ : BufTy).Contents (Elt F)),
    StableHlo.ternary main_v101 main_v102 main_v100 main_v103 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.nullary main_c_31 (constantI S_ 32 0#32),
    StableHlo.unary main_c_31 main_v104 (broadcastInDim S600000 ![] bcast_S_S600000 : (⟨S_, .i32⟩ : BufTy).Contents (Elt F) → (⟨S600000, .i32⟩ : BufTy).Contents (Elt F)),
    StableHlo.binary main_v1 main_v104 main_v105 (cmpi .slt : (⟨S600000, .i32⟩ : BufTy).Contents (Elt F) → (⟨S600000, .i32⟩ : BufTy).Contents (Elt F) → (⟨S600000, .i1⟩ : BufTy).Contents (Elt F)),
    StableHlo.nullary main_c_32 (constantI S_ 32 100000#32),
    StableHlo.unary main_c_32 main_v106 (broadcastInDim S600000 ![] bcast_S_S600000 : (⟨S_, .i32⟩ : BufTy).Contents (Elt F) → (⟨S600000, .i32⟩ : BufTy).Contents (Elt F)),
    StableHlo.binary main_v1 main_v106 main_v107 (addi : (⟨S600000, .i32⟩ : BufTy).Contents (Elt F) → (⟨S600000, .i32⟩ : BufTy).Contents (Elt F) → (⟨S600000, .i32⟩ : BufTy).Contents (Elt F)),
    StableHlo.ternary main_v105 main_v107 main_v1 main_v108 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v108 main_v109 (broadcastInDim S600000x1 ![0] bcast_S600000_S600000x1_0 : (⟨S600000, .i32⟩ : BufTy).Contents (Elt F) → (⟨S600000x1, .i32⟩ : BufTy).Contents (Elt F)),
    StableHlo.binary main_v75 main_v109 main_v110 ((fun x i => Host.gather gather_S100000_S600000x1_S600000_n_0_n_n_0_1_1 x i) : (⟨S100000, .f32⟩ : BufTy).Contents (Elt F) → (⟨S600000x1, .i32⟩ : BufTy).Contents (Elt F) → (⟨S600000, .f32⟩ : BufTy).Contents (Elt F)),
    StableHlo.unary main_v110 main_v111 (broadcastInDim S600000x1 ![0] bcast_S600000_S600000x1_0 : (⟨S600000, .f32⟩ : BufTy).Contents (Elt F) → (⟨S600000x1, .f32⟩ : BufTy).Contents (Elt F)),
    StableHlo.nullary main_c_33 (constantI S_ 32 0#32),
    StableHlo.unary main_c_33 main_v112 (broadcastInDim S600000 ![] bcast_S_S600000 : (⟨S_, .i32⟩ : BufTy).Contents (Elt F) → (⟨S600000, .i32⟩ : BufTy).Contents (Elt F)),
    StableHlo.binary main_v3 main_v112 main_v113 (cmpi .slt : (⟨S600000, .i32⟩ : BufTy).Contents (Elt F) → (⟨S600000, .i32⟩ : BufTy).Contents (Elt F) → (⟨S600000, .i1⟩ : BufTy).Contents (Elt F)),
    StableHlo.nullary main_c_34 (constantI S_ 32 50000#32),
    StableHlo.unary main_c_34 main_v114 (broadcastInDim S600000 ![] bcast_S_S600000 : (⟨S_, .i32⟩ : BufTy).Contents (Elt F) → (⟨S600000, .i32⟩ : BufTy).Contents (Elt F)),
    StableHlo.binary main_v3 main_v114 main_v115 (addi : (⟨S600000, .i32⟩ : BufTy).Contents (Elt F) → (⟨S600000, .i32⟩ : BufTy).Contents (Elt F) → (⟨S600000, .i32⟩ : BufTy).Contents (Elt F)),
    StableHlo.ternary main_v113 main_v115 main_v3 main_v116 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v116 main_v117 (broadcastInDim S600000x1 ![0] bcast_S600000_S600000x1_0 : (⟨S600000, .i32⟩ : BufTy).Contents (Elt F) → (⟨S600000x1, .i32⟩ : BufTy).Contents (Elt F)),
    StableHlo.binary main_v103 main_v117 main_v118 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.unary main_v111 main_v119 (broadcastInDim S600000x128 ![0, 1] bcast_S600000x1_S600000x128_0_1 : (⟨S600000x1, .f32⟩ : BufTy).Contents (Elt F) → (⟨S600000x128, .f32⟩ : BufTy).Contents (Elt F)),
    StableHlo.binary main_v119 main_v118 main_v120 (mulf : (⟨S600000x128, .f32⟩ : BufTy).Contents (Elt F) → (⟨S600000x128, .f32⟩ : BufTy).Contents (Elt F) → (⟨S600000x128, .f32⟩ : BufTy).Contents (Elt F)),
    StableHlo.nullary main_cst_35 (constant S_ .f32 0x00000000#32),
    StableHlo.unary main_cst_35 main_v121 (broadcastInDim S100000x128 ![] bcast_S_S100000x128 : (⟨S_, .f32⟩ : BufTy).Contents (Elt F) → (⟨S100000x128, .f32⟩ : BufTy).Contents (Elt F)),
    StableHlo.unary main_v1 main_v122 (broadcastInDim S600000x1 ![0] bcast_S600000_S600000x1_0 : (⟨S600000, .i32⟩ : BufTy).Contents (Elt F) → (⟨S600000x1, .i32⟩ : BufTy).Contents (Elt F)),
    StableHlo.ternary main_v121 main_v122 main_v120 main_v123 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)) ]
theorem c4_sub : (c4 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩

/-- Stretch 5 of @main: 19 operations, in order. -/
abbrev c5 : List (HloOp τ sig (Elt F)) :=
  [ StableHlo.unary main_arg6 main_v124 (broadcastInDim S1x128 ![1] bcast_S128_S1x128_1 : (⟨S128, .f32⟩ : BufTy).Contents (Elt F) → (⟨S1x128, .f32⟩ : BufTy).Contents (Elt F)),
    StableHlo.unary main_v124 main_v125 (broadcastInDim S100000x128 ![0, 1] bcast_S1x128_S100000x128_0_1 : (⟨S1x128, .f32⟩ : BufTy).Contents (Elt F) → (⟨S100000x128, .f32⟩ : BufTy).Contents (Elt F)),
    StableHlo.binary main_v123 main_v125 main_v126 (addf : (⟨S100000x128, .f32⟩ : BufTy).Contents (Elt F) → (⟨S100000x128, .f32⟩ : BufTy).Contents (Elt F) → (⟨S100000x128, .f32⟩ : BufTy).Contents (Elt F)),
    StableHlo.TRef.nullary main_call5.cst (constant S_ .f32 0x00000000#32),
    StableHlo.TRef.unary main_call5.cst main_call5.v0 (broadcastInDim S100000x128 ![] bcast_S_S100000x128),
    StableHlo.TRef.binary (.of main_v126 : StableHlo.TRef sig ⟨S100000x128, .f32⟩) main_call5.v0 main_call5.v1 (cmpf .ogt),
    StableHlo.TRef.nullary main_call5.cst_0 (constant S_ .f32 0x00000000#32),
    StableHlo.TRef.unary main_call5.cst_0 main_call5.v2 (broadcastInDim S100000x128 ![] bcast_S_S100000x128),
    StableHlo.TRef.binary (.of main_v126 : StableHlo.TRef sig ⟨S100000x128, .f32⟩) main_call5.v2 main_call5.v3 (cmpf .ogt),
    StableHlo.TRef.nullary main_call5.cst_1 (constant S_ .f32 0x00000000#32),
    StableHlo.TRef.unary (main_call5.cst_1 : StableHlo.TRef sig ⟨S_, .f32⟩) main_call5.call0.v0 id,
    StableHlo.TRef.unary main_call5.call0.v0 main_call5.call0.v1 (broadcastInDim S100000x128 ![] bcast_S_S100000x128),
    StableHlo.TRef.ternary (main_call5.v3 : StableHlo.TRef sig ⟨S100000x128, .i1⟩) main_call5.call0.v1 (.of main_v126 : StableHlo.TRef sig ⟨S100000x128, .f32⟩) main_call5.call0.v2 select,
    StableHlo.TRef.unary main_call5.call0.v2 main_call5.v5 Host.expm1,
    StableHlo.TRef.nullary main_call5.cst_2 (constant S_ .f32 0x3F800000#32),
    StableHlo.TRef.unary main_call5.cst_2 main_call5.v6 (broadcastInDim S100000x128 ![] bcast_S_S100000x128),
    StableHlo.TRef.binary main_call5.v6 main_call5.v5 main_call5.v7 mulf,
    StableHlo.TRef.ternary (main_call5.v1 : StableHlo.TRef sig ⟨S100000x128, .i1⟩) (.of main_v126 : StableHlo.TRef sig ⟨S100000x128, .f32⟩) (main_call5.v7 : StableHlo.TRef sig ⟨S100000x128, .f32⟩) main_call5.call1.v0 select,
    StableHlo.binary main_v127 main_arg7 main_v128 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]
theorem c5_sub : (c5 : List (HloOp τ sig (Elt F))).Forall fun op => op.bufs ⊆ tcRefs τ sig :=
  ⟨unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub ..⟩

/-- Stretch 6 of @main: 30 operations, in order. -/
abbrev c6 : List (HloOp τ sig (Elt F)) :=
  [ StableHlo.nullary main_cst_36 (constant S_ .f32 0x3F800000#32),
    StableHlo.unary main_cst_36 main_v129 (broadcastInDim S600000 ![] bcast_S_S600000 : (⟨S_, .f32⟩ : BufTy).Contents (Elt F) → (⟨S600000, .f32⟩ : BufTy).Contents (Elt F)),
    StableHlo.nullary main_cst_37 (constant S_ .f32 0x00000000#32),
    StableHlo.unary main_cst_37 main_v130 (broadcastInDim S100000 ![] bcast_S_S100000 : (⟨S_, .f32⟩ : BufTy).Contents (Elt F) → (⟨S100000, .f32⟩ : BufTy).Contents (Elt F)),
    StableHlo.unary main_v1 main_v131 (broadcastInDim S600000x1 ![0] bcast_S600000_S600000x1_0 : (⟨S600000, .i32⟩ : BufTy).Contents (Elt F) → (⟨S600000x1, .i32⟩ : BufTy).Contents (Elt F)),
    StableHlo.ternary main_v130 main_v131 main_v129 main_v132 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    StableHlo.nullary main_cst_38 (constant S_ .f32 0x00000000#32),
    StableHlo.unary main_cst_38 main_v133 (broadcastInDim S100000 ![] bcast_S_S100000 : (⟨S_, .f32⟩ : BufTy).Contents (Elt F) → (⟨S100000, .f32⟩ : BufTy).Contents (Elt F)),
    StableHlo.binary main_v132 main_v133 main_v134 (cmpf .ogt : (⟨S100000, .f32⟩ : BufTy).Contents (Elt F) → (⟨S100000, .f32⟩ : BufTy).Contents (Elt F) → (⟨S100000, .i1⟩ : BufTy).Contents (Elt F)),
    StableHlo.nullary main_cst_39 (constant S_ .f32 0x3F800000#32),
    StableHlo.unary main_cst_39 main_v135 (broadcastInDim S100000 ![] bcast_S_S100000 : (⟨S_, .f32⟩ : BufTy).Contents (Elt F) → (⟨S100000, .f32⟩ : BufTy).Contents (Elt F)),
    StableHlo.binary main_v135 main_v132 main_v136 (Host.divf : (⟨S100000, .f32⟩ : BufTy).Contents (Elt F) → (⟨S100000, .f32⟩ : BufTy).Contents (Elt F) → (⟨S100000, .f32⟩ : BufTy).Contents (Elt F)),
    StableHlo.nullary main_cst_40 (constant S_ .f32 0x00000000#32),
    StableHlo.TRef.unary (.of main_cst_40 : StableHlo.TRef sig ⟨S_, .f32⟩) main_call6.v0 id,
    StableHlo.TRef.unary main_call6.v0 main_call6.v1 (broadcastInDim S100000 ![] bcast_S_S100000),
    StableHlo.TRef.ternary (.of main_v134 : StableHlo.TRef sig ⟨S100000, .i1⟩) (.of main_v136 : StableHlo.TRef sig ⟨S100000, .f32⟩) main_call6.v1 main_call6.v2 select,
    StableHlo.nullary main_cst_41 (constant S_ .f32 0x00000000#32),
    StableHlo.unary main_cst_41 main_v138 (broadcastInDim S50000 ![] bcast_S_S50000 : (⟨S_, .f32⟩ : BufTy).Contents (Elt F) → (⟨S50000, .f32⟩ : BufTy).Contents (Elt F)),
    StableHlo.unary main_v3 main_v139 (broadcastInDim S600000x1 ![0] bcast_S600000_S600000x1_0 : (⟨S600000, .i32⟩ : BufTy).Contents (Elt F) → (⟨S600000x1, .i32⟩ : BufTy).Contents (Elt F)),
    StableHlo.ternary main_v138 main_v139 main_v129 main_v140 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    StableHlo.nullary main_cst_42 (constant S_ .f32 0x00000000#32),
    StableHlo.unary main_cst_42 main_v141 (broadcastInDim S50000 ![] bcast_S_S50000 : (⟨S_, .f32⟩ : BufTy).Contents (Elt F) → (⟨S50000, .f32⟩ : BufTy).Contents (Elt F)),
    StableHlo.binary main_v140 main_v141 main_v142 (cmpf .ogt : (⟨S50000, .f32⟩ : BufTy).Contents (Elt F) → (⟨S50000, .f32⟩ : BufTy).Contents (Elt F) → (⟨S50000, .i1⟩ : BufTy).Contents (Elt F)),
    StableHlo.nullary main_cst_43 (constant S_ .f32 0x3F800000#32),
    StableHlo.unary main_cst_43 main_v143 (broadcastInDim S50000 ![] bcast_S_S50000 : (⟨S_, .f32⟩ : BufTy).Contents (Elt F) → (⟨S50000, .f32⟩ : BufTy).Contents (Elt F)),
    StableHlo.binary main_v143 main_v140 main_v144 (Host.divf : (⟨S50000, .f32⟩ : BufTy).Contents (Elt F) → (⟨S50000, .f32⟩ : BufTy).Contents (Elt F) → (⟨S50000, .f32⟩ : BufTy).Contents (Elt F)),
    StableHlo.nullary main_cst_44 (constant S_ .f32 0x00000000#32),
    StableHlo.TRef.unary (.of main_cst_44 : StableHlo.TRef sig ⟨S_, .f32⟩) main_call7.v0 id,
    StableHlo.TRef.unary main_call7.v0 main_call7.v1 (broadcastInDim S50000 ![] bcast_S_S50000),
    StableHlo.TRef.ternary (.of main_v142 : StableHlo.TRef sig ⟨S50000, .i1⟩) (.of main_v144 : StableHlo.TRef sig ⟨S50000, .f32⟩) main_call7.v1 main_call7.v2 select ]
theorem c6_sub : (c6 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub ..⟩

/-- Stretch 7 of @main: 50 operations, in order. -/
abbrev c7 : List (HloOp τ sig (Elt F)) :=
  [ StableHlo.nullary main_c_45 (constantI S_ 32 0#32),
    StableHlo.unary main_c_45 main_v146 (broadcastInDim S600000 ![] bcast_S_S600000 : (⟨S_, .i32⟩ : BufTy).Contents (Elt F) → (⟨S600000, .i32⟩ : BufTy).Contents (Elt F)),
    StableHlo.binary main_v3 main_v146 main_v147 (cmpi .slt : (⟨S600000, .i32⟩ : BufTy).Contents (Elt F) → (⟨S600000, .i32⟩ : BufTy).Contents (Elt F) → (⟨S600000, .i1⟩ : BufTy).Contents (Elt F)),
    StableHlo.nullary main_c_46 (constantI S_ 32 50000#32),
    StableHlo.unary main_c_46 main_v148 (broadcastInDim S600000 ![] bcast_S_S600000 : (⟨S_, .i32⟩ : BufTy).Contents (Elt F) → (⟨S600000, .i32⟩ : BufTy).Contents (Elt F)),
    StableHlo.binary main_v3 main_v148 main_v149 (addi : (⟨S600000, .i32⟩ : BufTy).Contents (Elt F) → (⟨S600000, .i32⟩ : BufTy).Contents (Elt F) → (⟨S600000, .i32⟩ : BufTy).Contents (Elt F)),
    StableHlo.ternary main_v147 main_v149 main_v3 main_v150 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v150 main_v151 (broadcastInDim S600000x1 ![0] bcast_S600000_S600000x1_0 : (⟨S600000, .i32⟩ : BufTy).Contents (Elt F) → (⟨S600000x1, .i32⟩ : BufTy).Contents (Elt F)),
    StableHlo.binary main_v145 main_v151 main_v152 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    StableHlo.unary main_v152 main_v153 (broadcastInDim S600000x1 ![0] bcast_S600000_S600000x1_0 : (⟨S600000, .f32⟩ : BufTy).Contents (Elt F) → (⟨S600000x1, .f32⟩ : BufTy).Contents (Elt F)),
    StableHlo.nullary main_c_47 (constantI S_ 32 0#32),
    StableHlo.unary main_c_47 main_v154 (broadcastInDim S600000 ![] bcast_S_S600000 : (⟨S_, .i32⟩ : BufTy).Contents (Elt F) → (⟨S600000, .i32⟩ : BufTy).Contents (Elt F)),
    StableHlo.binary main_v1 main_v154 main_v155 (cmpi .slt : (⟨S600000, .i32⟩ : BufTy).Contents (Elt F) → (⟨S600000, .i32⟩ : BufTy).Contents (Elt F) → (⟨S600000, .i1⟩ : BufTy).Contents (Elt F)),
    StableHlo.nullary main_c_48 (constantI S_ 32 100000#32),
    StableHlo.unary main_c_48 main_v156 (broadcastInDim S600000 ![] bcast_S_S600000 : (⟨S_, .i32⟩ : BufTy).Contents (Elt F) → (⟨S600000, .i32⟩ : BufTy).Contents (Elt F)),
    StableHlo.binary main_v1 main_v156 main_v157 (addi : (⟨S600000, .i32⟩ : BufTy).Contents (Elt F) → (⟨S600000, .i32⟩ : BufTy).Contents (Elt F) → (⟨S600000, .i32⟩ : BufTy).Contents (Elt F)),
    StableHlo.ternary main_v155 main_v157 main_v1 main_v158 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v158 main_v159 (broadcastInDim S600000x1 ![0] bcast_S600000_S600000x1_0 : (⟨S600000, .i32⟩ : BufTy).Contents (Elt F) → (⟨S600000x1, .i32⟩ : BufTy).Contents (Elt F)),
    StableHlo.binary main_v128 main_v159 main_v160 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.unary main_v153 main_v161 (broadcastInDim S600000x128 ![0, 1] bcast_S600000x1_S600000x128_0_1 : (⟨S600000x1, .f32⟩ : BufTy).Contents (Elt F) → (⟨S600000x128, .f32⟩ : BufTy).Contents (Elt F)),
    StableHlo.binary main_v161 main_v160 main_v162 (mulf : (⟨S600000x128, .f32⟩ : BufTy).Contents (Elt F) → (⟨S600000x128, .f32⟩ : BufTy).Contents (Elt F) → (⟨S600000x128, .f32⟩ : BufTy).Contents (Elt F)),
    StableHlo.nullary main_cst_49 (constant S_ .f32 0x00000000#32),
    StableHlo.unary main_cst_49 main_v163 (broadcastInDim S50000x128 ![] bcast_S_S50000x128 : (⟨S_, .f32⟩ : BufTy).Contents (Elt F) → (⟨S50000x128, .f32⟩ : BufTy).Contents (Elt F)),
    StableHlo.unary main_v3 main_v164 (broadcastInDim S600000x1 ![0] bcast_S600000_S600000x1_0 : (⟨S600000, .i32⟩ : BufTy).Contents (Elt F) → (⟨S600000x1, .i32⟩ : BufTy).Contents (Elt F)),
    StableHlo.ternary main_v163 main_v164 main_v162 main_v165 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.nullary main_c_50 (constantI S_ 32 0#32),
    StableHlo.unary main_c_50 main_v166 (broadcastInDim S600000 ![] bcast_S_S600000 : (⟨S_, .i32⟩ : BufTy).Contents (Elt F) → (⟨S600000, .i32⟩ : BufTy).Contents (Elt F)),
    StableHlo.binary main_v1 main_v166 main_v167 (cmpi .slt : (⟨S600000, .i32⟩ : BufTy).Contents (Elt F) → (⟨S600000, .i32⟩ : BufTy).Contents (Elt F) → (⟨S600000, .i1⟩ : BufTy).Contents (Elt F)),
    StableHlo.nullary main_c_51 (constantI S_ 32 100000#32),
    StableHlo.unary main_c_51 main_v168 (broadcastInDim S600000 ![] bcast_S_S600000 : (⟨S_, .i32⟩ : BufTy).Contents (Elt F) → (⟨S600000, .i32⟩ : BufTy).Contents (Elt F)),
    StableHlo.binary main_v1 main_v168 main_v169 (addi : (⟨S600000, .i32⟩ : BufTy).Contents (Elt F) → (⟨S600000, .i32⟩ : BufTy).Contents (Elt F) → (⟨S600000, .i32⟩ : BufTy).Contents (Elt F)),
    StableHlo.ternary main_v167 main_v169 main_v1 main_v170 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v170 main_v171 (broadcastInDim S600000x1 ![0] bcast_S600000_S600000x1_0 : (⟨S600000, .i32⟩ : BufTy).Contents (Elt F) → (⟨S600000x1, .i32⟩ : BufTy).Contents (Elt F)),
    StableHlo.binary main_v137 main_v171 main_v172 ((fun x i => Host.gather gather_S100000_S600000x1_S600000_n_0_n_n_0_1_1 x i) : (⟨S100000, .f32⟩ : BufTy).Contents (Elt F) → (⟨S600000x1, .i32⟩ : BufTy).Contents (Elt F) → (⟨S600000, .f32⟩ : BufTy).Contents (Elt F)),
    StableHlo.unary main_v172 main_v173 (broadcastInDim S600000x1 ![0] bcast_S600000_S600000x1_0 : (⟨S600000, .f32⟩ : BufTy).Contents (Elt F) → (⟨S600000x1, .f32⟩ : BufTy).Contents (Elt F)),
    StableHlo.nullary main_c_52 (constantI S_ 32 0#32),
    StableHlo.unary main_c_52 main_v174 (broadcastInDim S600000 ![] bcast_S_S600000 : (⟨S_, .i32⟩ : BufTy).Contents (Elt F) → (⟨S600000, .i32⟩ : BufTy).Contents (Elt F)),
    StableHlo.binary main_v3 main_v174 main_v175 (cmpi .slt : (⟨S600000, .i32⟩ : BufTy).Contents (Elt F) → (⟨S600000, .i32⟩ : BufTy).Contents (Elt F) → (⟨S600000, .i1⟩ : BufTy).Contents (Elt F)),
    StableHlo.nullary main_c_53 (constantI S_ 32 50000#32),
    StableHlo.unary main_c_53 main_v176 (broadcastInDim S600000 ![] bcast_S_S600000 : (⟨S_, .i32⟩ : BufTy).Contents (Elt F) → (⟨S600000, .i32⟩ : BufTy).Contents (Elt F)),
    StableHlo.binary main_v3 main_v176 main_v177 (addi : (⟨S600000, .i32⟩ : BufTy).Contents (Elt F) → (⟨S600000, .i32⟩ : BufTy).Contents (Elt F) → (⟨S600000, .i32⟩ : BufTy).Contents (Elt F)),
    StableHlo.ternary main_v175 main_v177 main_v3 main_v178 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v178 main_v179 (broadcastInDim S600000x1 ![0] bcast_S600000_S600000x1_0 : (⟨S600000, .i32⟩ : BufTy).Contents (Elt F) → (⟨S600000x1, .i32⟩ : BufTy).Contents (Elt F)),
    StableHlo.binary main_v165 main_v179 main_v180 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.unary main_v173 main_v181 (broadcastInDim S600000x128 ![0, 1] bcast_S600000x1_S600000x128_0_1 : (⟨S600000x1, .f32⟩ : BufTy).Contents (Elt F) → (⟨S600000x128, .f32⟩ : BufTy).Contents (Elt F)),
    StableHlo.binary main_v181 main_v180 main_v182 (mulf : (⟨S600000x128, .f32⟩ : BufTy).Contents (Elt F) → (⟨S600000x128, .f32⟩ : BufTy).Contents (Elt F) → (⟨S600000x128, .f32⟩ : BufTy).Contents (Elt F)),
    StableHlo.nullary main_cst_54 (constant S_ .f32 0x00000000#32),
    StableHlo.unary main_cst_54 main_v183 (broadcastInDim S100000x128 ![] bcast_S_S100000x128 : (⟨S_, .f32⟩ : BufTy).Contents (Elt F) → (⟨S100000x128, .f32⟩ : BufTy).Contents (Elt F)),
    StableHlo.unary main_v1 main_v184 (broadcastInDim S600000x1 ![0] bcast_S600000_S600000x1_0 : (⟨S600000, .i32⟩ : BufTy).Contents (Elt F) → (⟨S600000x1, .i32⟩ : BufTy).Contents (Elt F)),
    StableHlo.ternary main_v183 main_v184 main_v182 main_v185 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)) ]
theorem c7_sub : (c7 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩

/-- Stretch 8 of @main: 3 operations, in order. -/
abbrev c8 : List (HloOp τ sig (Elt F)) :=
  [ StableHlo.unary main_arg8 main_v186 (broadcastInDim S1x128 ![1] bcast_S128_S1x128_1 : (⟨S128, .f32⟩ : BufTy).Contents (Elt F) → (⟨S1x128, .f32⟩ : BufTy).Contents (Elt F)),
    StableHlo.unary main_v186 main_v187 (broadcastInDim S100000x128 ![0, 1] bcast_S1x128_S100000x128_0_1 : (⟨S1x128, .f32⟩ : BufTy).Contents (Elt F) → (⟨S100000x128, .f32⟩ : BufTy).Contents (Elt F)),
    StableHlo.binary main_v185 main_v187 main_v188 (addf : (⟨S100000x128, .f32⟩ : BufTy).Contents (Elt F) → (⟨S100000x128, .f32⟩ : BufTy).Contents (Elt F) → (⟨S100000x128, .f32⟩ : BufTy).Contents (Elt F)) ]
theorem c8_sub : (c8 : List (HloOp τ sig (Elt F))).Forall fun op => op.bufs ⊆ tcRefs τ sig :=
  ⟨unary_bufs_sub .., unary_bufs_sub .., binary_bufs_sub ..⟩

end Cert.ReferenceIdeal.Ops

end
-- ==== Proof.RefRun.lean ====
/-
  The reference's run. Its @main is a straight line of 286 host operations (the operation lists are laid out in
  RefOps.lean, cut into nine stretches); so every weakly fair execution terminates with each buffer at the fold of
  those operations over the launch contents, and the fold is taken one stretch at a time: `U k` is what the
  buffers hold after the first k stretches.
-/
import proofs.«118884_j61538291417104_1_alg».proof.Proof.RefOps
import Idealize.ShloMosaic.Lib.Pipeline.Regions
import Idealize.ShloMosaic.Lib.Pipeline.Frame

noncomputable section

namespace Cert.ReferenceIdeal.Run

open Cert.ReferenceIdeal Cert.ReferenceIdeal.Gen Cert.ReferenceIdeal.Ops
open Idealize.ShloMosaic Idealize.ShloMosaic.TcCoe Idealize.SL.Sem Idealize.ShloMosaic.StableHlo

variable {F : FTy → Type} [FloatOps F]

/-- All of @main's operations, in order. -/
abbrev ops : List (HloOp τ sig (Elt F)) := c0 ++ (c1 ++ (c2 ++ (c3 ++ (c4 ++ (c5 ++ (c6 ++ (c7 ++ (c8))))))))

/-- @main is that straight line: the windows it is printed in, and the functions it calls, unfold to one chain of
    operation steps (checked by computation). -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

/-- No operation of stretch 0 allocates a buffer. -/
theorem c0_fresh : (c0 : List (HloOp τ sig (Elt F))).Forall fun op => op.fresh = ∅ := by
  simp only [List.Forall]; repeat' constructor
/-- No operation of stretch 1 allocates a buffer. -/
theorem c1_fresh : (c1 : List (HloOp τ sig (Elt F))).Forall fun op => op.fresh = ∅ := by
  simp only [List.Forall]; repeat' constructor
/-- No operation of stretch 2 allocates a buffer. -/
theorem c2_fresh : (c2 : List (HloOp τ sig (Elt F))).Forall fun op => op.fresh = ∅ := by
  simp only [List.Forall]; repeat' constructor
/-- No operation of stretch 3 allocates a buffer. -/
theorem c3_fresh : (c3 : List (HloOp τ sig (Elt F))).Forall fun op => op.fresh = ∅ := by
  simp only [List.Forall]; repeat' constructor
/-- No operation of stretch 4 allocates a buffer. -/
theorem c4_fresh : (c4 : List (HloOp τ sig (Elt F))).Forall fun op => op.fresh = ∅ := by
  simp only [List.Forall]; repeat' constructor
/-- No operation of stretch 5 allocates a buffer. -/
theorem c5_fresh : (c5 : List (HloOp τ sig (Elt F))).Forall fun op => op.fresh = ∅ := by
  simp only [List.Forall]; repeat' constructor
/-- No operation of stretch 6 allocates a buffer. -/
theorem c6_fresh : (c6 : List (HloOp τ sig (Elt F))).Forall fun op => op.fresh = ∅ := by
  simp only [List.Forall]; repeat' constructor
/-- No operation of stretch 7 allocates a buffer. -/
theorem c7_fresh : (c7 : List (HloOp τ sig (Elt F))).Forall fun op => op.fresh = ∅ := by
  simp only [List.Forall]; repeat' constructor
/-- No operation of stretch 8 allocates a buffer. -/
theorem c8_fresh : (c8 : List (HloOp τ sig (Elt F))).Forall fun op => op.fresh = ∅ := by
  simp only [List.Forall]; repeat' constructor

theorem ops_sub : (ops : List (HloOp τ sig (Elt F))).Forall fun op => op.bufs ⊆ tcRefs τ sig := by
  refine List.forall_iff_forall_mem.mpr fun op h => ?_
  simp only [ops, List.mem_append] at h
  rcases h with h | h | h | h | h | h | h | h | h
  · exact (List.forall_iff_forall_mem.mp c0_sub) op h
  · exact (List.forall_iff_forall_mem.mp c1_sub) op h
  · exact (List.forall_iff_forall_mem.mp c2_sub) op h
  · exact (List.forall_iff_forall_mem.mp c3_sub) op h
  · exact (List.forall_iff_forall_mem.mp c4_sub) op h
  · exact (List.forall_iff_forall_mem.mp c5_sub) op h
  · exact (List.forall_iff_forall_mem.mp c6_sub) op h
  · exact (List.forall_iff_forall_mem.mp c7_sub) op h
  · exact (List.forall_iff_forall_mem.mp c8_sub) op h

theorem ops_fresh : ∀ op ∈ (ops : List (HloOp τ sig (Elt F))), op.fresh = ∅ := by
  intro op h
  simp only [ops, List.mem_append] at h
  rcases h with h | h | h | h | h | h | h | h | h
  · exact (List.forall_iff_forall_mem.mp c0_fresh) op h
  · exact (List.forall_iff_forall_mem.mp c1_fresh) op h
  · exact (List.forall_iff_forall_mem.mp c2_fresh) op h
  · exact (List.forall_iff_forall_mem.mp c3_fresh) op h
  · exact (List.forall_iff_forall_mem.mp c4_fresh) op h
  · exact (List.forall_iff_forall_mem.mp c5_fresh) op h
  · exact (List.forall_iff_forall_mem.mp c6_fresh) op h
  · exact (List.forall_iff_forall_mem.mp c7_fresh) op h
  · exact (List.forall_iff_forall_mem.mp c8_fresh) op h

/-- From any memory with zero counters every weakly fair execution of @main terminates, and every final state has
    each buffer at the fold of the operations over its launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

/-! ## The fold, one stretch at a time -/

variable (m : (ℓ : Loc nD τ sig) → Buf (Elt F) ℓ) (c : Dev nD)

/-- The buffers at launch. -/
abbrev U0 : Valuation τ sig (Elt F) := launchContents m c
/-- The buffers after stretch 0. -/
abbrev U1 : Valuation τ sig (Elt F) := after c0 (U0 m c)
/-- The buffers after stretch 1. -/
abbrev U2 : Valuation τ sig (Elt F) := after c1 (U1 m c)
/-- The buffers after stretch 2. -/
abbrev U3 : Valuation τ sig (Elt F) := after c2 (U2 m c)
/-- The buffers after stretch 3. -/
abbrev U4 : Valuation τ sig (Elt F) := after c3 (U3 m c)
/-- The buffers after stretch 4. -/
abbrev U5 : Valuation τ sig (Elt F) := after c4 (U4 m c)
/-- The buffers after stretch 5. -/
abbrev U6 : Valuation τ sig (Elt F) := after c5 (U5 m c)
/-- The buffers after stretch 6. -/
abbrev U7 : Valuation τ sig (Elt F) := after c6 (U6 m c)
/-- The buffers after stretch 7. -/
abbrev U8 : Valuation τ sig (Elt F) := after c7 (U7 m c)
/-- The buffers after stretch 8. -/
abbrev U9 : Valuation τ sig (Elt F) := after c8 (U8 m c)

/-- The whole fold is the last stage. -/
theorem after_ops : after ops (launchContents m c) = U9 m c := by
  simp only [ops, StableHlo.after_append]

end Cert.ReferenceIdeal.Run

end
-- ==== Proof.RefStages.lean ====
/-
  The reference's own stretches, read at the ideal instance: its matrix product on the host is the sum `Spec.mm`;
  its bias row, broadcast and added, then its exponential linear unit (spelt with `expm1` of the clamped argument,
  times one) are `Spec.biasElu`; the last layer's bias is `Spec.bias`. And the kernel's host code lays a bias
  vector out as a row by a reshape, which is `Spec.row`.
-/
import proofs.«118884_j61538291417104_1_alg».proof.Proof.Gen.KernelIdeal
import proofs.«118884_j61538291417104_1_alg».proof.Proof.RefOps
import proofs.«118884_j61538291417104_1_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.Stages

open Idealize.ShloMosaic Idealize.ShloMosaic.TcCoe Idealize.SL.Sem Idealize.ShloMosaic.StableHlo
open Idealize.ShloMosaic.ValueIdx
open Cert.ReferenceIdeal.Ops

variable (V : Valuation Cert.ReferenceIdeal.τ Cert.ReferenceIdeal.sig (Elt Ideal))

/-! ## The bias row's two broadcasts read at an entry -/

/-- A vector broadcast along axis 1 into the one row of a [1, n] array, read at (0, c), is the vector at c. -/
private theorem bcast_vecRow_apply {α : Type} {n : Nat}
    (h : (⟨1, ![n]⟩ : Shape).BroadcastsInDim ⟨2, ![1, n]⟩ ![1]) (x : (⟨1, ![n]⟩ : Shape).Idx → α) (c : Fin n) :
    broadcastInDim ⟨2, ![1, n]⟩ ![1] h x (ix2 (0 : Fin 1) c) = x (ix1 c) := by
  refine broadcastInDim_apply ![1] h x (ix2 (0 : Fin 1) c) (ix1 c) ?_
  intro a
  fin_cases a
  show c.val = if n = 1 then 0 else c.val
  split_ifs with hn
  · have := c.isLt; omega
  · rfl

/-- A one-row array broadcast down m rows, read at (r, c), is the row at (0, c). -/
private theorem bcast_rowDown_apply {α : Type} {m n : Nat}
    (h : (⟨2, ![1, n]⟩ : Shape).BroadcastsInDim ⟨2, ![m, n]⟩ ![0, 1]) (y : (⟨2, ![1, n]⟩ : Shape).Idx → α)
    (r : Fin m) (c : Fin n) :
    broadcastInDim ⟨2, ![m, n]⟩ ![0, 1] h y (ix2 r c) = y (ix2 (0 : Fin 1) c) := by
  refine broadcastInDim_apply ![0, 1] h y (ix2 r c) (ix2 (0 : Fin 1) c) ?_
  intro a
  fin_cases a
  · show (0 : ℕ) = if (1 : ℕ) = 1 then 0 else r.val
    rw [if_pos rfl]
  · show c.val = if n = 1 then 0 else c.val
    split_ifs with hn
    · have := c.isLt; omega
    · rfl

/-! ## The host's matrix product read at an entry

The product's dimension numbers contract the left operand's axis 1 against the right operand's axis 0; the left
operand's axis 0 and the right operand's axis 1 are the result's two axes. Each operand coordinate, at a result index
and a contraction index, is therefore one coordinate of one of the two. -/

private theorem lhs_dot_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide),
    dif_pos (show (0 : Fin Cert.ReferenceIdeal.S100000x128.rank) ∈ Cert.ReferenceIdeal.dot_S100000x128_S128x128_S100000x128_1_0_0_1_n_n.lhsNonContracting by decide)]
  rfl

private theorem lhs_dot_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q

private theorem rhs_dot_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q

private theorem rhs_dot_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide),
    dif_pos (show (1 : Fin Cert.ReferenceIdeal.S128x128.rank) ∈ Cert.ReferenceIdeal.dot_S100000x128_S128x128_S100000x128_1_0_0_1_n_n.rhsNonContracting by decide)]
  rfl

/-- Over the extended reals the host's product of a [100000, 128] array with a [128, 128] array, read at (r, c), is the
    sum over k of x[r, k] · w[k, c]: the sum over the one-axis contraction shape, re-indexed by that axis' coordinate. -/
private theorem dot_apply (x : FVec Ideal Cert.ReferenceIdeal.S100000x128 .f32) (w : FVec Ideal Cert.ReferenceIdeal.S128x128 .f32)
    (r : Fin 100000) (c : Fin 128) :
    Host.dotGeneral (F := Ideal) Cert.ReferenceIdeal.dot_S100000x128_S128x128_S100000x128_1_0_0_1_n_n none x w (ix2 r c) = ∑ k : Fin 128, x (ix2 r k) * w (ix2 k c) := by
  simp only [Host.dotGeneral]
  rw [Ideal.dotGeneral_apply, ← Equiv.sum_comp (contrEquiv1 Cert.ReferenceIdeal.dot_S100000x128_S128x128_S100000x128_1_0_0_1_n_n 128 rfl rfl).symm]
  refine Finset.sum_congr rfl fun k _ => ?_
  have hk := contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 r c) ((contrEquiv1 Cert.ReferenceIdeal.dot_S100000x128_S128x128_S100000x128_1_0_0_1_n_n 128 rfl rfl).symm k) = ix2 r k :=
    funext fun a => Fin.ext (by
      match a with
      | ⟨0, _⟩ => exact lhs_dot_0 _ _
      | ⟨1, _⟩ => exact (lhs_dot_1 _ _).trans hk)
  have er : Cert.ReferenceIdeal.dot_S100000x128_S128x128_S100000x128_1_0_0_1_n_n.rhsIdx (ix2 r c) ((contrEquiv1 Cert.ReferenceIdeal.dot_S100000x128_S128x128_S100000x128_1_0_0_1_n_n 128 rfl rfl).symm k) = ix2 k c :=
    funext fun a => Fin.ext (by
      match a with
      | ⟨0, _⟩ => exact (rhs_dot_0 _ _).trans hk
      | ⟨1, _⟩ => exact rhs_dot_1 _ _)
  rw [el, er]

/-- The whole product is `Spec.mm`. -/
private theorem dot_eq_mm (x : FVec Ideal Cert.ReferenceIdeal.S100000x128 .f32) (w : FVec Ideal Cert.ReferenceIdeal.S128x128 .f32) :
    Host.dotGeneral (F := Ideal) Cert.ReferenceIdeal.dot_S100000x128_S128x128_S100000x128_1_0_0_1_n_n none x w = Cert.Spec.mm x w := by
  funext i
  obtain ⟨r, q, rfl⟩ : ∃ (r : Fin 100000) (q : Fin 128), i = ix2 r q := ⟨i 0, i 1, eq_ix2 i⟩
  rw [dot_apply, Cert.Spec.mm_apply]

/-! ## The exponential linear unit as the reference spells it, read at an entry -/

/-- The word 0x3F800000 is the single-precision 1.0. -/
private theorem ofBits_one_f32 : Ideal.ofBits .f32 0x3F800000#32 = 1 := by
  simp [Ideal.ofBits, Ideal.ieee, -EReal.coe_mul]; norm_num

/-- The reference's exponential linear unit on an array `y`, read at an entry: where `y > 0` the entry itself;
    elsewhere one times `expm1` of the entry (the inner selection, which clamps positive entries to zero before
    `expm1`, is taken on the same condition, so there it returns the entry). -/
private theorem elu_entry (y : FVec Ideal Cert.ReferenceIdeal.S100000x128 .f32) (i : Cert.ReferenceIdeal.S100000x128.Idx) :
    select
        (cmpf .ogt y (broadcastInDim Cert.ReferenceIdeal.S100000x128 ![] Cert.ReferenceIdeal.Gen.bcast_S_S100000x128
          (constant (F := Ideal) Cert.ReferenceIdeal.S_ .f32 0x00000000#32)))
        y
        (mulf
          (broadcastInDim Cert.ReferenceIdeal.S100000x128 ![] Cert.ReferenceIdeal.Gen.bcast_S_S100000x128
            (constant (F := Ideal) Cert.ReferenceIdeal.S_ .f32 0x3F800000#32))
          (Host.expm1
            (select
              (cmpf .ogt y (broadcastInDim Cert.ReferenceIdeal.S100000x128 ![] Cert.ReferenceIdeal.Gen.bcast_S_S100000x128
                (constant (F := Ideal) Cert.ReferenceIdeal.S_ .f32 0x00000000#32)))
              (broadcastInDim Cert.ReferenceIdeal.S100000x128 ![] Cert.ReferenceIdeal.Gen.bcast_S_S100000x128
                (constant (F := Ideal) Cert.ReferenceIdeal.S_ .f32 0x00000000#32))
              y))) i
      = Cert.Spec.elu (y i) := by
  show Scalar.select (FloatOps.cmpf (F := Ideal) (φ := .f32) .ogt (y i) (Ideal.ofBits .f32 0x00000000#32)) (y i)
      (Ideal.ofBits .f32 0x3F800000#32
        * FloatOps.hostUnary (F := Ideal) (φ := .f32) .expm1
            (Scalar.select (FloatOps.cmpf (F := Ideal) (φ := .f32) .ogt (y i) (Ideal.ofBits .f32 0x00000000#32))
              (Ideal.ofBits .f32 0x00000000#32) (y i)))
    = Scalar.select (FloatOps.cmpf (F := Ideal) (φ := .f32) .ogt (y i) (Ideal.ofBits .f32 0x00000000#32)) (y i)
        (Ideal.exp (y i) - Ideal.ofBits .f32 0x3F800000#32)
  by_cases h : FloatOps.cmpf (F := Ideal) (φ := .f32) .ogt (y i) (Ideal.ofBits .f32 0x00000000#32) = 1#1
  · rw [h, select_one, select_one]
  · rw [eq_zero_of_ne_one h, select_zero, select_zero, select_zero, Ideal.hostUnary_expm1_def, ofBits_one_f32, one_mul]

/-- The bias row added to every row and the exponential linear unit on the sum, as one array. -/
private theorem biasElu_stage (t : FVec Ideal Cert.ReferenceIdeal.S100000x128 .f32) (b : FVec Ideal Cert.ReferenceIdeal.S128 .f32) :
    select
        (cmpf .ogt
          (addf t (broadcastInDim Cert.ReferenceIdeal.S100000x128 ![0, 1] Cert.ReferenceIdeal.Gen.bcast_S1x128_S100000x128_0_1
            (broadcastInDim Cert.ReferenceIdeal.S1x128 ![1] Cert.ReferenceIdeal.Gen.bcast_S128_S1x128_1 b)))
          (broadcastInDim Cert.ReferenceIdeal.S100000x128 ![] Cert.ReferenceIdeal.Gen.bcast_S_S100000x128
            (constant (F := Ideal) Cert.ReferenceIdeal.S_ .f32 0x00000000#32)))
        (addf t (broadcastInDim Cert.ReferenceIdeal.S100000x128 ![0, 1] Cert.ReferenceIdeal.Gen.bcast_S1x128_S100000x128_0_1
          (broadcastInDim Cert.ReferenceIdeal.S1x128 ![1] Cert.ReferenceIdeal.Gen.bcast_S128_S1x128_1 b)))
        (mulf
          (broadcastInDim Cert.ReferenceIdeal.S100000x128 ![] Cert.ReferenceIdeal.Gen.bcast_S_S100000x128
            (constant (F := Ideal) Cert.ReferenceIdeal.S_ .f32 0x3F800000#32))
          (Host.expm1
            (select
              (cmpf .ogt
                (addf t (broadcastInDim Cert.ReferenceIdeal.S100000x128 ![0, 1] Cert.ReferenceIdeal.Gen.bcast_S1x128_S100000x128_0_1
                  (broadcastInDim Cert.ReferenceIdeal.S1x128 ![1] Cert.ReferenceIdeal.Gen.bcast_S128_S1x128_1 b)))
                (broadcastInDim Cert.ReferenceIdeal.S100000x128 ![] Cert.ReferenceIdeal.Gen.bcast_S_S100000x128
                  (constant (F := Ideal) Cert.ReferenceIdeal.S_ .f32 0x00000000#32)))
              (broadcastInDim Cert.ReferenceIdeal.S100000x128 ![] Cert.ReferenceIdeal.Gen.bcast_S_S100000x128
                (constant (F := Ideal) Cert.ReferenceIdeal.S_ .f32 0x00000000#32))
              (addf t (broadcastInDim Cert.ReferenceIdeal.S100000x128 ![0, 1] Cert.ReferenceIdeal.Gen.bcast_S1x128_S100000x128_0_1
                (broadcastInDim Cert.ReferenceIdeal.S1x128 ![1] Cert.ReferenceIdeal.Gen.bcast_S128_S1x128_1 b))))))
      = Cert.Spec.biasElu t (Cert.Spec.row b) := by
  funext i
  obtain ⟨r, q, rfl⟩ : ∃ (r : Fin 100000) (q : Fin 128), i = ix2 r q := ⟨i 0, i 1, eq_ix2 i⟩
  rw [elu_entry, Cert.Spec.biasElu_apply, addf_apply, bcast_rowDown_apply, bcast_vecRow_apply, Cert.Spec.row_apply]

/-- The first projection: the host's `dot_general` of the features and the first weight matrix. -/
theorem dot0 : after (c0 (F := Ideal)) V (Proc.devRef .tc Cert.ReferenceIdeal.main_v4) = Cert.Spec.mm (V (Proc.devRef .tc Cert.ReferenceIdeal.main_arg0)) (V (Proc.devRef .tc Cert.ReferenceIdeal.main_arg3)) := by
  after_results_simp
  exact dot_eq_mm _ _

/-- Layer 1's closing stretch: bias, exponential linear unit, and the next projection. -/
theorem layer1 : after (c2 (F := Ideal)) V (Proc.devRef .tc Cert.ReferenceIdeal.main_v66)
    = Cert.Spec.mm (Cert.Spec.biasElu (V (Proc.devRef .tc Cert.ReferenceIdeal.main_v61)) (Cert.Spec.row (V (Proc.devRef .tc Cert.ReferenceIdeal.main_arg4)))) (V (Proc.devRef .tc Cert.ReferenceIdeal.main_arg5)) := by
  after_results_simp
  simp only [TRef.ofBuf, TRef.toBuf, cast_eq, id]
  rw [dot_eq_mm, biasElu_stage]

theorem layer2 : after (c5 (F := Ideal)) V (Proc.devRef .tc Cert.ReferenceIdeal.main_v128)
    = Cert.Spec.mm (Cert.Spec.biasElu (V (Proc.devRef .tc Cert.ReferenceIdeal.main_v123)) (Cert.Spec.row (V (Proc.devRef .tc Cert.ReferenceIdeal.main_arg6)))) (V (Proc.devRef .tc Cert.ReferenceIdeal.main_arg7)) := by
  after_results_simp
  simp only [TRef.ofBuf, TRef.toBuf, cast_eq, id]
  rw [dot_eq_mm, biasElu_stage]

/-- The last layer's closing stretch: the bias alone. -/
theorem layer3 : after (c8 (F := Ideal)) V (Proc.devRef .tc Cert.ReferenceIdeal.main_v188)
    = Cert.Spec.bias (V (Proc.devRef .tc Cert.ReferenceIdeal.main_v185)) (Cert.Spec.row (V (Proc.devRef .tc Cert.ReferenceIdeal.main_arg8))) := by
  after_results
  funext i
  obtain ⟨r, q, rfl⟩ : ∃ (r : Fin 100000) (q : Fin 128), i = ix2 r q := ⟨i 0, i 1, eq_ix2 i⟩
  rw [addf_apply, Cert.Spec.bias_apply, bcast_rowDown_apply, bcast_vecRow_apply, Cert.Spec.row_apply]

/-- A [128] vector reshaped to [1, 128] is that vector as a row. -/
theorem shapeCast_row (b : FVec Ideal Cert.KernelIdeal.S128 .f32) :
    shapeCast Cert.KernelIdeal.S1x128 b Cert.KernelIdeal.Facts₀.shapeCasts_S128_S1x128 = Cert.Spec.row b := by
  funext i
  obtain ⟨r, q, rfl⟩ : ∃ (r : Fin 1) (q : Fin 128), i = ix2 r q := ⟨i 0, i 1, eq_ix2 i⟩
  refine (shapeCast_apply b _ (ix2 r q) (ix1 q) ?_).trans rfl
  rw [Shape.rowMajor_val_one, Shape.rowMajor_val_two]
  show q.val = r.val * 128 + q.val
  have := r.isLt
  omega

end Cert.ReferenceIdeal.Stages

end
-- ==== Proof.Lockstep.lean ====
/-
  The host chains the two programs share. Both compute, from the incidence lists (a node index and a hyperedge
  index per incidence), the inverse node degrees and inverse hyperedge sizes, and per layer the same gather /
  scale / scatter-add chain from the projected features. Here: the two inverse-degree vectors as functions of an
  index list, each program's buffers at those functions; and, for the per-layer chain, that the two programs'
  operation stretches leave EQUAL arrays whenever they start from equal inputs (the chain itself is never opened).
  All of it for any float instance.
-/
import proofs.«118884_j61538291417104_1_alg».proof.Proof.Gen.KernelIdeal.Launch
import proofs.«118884_j61538291417104_1_alg».proof.Proof.RefOps
import Idealize.ShloMosaic.Lib.StableHlo.Run

noncomputable section

namespace Cert.Lockstep

open Idealize.ShloMosaic Idealize.ShloMosaic.TcCoe Idealize.SL.Sem Idealize.ShloMosaic.StableHlo
open Cert.KernelIdeal.Gen Cert.ReferenceIdeal.Ops

variable {F : FTy → Type} [FloatOps F]

/-- One over the number of incidences of each node (zero where a node has none), from the incidences' node indices. -/
def dinvF (n : IVec Cert.KernelIdeal.S600000 32) : FVec F Cert.KernelIdeal.S100000 .f32 :=
  select
    (cmpf .ogt
      (Host.scatterAdd Cert.KernelIdeal.scatter_S100000_S600000x1_S600000_n_0_0_1
        (broadcastInDim Cert.KernelIdeal.S100000 ![] bcast_S_S100000 (constant (F := F) Cert.KernelIdeal.S_ .f32 0x00000000#32))
        (broadcastInDim Cert.KernelIdeal.S600000x1 ![0] bcast_S600000_S600000x1_0 n)
        (broadcastInDim Cert.KernelIdeal.S600000 ![] bcast_S_S600000 (constant (F := F) Cert.KernelIdeal.S_ .f32 0x3F800000#32)))
      (broadcastInDim Cert.KernelIdeal.S100000 ![] bcast_S_S100000 (constant (F := F) Cert.KernelIdeal.S_ .f32 0x00000000#32)))
    (Host.divf
      (broadcastInDim Cert.KernelIdeal.S100000 ![] bcast_S_S100000 (constant (F := F) Cert.KernelIdeal.S_ .f32 0x3F800000#32))
      (Host.scatterAdd Cert.KernelIdeal.scatter_S100000_S600000x1_S600000_n_0_0_1
        (broadcastInDim Cert.KernelIdeal.S100000 ![] bcast_S_S100000 (constant (F := F) Cert.KernelIdeal.S_ .f32 0x00000000#32))
        (broadcastInDim Cert.KernelIdeal.S600000x1 ![0] bcast_S600000_S600000x1_0 n)
        (broadcastInDim Cert.KernelIdeal.S600000 ![] bcast_S_S600000 (constant (F := F) Cert.KernelIdeal.S_ .f32 0x3F800000#32))))
    (broadcastInDim Cert.KernelIdeal.S100000 ![] bcast_S_S100000 (constant (F := F) Cert.KernelIdeal.S_ .f32 0x00000000#32))

/-- One over the size of each hyperedge (zero where it is empty), from the incidences' hyperedge indices. -/
def binvF (e : IVec Cert.KernelIdeal.S600000 32) : FVec F Cert.KernelIdeal.S50000 .f32 :=
  select
    (cmpf .ogt
      (Host.scatterAdd Cert.KernelIdeal.scatter_S50000_S600000x1_S600000_n_0_0_1
        (broadcastInDim Cert.KernelIdeal.S50000 ![] bcast_S_S50000 (constant (F := F) Cert.KernelIdeal.S_ .f32 0x00000000#32))
        (broadcastInDim Cert.KernelIdeal.S600000x1 ![0] bcast_S600000_S600000x1_0 e)
        (broadcastInDim Cert.KernelIdeal.S600000 ![] bcast_S_S600000 (constant (F := F) Cert.KernelIdeal.S_ .f32 0x3F800000#32)))
      (broadcastInDim Cert.KernelIdeal.S50000 ![] bcast_S_S50000 (constant (F := F) Cert.KernelIdeal.S_ .f32 0x00000000#32)))
    (Host.divf
      (broadcastInDim Cert.KernelIdeal.S50000 ![] bcast_S_S50000 (constant (F := F) Cert.KernelIdeal.S_ .f32 0x3F800000#32))
      (Host.scatterAdd Cert.KernelIdeal.scatter_S50000_S600000x1_S600000_n_0_0_1
        (broadcastInDim Cert.KernelIdeal.S50000 ![] bcast_S_S50000 (constant (F := F) Cert.KernelIdeal.S_ .f32 0x00000000#32))
        (broadcastInDim Cert.KernelIdeal.S600000x1 ![0] bcast_S600000_S600000x1_0 e)
        (broadcastInDim Cert.KernelIdeal.S600000 ![] bcast_S_S600000 (constant (F := F) Cert.KernelIdeal.S_ .f32 0x3F800000#32))))
    (broadcastInDim Cert.KernelIdeal.S50000 ![] bcast_S_S50000 (constant (F := F) Cert.KernelIdeal.S_ .f32 0x00000000#32))

section Kernel
variable (V : Valuation Cert.KernelIdeal.τ Cert.KernelIdeal.sig (Elt F))

theorem K_dinv : after hostOps0_1 (after hostOps0 V) (Proc.devRef .tc Cert.KernelIdeal.main_v12) = dinvF (F := F) (after hostOps0 V (Proc.devRef .tc Cert.KernelIdeal.main_v1)) := by
  unfold dinvF
  after_results_simp
  rfl

theorem K_binv : after hostOps0_3 (after hostOps0_2 (after hostOps0_1 (after hostOps0 V))) (Proc.devRef .tc Cert.KernelIdeal.main_v20) = binvF (F := F) (after hostOps0 V (Proc.devRef .tc Cert.KernelIdeal.main_v3)) := by
  unfold binvF
  after_results_simp
  rfl

/-- The bias rows the kernel's host code lays out: a reshape of the bias vector. -/
theorem K_row1 : after hostOps1 V (Proc.devRef .tc Cert.KernelIdeal.main_v62) = shapeCast Cert.KernelIdeal.S1x128 (V (Proc.devRef .tc Cert.KernelIdeal.main_arg4)) Cert.KernelIdeal.Facts₀.shapeCasts_S128_S1x128 := by
  after_results_simp
  rfl
theorem K_row2 : after hostOps3 V (Proc.devRef .tc Cert.KernelIdeal.main_v105) = shapeCast Cert.KernelIdeal.S1x128 (V (Proc.devRef .tc Cert.KernelIdeal.main_arg6)) Cert.KernelIdeal.Facts₀.shapeCasts_S128_S1x128 := by
  after_results_simp
  rfl
theorem K_row3 : after hostOps5 V (Proc.devRef .tc Cert.KernelIdeal.main_v148) = shapeCast Cert.KernelIdeal.S1x128 (V (Proc.devRef .tc Cert.KernelIdeal.main_arg8)) Cert.KernelIdeal.Facts₀.shapeCasts_S128_S1x128 := by
  after_results_simp
  rfl
end Kernel

section Reference
variable (V : Valuation Cert.ReferenceIdeal.τ Cert.ReferenceIdeal.sig (Elt F))

theorem R_dinv0 : after c0 V (Proc.devRef .tc Cert.ReferenceIdeal.main_v13) = dinvF (F := F) (after c0 V (Proc.devRef .tc Cert.ReferenceIdeal.main_v1)) := by
  unfold dinvF
  after_results_simp
  rfl
theorem R_binv0 : after c0 V (Proc.devRef .tc Cert.ReferenceIdeal.main_v21) = binvF (F := F) (after c0 V (Proc.devRef .tc Cert.ReferenceIdeal.main_v3)) := by
  unfold binvF
  after_results_simp
  rfl
theorem R_dinv1 : after c3 V (Proc.devRef .tc Cert.ReferenceIdeal.main_v75) = dinvF (F := F) (V (Proc.devRef .tc Cert.ReferenceIdeal.main_v1)) := by
  unfold dinvF
  after_results_simp
  rfl
theorem R_binv1 : after c3 V (Proc.devRef .tc Cert.ReferenceIdeal.main_v83) = binvF (F := F) (V (Proc.devRef .tc Cert.ReferenceIdeal.main_v3)) := by
  unfold binvF
  after_results_simp
  rfl
theorem R_dinv2 : after c6 V (Proc.devRef .tc Cert.ReferenceIdeal.main_v137) = dinvF (F := F) (V (Proc.devRef .tc Cert.ReferenceIdeal.main_v1)) := by
  unfold dinvF
  after_results_simp
  rfl
theorem R_binv2 : after c6 V (Proc.devRef .tc Cert.ReferenceIdeal.main_v145) = binvF (F := F) (V (Proc.devRef .tc Cert.ReferenceIdeal.main_v3)) := by
  unfold binvF
  after_results_simp
  rfl
end Reference

section Pair
variable (VK : Valuation Cert.KernelIdeal.τ Cert.KernelIdeal.sig (Elt F)) (VR : Valuation Cert.ReferenceIdeal.τ Cert.ReferenceIdeal.sig (Elt F))
variable (n e : IVec Cert.KernelIdeal.S600000 32) (di : FVec F Cert.KernelIdeal.S100000 .f32) (bi : FVec F Cert.KernelIdeal.S50000 .f32) (xw : FVec F Cert.KernelIdeal.S100000x128 .f32)

/-- The incidence lists: both programs slice and flatten the [2, 600000] argument the same way. -/
theorem idx_node (a : IVec Cert.KernelIdeal.S2x600000 32) (hK : VK (Proc.devRef .tc Cert.KernelIdeal.main_arg1) = a) (hR : VR (Proc.devRef .tc Cert.ReferenceIdeal.main_arg1) = a) :
    after hostOps0 VK (Proc.devRef .tc Cert.KernelIdeal.main_v1) = after c0 VR (Proc.devRef .tc Cert.ReferenceIdeal.main_v1) := by
  after_results_simp
  rw [hK, hR]
  rfl
theorem idx_edge (a : IVec Cert.KernelIdeal.S2x600000 32) (hK : VK (Proc.devRef .tc Cert.KernelIdeal.main_arg1) = a) (hR : VR (Proc.devRef .tc Cert.ReferenceIdeal.main_arg1) = a) :
    after hostOps0 VK (Proc.devRef .tc Cert.KernelIdeal.main_v3) = after c0 VR (Proc.devRef .tc Cert.ReferenceIdeal.main_v3) := by
  after_results_simp
  rw [hK, hR]
  rfl

-- each side is a fold of some fifty operations, and both are opened: a long rewrite, given room here
set_option maxHeartbeats 2000000 in
/-- Layer 1's gather / scale / scatter-add chain: equal inputs, equal results. -/
theorem tail1
    (hK1 : VK (Proc.devRef .tc Cert.KernelIdeal.main_v1) = n) (hR1 : VR (Proc.devRef .tc Cert.ReferenceIdeal.main_v1) = n)
    (hK3 : VK (Proc.devRef .tc Cert.KernelIdeal.main_v3) = e) (hR3 : VR (Proc.devRef .tc Cert.ReferenceIdeal.main_v3) = e)
    (hKd : VK (Proc.devRef .tc Cert.KernelIdeal.main_v12) = di) (hRd : VR (Proc.devRef .tc Cert.ReferenceIdeal.main_v13) = di)
    (hKb : VK (Proc.devRef .tc Cert.KernelIdeal.main_v20) = bi) (hRb : VR (Proc.devRef .tc Cert.ReferenceIdeal.main_v21) = bi)
    (hKx : VK (Proc.devRef .tc Cert.KernelIdeal.main_v21) = xw) (hRx : VR (Proc.devRef .tc Cert.ReferenceIdeal.main_v4) = xw) :
    after hostOps1 VK (Proc.devRef .tc Cert.KernelIdeal.main_v61) = after c1 VR (Proc.devRef .tc Cert.ReferenceIdeal.main_v61) := by
  after_results_simp
  simp only [hK1, hR1, hK3, hR3, hKd, hRd, hKb, hRb, hKx, hRx]
  rfl

-- each side is a fold of some fifty operations, and both are opened: a long rewrite, given room here
set_option maxHeartbeats 2000000 in
theorem tail2
    (hK1 : VK (Proc.devRef .tc Cert.KernelIdeal.main_v1) = n) (hR1 : VR (Proc.devRef .tc Cert.ReferenceIdeal.main_v1) = n)
    (hK3 : VK (Proc.devRef .tc Cert.KernelIdeal.main_v3) = e) (hR3 : VR (Proc.devRef .tc Cert.ReferenceIdeal.main_v3) = e)
    (hKd : VK (Proc.devRef .tc Cert.KernelIdeal.main_v12) = di) (hRd : VR (Proc.devRef .tc Cert.ReferenceIdeal.main_v75) = di)
    (hKb : VK (Proc.devRef .tc Cert.KernelIdeal.main_v20) = bi) (hRb : VR (Proc.devRef .tc Cert.ReferenceIdeal.main_v83) = bi)
    (hKx : VK (Proc.devRef .tc Cert.KernelIdeal.main_v64) = xw) (hRx : VR (Proc.devRef .tc Cert.ReferenceIdeal.main_v66) = xw) :
    after hostOps3 VK (Proc.devRef .tc Cert.KernelIdeal.main_v104) = after c4 VR (Proc.devRef .tc Cert.ReferenceIdeal.main_v123) := by
  after_results_simp
  simp only [hK1, hR1, hK3, hR3, hKd, hRd, hKb, hRb, hKx, hRx]
  rfl

-- each side is a fold of some fifty operations, and both are opened: a long rewrite, given room here
set_option maxHeartbeats 2000000 in
theorem tail3
    (hK1 : VK (Proc.devRef .tc Cert.KernelIdeal.main_v1) = n) (hR1 : VR (Proc.devRef .tc Cert.ReferenceIdeal.main_v1) = n)
    (hK3 : VK (Proc.devRef .tc Cert.KernelIdeal.main_v3) = e) (hR3 : VR (Proc.devRef .tc Cert.ReferenceIdeal.main_v3) = e)
    (hKd : VK (Proc.devRef .tc Cert.KernelIdeal.main_v12) = di) (hRd : VR (Proc.devRef .tc Cert.ReferenceIdeal.main_v137) = di)
    (hKb : VK (Proc.devRef .tc Cert.KernelIdeal.main_v20) = bi) (hRb : VR (Proc.devRef .tc Cert.ReferenceIdeal.main_v145) = bi)
    (hKx : VK (Proc.devRef .tc Cert.KernelIdeal.main_v107) = xw) (hRx : VR (Proc.devRef .tc Cert.ReferenceIdeal.main_v128) = xw) :
    after hostOps5 VK (Proc.devRef .tc Cert.KernelIdeal.main_v147) = after c7 VR (Proc.devRef .tc Cert.ReferenceIdeal.main_v185) := by
  after_results_simp
  simp only [hK1, hR1, hK3, hR3, hKd, hRd, hKb, hRb, hKx, hRx]
  rfl
end Pair

end Cert.Lockstep

end
-- ==== Proof.Walk.lean ====
/-
  Which buffers the host stretches and the regions leave alone. The incidence lists and the two inverse-degree vectors
  are computed once, before the first region of the kernel's program, and read again by every layer; the weights and
  biases are arguments no operation writes. So each is, where a later stretch reads it, what it was when it was
  computed (for an argument: what the launch memory held). The same on the reference's side for the buffers its
  later stretches read back.
-/
import proofs.«118884_j61538291417104_1_alg».proof.Proof.Gen.KernelIdeal.Frame
import proofs.«118884_j61538291417104_1_alg».proof.Proof.RefRun

set_option maxRecDepth 16384

noncomputable section

/-- Across a line of host operations, a buffer that is the result of none of them keeps its contents. Every
    operation of the named line writes exactly one buffer, its result; so it is enough that the buffer differs, as
    a reference, from each result in turn, and two literal references are told apart by computation. -/
local macro "kept_across " ops:ident : term =>
  `(Idealize.ShloMosaic.StableHlo.after_of_forall_not_mem _ _ (List.forall_iff_forall_mem.mp (by
      simp only [$ops:ident, List.Forall, Idealize.ShloMosaic.StableHlo.nullary_writes,
        Idealize.ShloMosaic.StableHlo.unary_writes, Idealize.ShloMosaic.StableHlo.binary_writes,
        Idealize.ShloMosaic.StableHlo.ternary_writes, Idealize.ShloMosaic.StableHlo.quaternary_writes,
        Idealize.ShloMosaic.StableHlo.reshape_writes, Idealize.ShloMosaic.StableHlo.binaryIndexed_writes,
        Finset.mem_singleton]
      repeat' apply And.intro
      all_goals exact Idealize.ShloMosaic.StableHlo.devRef_ne_of_ne (by decide))))

namespace Cert.KernelIdeal.Walk

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-! ### The arguments up to region 0's entry: none of the four opening stretches writes an argument, so there each
    still holds what the launch memory held -/

private theorem arg4_at4 : W4 m ρ c (Proc.devRef .tc main_arg4) = m ((c : Thread nD τ).loc main_arg4) := by
  calc W4 m ρ c (Proc.devRef .tc main_arg4)
    _ = W3 m ρ c (Proc.devRef .tc main_arg4) := kept_across hostOps0_3
    _ = W2 m ρ c (Proc.devRef .tc main_arg4) := kept_across hostOps0_2
    _ = W1 m ρ c (Proc.devRef .tc main_arg4) := kept_across hostOps0_1
    _ = W0 m ρ c (Proc.devRef .tc main_arg4) := kept_across hostOps0
    _ = m ((c : Thread nD τ).loc main_arg4) := rfl
private theorem arg5_at4 : W4 m ρ c (Proc.devRef .tc main_arg5) = m ((c : Thread nD τ).loc main_arg5) := by
  calc W4 m ρ c (Proc.devRef .tc main_arg5)
    _ = W3 m ρ c (Proc.devRef .tc main_arg5) := kept_across hostOps0_3
    _ = W2 m ρ c (Proc.devRef .tc main_arg5) := kept_across hostOps0_2
    _ = W1 m ρ c (Proc.devRef .tc main_arg5) := kept_across hostOps0_1
    _ = W0 m ρ c (Proc.devRef .tc main_arg5) := kept_across hostOps0
    _ = m ((c : Thread nD τ).loc main_arg5) := rfl
private theorem arg6_at4 : W4 m ρ c (Proc.devRef .tc main_arg6) = m ((c : Thread nD τ).loc main_arg6) := by
  calc W4 m ρ c (Proc.devRef .tc main_arg6)
    _ = W3 m ρ c (Proc.devRef .tc main_arg6) := kept_across hostOps0_3
    _ = W2 m ρ c (Proc.devRef .tc main_arg6) := kept_across hostOps0_2
    _ = W1 m ρ c (Proc.devRef .tc main_arg6) := kept_across hostOps0_1
    _ = W0 m ρ c (Proc.devRef .tc main_arg6) := kept_across hostOps0
    _ = m ((c : Thread nD τ).loc main_arg6) := rfl
private theorem arg7_at4 : W4 m ρ c (Proc.devRef .tc main_arg7) = m ((c : Thread nD τ).loc main_arg7) := by
  calc W4 m ρ c (Proc.devRef .tc main_arg7)
    _ = W3 m ρ c (Proc.devRef .tc main_arg7) := kept_across hostOps0_3
    _ = W2 m ρ c (Proc.devRef .tc main_arg7) := kept_across hostOps0_2
    _ = W1 m ρ c (Proc.devRef .tc main_arg7) := kept_across hostOps0_1
    _ = W0 m ρ c (Proc.devRef .tc main_arg7) := kept_across hostOps0
    _ = m ((c : Thread nD τ).loc main_arg7) := rfl
private theorem arg8_at4 : W4 m ρ c (Proc.devRef .tc main_arg8) = m ((c : Thread nD τ).loc main_arg8) := by
  calc W4 m ρ c (Proc.devRef .tc main_arg8)
    _ = W3 m ρ c (Proc.devRef .tc main_arg8) := kept_across hostOps0_3
    _ = W2 m ρ c (Proc.devRef .tc main_arg8) := kept_across hostOps0_2
    _ = W1 m ρ c (Proc.devRef .tc main_arg8) := kept_across hostOps0_1
    _ = W0 m ρ c (Proc.devRef .tc main_arg8) := kept_across hostOps0
    _ = m ((c : Thread nD τ).loc main_arg8) := rfl

/-! ### The later arguments up to region 2's entry: region 0 and region 1 have other arrays, and the stretch between
    them writes no argument -/

private theorem arg6_at7 : W7 m ρ c (Proc.devRef .tc main_arg6) = m ((c : Thread nD τ).loc main_arg6) := by
  calc W7 m ρ c (Proc.devRef .tc main_arg6)
    _ = W6 m ρ c (Proc.devRef .tc main_arg6) := W7_of_ne m ρ c main_arg6 (by decide)
    _ = W5 m ρ c (Proc.devRef .tc main_arg6) := kept_across hostOps1
    _ = W4 m ρ c (Proc.devRef .tc main_arg6) := W5_of_ne m ρ c main_arg6 (by decide)
    _ = m ((c : Thread nD τ).loc main_arg6) := arg6_at4 m ρ c
private theorem arg7_at7 : W7 m ρ c (Proc.devRef .tc main_arg7) = m ((c : Thread nD τ).loc main_arg7) := by
  calc W7 m ρ c (Proc.devRef .tc main_arg7)
    _ = W6 m ρ c (Proc.devRef .tc main_arg7) := W7_of_ne m ρ c main_arg7 (by decide)
    _ = W5 m ρ c (Proc.devRef .tc main_arg7) := kept_across hostOps1
    _ = W4 m ρ c (Proc.devRef .tc main_arg7) := W5_of_ne m ρ c main_arg7 (by decide)
    _ = m ((c : Thread nD τ).loc main_arg7) := arg7_at4 m ρ c
private theorem arg8_at7 : W7 m ρ c (Proc.devRef .tc main_arg8) = m ((c : Thread nD τ).loc main_arg8) := by
  calc W7 m ρ c (Proc.devRef .tc main_arg8)
    _ = W6 m ρ c (Proc.devRef .tc main_arg8) := W7_of_ne m ρ c main_arg8 (by decide)
    _ = W5 m ρ c (Proc.devRef .tc main_arg8) := kept_across hostOps1
    _ = W4 m ρ c (Proc.devRef .tc main_arg8) := W5_of_ne m ρ c main_arg8 (by decide)
    _ = m ((c : Thread nD τ).loc main_arg8) := arg8_at4 m ρ c

/-! ### The last bias up to region 4's entry -/

private theorem arg8_at10 : W10 m ρ c (Proc.devRef .tc main_arg8) = m ((c : Thread nD τ).loc main_arg8) := by
  calc W10 m ρ c (Proc.devRef .tc main_arg8)
    _ = W9 m ρ c (Proc.devRef .tc main_arg8) := W10_of_ne m ρ c main_arg8 (by decide)
    _ = W8 m ρ c (Proc.devRef .tc main_arg8) := kept_across hostOps3
    _ = W7 m ρ c (Proc.devRef .tc main_arg8) := W8_of_ne m ρ c main_arg8 (by decide)
    _ = m ((c : Thread nD τ).loc main_arg8) := arg8_at7 m ρ c

/-! ### The index lists: results of the first stretch, read again after regions 0, 2 and 4 -/

theorem v1_at5 : W5 m ρ c (Proc.devRef .tc Cert.KernelIdeal.main_v1) = W1 m ρ c (Proc.devRef .tc Cert.KernelIdeal.main_v1) := by
  calc W5 m ρ c (Proc.devRef .tc main_v1)
    _ = W4 m ρ c (Proc.devRef .tc main_v1) := W5_of_ne m ρ c main_v1 (by decide)
    _ = W3 m ρ c (Proc.devRef .tc main_v1) := kept_across hostOps0_3
    _ = W2 m ρ c (Proc.devRef .tc main_v1) := kept_across hostOps0_2
    _ = W1 m ρ c (Proc.devRef .tc main_v1) := kept_across hostOps0_1
theorem v1_at8 : W8 m ρ c (Proc.devRef .tc Cert.KernelIdeal.main_v1) = W1 m ρ c (Proc.devRef .tc Cert.KernelIdeal.main_v1) := by
  calc W8 m ρ c (Proc.devRef .tc main_v1)
    _ = W7 m ρ c (Proc.devRef .tc main_v1) := W8_of_ne m ρ c main_v1 (by decide)
    _ = W6 m ρ c (Proc.devRef .tc main_v1) := W7_of_ne m ρ c main_v1 (by decide)
    _ = W5 m ρ c (Proc.devRef .tc main_v1) := kept_across hostOps1
    _ = W1 m ρ c (Proc.devRef .tc main_v1) := v1_at5 m ρ c
theorem v1_at11 : W11 m ρ c (Proc.devRef .tc Cert.KernelIdeal.main_v1) = W1 m ρ c (Proc.devRef .tc Cert.KernelIdeal.main_v1) := by
  calc W11 m ρ c (Proc.devRef .tc main_v1)
    _ = W10 m ρ c (Proc.devRef .tc main_v1) := W11_of_ne m ρ c main_v1 (by decide)
    _ = W9 m ρ c (Proc.devRef .tc main_v1) := W10_of_ne m ρ c main_v1 (by decide)
    _ = W8 m ρ c (Proc.devRef .tc main_v1) := kept_across hostOps3
    _ = W1 m ρ c (Proc.devRef .tc main_v1) := v1_at8 m ρ c
theorem v3_at5 : W5 m ρ c (Proc.devRef .tc Cert.KernelIdeal.main_v3) = W1 m ρ c (Proc.devRef .tc Cert.KernelIdeal.main_v3) := by
  calc W5 m ρ c (Proc.devRef .tc main_v3)
    _ = W4 m ρ c (Proc.devRef .tc main_v3) := W5_of_ne m ρ c main_v3 (by decide)
    _ = W3 m ρ c (Proc.devRef .tc main_v3) := kept_across hostOps0_3
    _ = W2 m ρ c (Proc.devRef .tc main_v3) := kept_across hostOps0_2
    _ = W1 m ρ c (Proc.devRef .tc main_v3) := kept_across hostOps0_1
theorem v3_at8 : W8 m ρ c (Proc.devRef .tc Cert.KernelIdeal.main_v3) = W1 m ρ c (Proc.devRef .tc Cert.KernelIdeal.main_v3) := by
  calc W8 m ρ c (Proc.devRef .tc main_v3)
    _ = W7 m ρ c (Proc.devRef .tc main_v3) := W8_of_ne m ρ c main_v3 (by decide)
    _ = W6 m ρ c (Proc.devRef .tc main_v3) := W7_of_ne m ρ c main_v3 (by decide)
    _ = W5 m ρ c (Proc.devRef .tc main_v3) := kept_across hostOps1
    _ = W1 m ρ c (Proc.devRef .tc main_v3) := v3_at5 m ρ c
theorem v3_at11 : W11 m ρ c (Proc.devRef .tc Cert.KernelIdeal.main_v3) = W1 m ρ c (Proc.devRef .tc Cert.KernelIdeal.main_v3) := by
  calc W11 m ρ c (Proc.devRef .tc main_v3)
    _ = W10 m ρ c (Proc.devRef .tc main_v3) := W11_of_ne m ρ c main_v3 (by decide)
    _ = W9 m ρ c (Proc.devRef .tc main_v3) := W10_of_ne m ρ c main_v3 (by decide)
    _ = W8 m ρ c (Proc.devRef .tc main_v3) := kept_across hostOps3
    _ = W1 m ρ c (Proc.devRef .tc main_v3) := v3_at8 m ρ c

/-! ### The two inverse-degree vectors: results of the second and of the fourth stretch -/

theorem v12_at5 : W5 m ρ c (Proc.devRef .tc Cert.KernelIdeal.main_v12) = W2 m ρ c (Proc.devRef .tc Cert.KernelIdeal.main_v12) := by
  calc W5 m ρ c (Proc.devRef .tc main_v12)
    _ = W4 m ρ c (Proc.devRef .tc main_v12) := W5_of_ne m ρ c main_v12 (by decide)
    _ = W3 m ρ c (Proc.devRef .tc main_v12) := kept_across hostOps0_3
    _ = W2 m ρ c (Proc.devRef .tc main_v12) := kept_across hostOps0_2
theorem v12_at8 : W8 m ρ c (Proc.devRef .tc Cert.KernelIdeal.main_v12) = W2 m ρ c (Proc.devRef .tc Cert.KernelIdeal.main_v12) := by
  calc W8 m ρ c (Proc.devRef .tc main_v12)
    _ = W7 m ρ c (Proc.devRef .tc main_v12) := W8_of_ne m ρ c main_v12 (by decide)
    _ = W6 m ρ c (Proc.devRef .tc main_v12) := W7_of_ne m ρ c main_v12 (by decide)
    _ = W5 m ρ c (Proc.devRef .tc main_v12) := kept_across hostOps1
    _ = W2 m ρ c (Proc.devRef .tc main_v12) := v12_at5 m ρ c
theorem v12_at11 : W11 m ρ c (Proc.devRef .tc Cert.KernelIdeal.main_v12) = W2 m ρ c (Proc.devRef .tc Cert.KernelIdeal.main_v12) := by
  calc W11 m ρ c (Proc.devRef .tc main_v12)
    _ = W10 m ρ c (Proc.devRef .tc main_v12) := W11_of_ne m ρ c main_v12 (by decide)
    _ = W9 m ρ c (Proc.devRef .tc main_v12) := W10_of_ne m ρ c main_v12 (by decide)
    _ = W8 m ρ c (Proc.devRef .tc main_v12) := kept_across hostOps3
    _ = W2 m ρ c (Proc.devRef .tc main_v12) := v12_at8 m ρ c
theorem v20_at5 : W5 m ρ c (Proc.devRef .tc Cert.KernelIdeal.main_v20) = W4 m ρ c (Proc.devRef .tc Cert.KernelIdeal.main_v20) :=
  W5_of_ne m ρ c main_v20 (by decide)
theorem v20_at8 : W8 m ρ c (Proc.devRef .tc Cert.KernelIdeal.main_v20) = W4 m ρ c (Proc.devRef .tc Cert.KernelIdeal.main_v20) := by
  calc W8 m ρ c (Proc.devRef .tc main_v20)
    _ = W7 m ρ c (Proc.devRef .tc main_v20) := W8_of_ne m ρ c main_v20 (by decide)
    _ = W6 m ρ c (Proc.devRef .tc main_v20) := W7_of_ne m ρ c main_v20 (by decide)
    _ = W5 m ρ c (Proc.devRef .tc main_v20) := kept_across hostOps1
    _ = W4 m ρ c (Proc.devRef .tc main_v20) := v20_at5 m ρ c
theorem v20_at11 : W11 m ρ c (Proc.devRef .tc Cert.KernelIdeal.main_v20) = W4 m ρ c (Proc.devRef .tc Cert.KernelIdeal.main_v20) := by
  calc W11 m ρ c (Proc.devRef .tc main_v20)
    _ = W10 m ρ c (Proc.devRef .tc main_v20) := W11_of_ne m ρ c main_v20 (by decide)
    _ = W9 m ρ c (Proc.devRef .tc main_v20) := W10_of_ne m ρ c main_v20 (by decide)
    _ = W8 m ρ c (Proc.devRef .tc main_v20) := kept_across hostOps3
    _ = W4 m ρ c (Proc.devRef .tc main_v20) := v20_at8 m ρ c

/-! ### The arguments, each up to the boundary where it is read -/

theorem arg0_at4 : W4 m ρ c (Proc.devRef .tc Cert.KernelIdeal.main_arg0) = m ((c : Thread nD τ).loc Cert.KernelIdeal.main_arg0) := by
  calc W4 m ρ c (Proc.devRef .tc main_arg0)
    _ = W3 m ρ c (Proc.devRef .tc main_arg0) := kept_across hostOps0_3
    _ = W2 m ρ c (Proc.devRef .tc main_arg0) := kept_across hostOps0_2
    _ = W1 m ρ c (Proc.devRef .tc main_arg0) := kept_across hostOps0_1
    _ = W0 m ρ c (Proc.devRef .tc main_arg0) := kept_across hostOps0
    _ = m ((c : Thread nD τ).loc main_arg0) := rfl
theorem arg3_at4 : W4 m ρ c (Proc.devRef .tc Cert.KernelIdeal.main_arg3) = m ((c : Thread nD τ).loc Cert.KernelIdeal.main_arg3) := by
  calc W4 m ρ c (Proc.devRef .tc main_arg3)
    _ = W3 m ρ c (Proc.devRef .tc main_arg3) := kept_across hostOps0_3
    _ = W2 m ρ c (Proc.devRef .tc main_arg3) := kept_across hostOps0_2
    _ = W1 m ρ c (Proc.devRef .tc main_arg3) := kept_across hostOps0_1
    _ = W0 m ρ c (Proc.devRef .tc main_arg3) := kept_across hostOps0
    _ = m ((c : Thread nD τ).loc main_arg3) := rfl
theorem arg4_at5 : W5 m ρ c (Proc.devRef .tc Cert.KernelIdeal.main_arg4) = m ((c : Thread nD τ).loc Cert.KernelIdeal.main_arg4) :=
  (W5_of_ne m ρ c main_arg4 (by decide)).trans (arg4_at4 m ρ c)
theorem arg5_at7 : W7 m ρ c (Proc.devRef .tc Cert.KernelIdeal.main_arg5) = m ((c : Thread nD τ).loc Cert.KernelIdeal.main_arg5) := by
  calc W7 m ρ c (Proc.devRef .tc main_arg5)
    _ = W6 m ρ c (Proc.devRef .tc main_arg5) := W7_of_ne m ρ c main_arg5 (by decide)
    _ = W5 m ρ c (Proc.devRef .tc main_arg5) := kept_across hostOps1
    _ = W4 m ρ c (Proc.devRef .tc main_arg5) := W5_of_ne m ρ c main_arg5 (by decide)
    _ = m ((c : Thread nD τ).loc main_arg5) := arg5_at4 m ρ c
theorem arg6_at8 : W8 m ρ c (Proc.devRef .tc Cert.KernelIdeal.main_arg6) = m ((c : Thread nD τ).loc Cert.KernelIdeal.main_arg6) :=
  (W8_of_ne m ρ c main_arg6 (by decide)).trans (arg6_at7 m ρ c)
theorem arg7_at10 : W10 m ρ c (Proc.devRef .tc Cert.KernelIdeal.main_arg7) = m ((c : Thread nD τ).loc Cert.KernelIdeal.main_arg7) := by
  calc W10 m ρ c (Proc.devRef .tc main_arg7)
    _ = W9 m ρ c (Proc.devRef .tc main_arg7) := W10_of_ne m ρ c main_arg7 (by decide)
    _ = W8 m ρ c (Proc.devRef .tc main_arg7) := kept_across hostOps3
    _ = W7 m ρ c (Proc.devRef .tc main_arg7) := W8_of_ne m ρ c main_arg7 (by decide)
    _ = m ((c : Thread nD τ).loc main_arg7) := arg7_at7 m ρ c
theorem arg8_at11 : W11 m ρ c (Proc.devRef .tc Cert.KernelIdeal.main_arg8) = m ((c : Thread nD τ).loc Cert.KernelIdeal.main_arg8) :=
  (W11_of_ne m ρ c main_arg8 (by decide)).trans (arg8_at10 m ρ c)

end Cert.KernelIdeal.Walk

namespace Cert.ReferenceIdeal.Walk

open Cert.ReferenceIdeal Cert.ReferenceIdeal.Gen Cert.ReferenceIdeal.Ops Idealize.ShloMosaic Idealize.ShloMosaic.TcCoe Idealize.SL.Sem Idealize.ShloMosaic.StableHlo

variable {F : FTy → Type} [FloatOps F]
variable (m : (ℓ : Loc nD τ sig) → Buf (Elt F) ℓ) (c : Dev nD)

/-! ### The arguments: no operation of the reference's nine stretches has an argument as its result, so after any
    number of stretches each argument still holds what the launch memory held. Taken three stretches at a time:
    after two, after five, after eight, and at the return. -/

private theorem arg0_u2 : Run.U2 m c (Proc.devRef .tc main_arg0) = m ((c.tc : Thread nD τ).loc main_arg0) := by
  calc Run.U2 m c (Proc.devRef .tc main_arg0)
    _ = Run.U1 m c (Proc.devRef .tc main_arg0) := kept_across c1
    _ = Run.U0 m c (Proc.devRef .tc main_arg0) := kept_across c0
    _ = m ((c.tc : Thread nD τ).loc main_arg0) := rfl
private theorem arg1_u2 : Run.U2 m c (Proc.devRef .tc main_arg1) = m ((c.tc : Thread nD τ).loc main_arg1) := by
  calc Run.U2 m c (Proc.devRef .tc main_arg1)
    _ = Run.U1 m c (Proc.devRef .tc main_arg1) := kept_across c1
    _ = Run.U0 m c (Proc.devRef .tc main_arg1) := kept_across c0
    _ = m ((c.tc : Thread nD τ).loc main_arg1) := rfl
private theorem arg2_u2 : Run.U2 m c (Proc.devRef .tc main_arg2) = m ((c.tc : Thread nD τ).loc main_arg2) := by
  calc Run.U2 m c (Proc.devRef .tc main_arg2)
    _ = Run.U1 m c (Proc.devRef .tc main_arg2) := kept_across c1
    _ = Run.U0 m c (Proc.devRef .tc main_arg2) := kept_across c0
    _ = m ((c.tc : Thread nD τ).loc main_arg2) := rfl
private theorem arg3_u2 : Run.U2 m c (Proc.devRef .tc main_arg3) = m ((c.tc : Thread nD τ).loc main_arg3) := by
  calc Run.U2 m c (Proc.devRef .tc main_arg3)
    _ = Run.U1 m c (Proc.devRef .tc main_arg3) := kept_across c1
    _ = Run.U0 m c (Proc.devRef .tc main_arg3) := kept_across c0
    _ = m ((c.tc : Thread nD τ).loc main_arg3) := rfl
private theorem arg4_u2 : Run.U2 m c (Proc.devRef .tc main_arg4) = m ((c.tc : Thread nD τ).loc main_arg4) := by
  calc Run.U2 m c (Proc.devRef .tc main_arg4)
    _ = Run.U1 m c (Proc.devRef .tc main_arg4) := kept_across c1
    _ = Run.U0 m c (Proc.devRef .tc main_arg4) := kept_across c0
    _ = m ((c.tc : Thread nD τ).loc main_arg4) := rfl
private theorem arg5_u2 : Run.U2 m c (Proc.devRef .tc main_arg5) = m ((c.tc : Thread nD τ).loc main_arg5) := by
  calc Run.U2 m c (Proc.devRef .tc main_arg5)
    _ = Run.U1 m c (Proc.devRef .tc main_arg5) := kept_across c1
    _ = Run.U0 m c (Proc.devRef .tc main_arg5) := kept_across c0
    _ = m ((c.tc : Thread nD τ).loc main_arg5) := rfl
private theorem arg6_u2 : Run.U2 m c (Proc.devRef .tc main_arg6) = m ((c.tc : Thread nD τ).loc main_arg6) := by
  calc Run.U2 m c (Proc.devRef .tc main_arg6)
    _ = Run.U1 m c (Proc.devRef .tc main_arg6) := kept_across c1
    _ = Run.U0 m c (Proc.devRef .tc main_arg6) := kept_across c0
    _ = m ((c.tc : Thread nD τ).loc main_arg6) := rfl
private theorem arg7_u2 : Run.U2 m c (Proc.devRef .tc main_arg7) = m ((c.tc : Thread nD τ).loc main_arg7) := by
  calc Run.U2 m c (Proc.devRef .tc main_arg7)
    _ = Run.U1 m c (Proc.devRef .tc main_arg7) := kept_across c1
    _ = Run.U0 m c (Proc.devRef .tc main_arg7) := kept_across c0
    _ = m ((c.tc : Thread nD τ).loc main_arg7) := rfl
private theorem arg8_u2 : Run.U2 m c (Proc.devRef .tc main_arg8) = m ((c.tc : Thread nD τ).loc main_arg8) := by
  calc Run.U2 m c (Proc.devRef .tc main_arg8)
    _ = Run.U1 m c (Proc.devRef .tc main_arg8) := kept_across c1
    _ = Run.U0 m c (Proc.devRef .tc main_arg8) := kept_across c0
    _ = m ((c.tc : Thread nD τ).loc main_arg8) := rfl

private theorem arg0_u5 : Run.U5 m c (Proc.devRef .tc main_arg0) = m ((c.tc : Thread nD τ).loc main_arg0) := by
  calc Run.U5 m c (Proc.devRef .tc main_arg0)
    _ = Run.U4 m c (Proc.devRef .tc main_arg0) := kept_across c4
    _ = Run.U3 m c (Proc.devRef .tc main_arg0) := kept_across c3
    _ = Run.U2 m c (Proc.devRef .tc main_arg0) := kept_across c2
    _ = m ((c.tc : Thread nD τ).loc main_arg0) := arg0_u2 m c
private theorem arg1_u5 : Run.U5 m c (Proc.devRef .tc main_arg1) = m ((c.tc : Thread nD τ).loc main_arg1) := by
  calc Run.U5 m c (Proc.devRef .tc main_arg1)
    _ = Run.U4 m c (Proc.devRef .tc main_arg1) := kept_across c4
    _ = Run.U3 m c (Proc.devRef .tc main_arg1) := kept_across c3
    _ = Run.U2 m c (Proc.devRef .tc main_arg1) := kept_across c2
    _ = m ((c.tc : Thread nD τ).loc main_arg1) := arg1_u2 m c
private theorem arg2_u5 : Run.U5 m c (Proc.devRef .tc main_arg2) = m ((c.tc : Thread nD τ).loc main_arg2) := by
  calc Run.U5 m c (Proc.devRef .tc main_arg2)
    _ = Run.U4 m c (Proc.devRef .tc main_arg2) := kept_across c4
    _ = Run.U3 m c (Proc.devRef .tc main_arg2) := kept_across c3
    _ = Run.U2 m c (Proc.devRef .tc main_arg2) := kept_across c2
    _ = m ((c.tc : Thread nD τ).loc main_arg2) := arg2_u2 m c
private theorem arg3_u5 : Run.U5 m c (Proc.devRef .tc main_arg3) = m ((c.tc : Thread nD τ).loc main_arg3) := by
  calc Run.U5 m c (Proc.devRef .tc main_arg3)
    _ = Run.U4 m c (Proc.devRef .tc main_arg3) := kept_across c4
    _ = Run.U3 m c (Proc.devRef .tc main_arg3) := kept_across c3
    _ = Run.U2 m c (Proc.devRef .tc main_arg3) := kept_across c2
    _ = m ((c.tc : Thread nD τ).loc main_arg3) := arg3_u2 m c
private theorem arg4_u5 : Run.U5 m c (Proc.devRef .tc main_arg4) = m ((c.tc : Thread nD τ).loc main_arg4) := by
  calc Run.U5 m c (Proc.devRef .tc main_arg4)
    _ = Run.U4 m c (Proc.devRef .tc main_arg4) := kept_across c4
    _ = Run.U3 m c (Proc.devRef .tc main_arg4) := kept_across c3
    _ = Run.U2 m c (Proc.devRef .tc main_arg4) := kept_across c2
    _ = m ((c.tc : Thread nD τ).loc main_arg4) := arg4_u2 m c
private theorem arg5_u5 : Run.U5 m c (Proc.devRef .tc main_arg5) = m ((c.tc : Thread nD τ).loc main_arg5) := by
  calc Run.U5 m c (Proc.devRef .tc main_arg5)
    _ = Run.U4 m c (Proc.devRef .tc main_arg5) := kept_across c4
    _ = Run.U3 m c (Proc.devRef .tc main_arg5) := kept_across c3
    _ = Run.U2 m c (Proc.devRef .tc main_arg5) := kept_across c2
    _ = m ((c.tc : Thread nD τ).loc main_arg5) := arg5_u2 m c
private theorem arg6_u5 : Run.U5 m c (Proc.devRef .tc main_arg6) = m ((c.tc : Thread nD τ).loc main_arg6) := by
  calc Run.U5 m c (Proc.devRef .tc main_arg6)
    _ = Run.U4 m c (Proc.devRef .tc main_arg6) := kept_across c4
    _ = Run.U3 m c (Proc.devRef .tc main_arg6) := kept_across c3
    _ = Run.U2 m c (Proc.devRef .tc main_arg6) := kept_across c2
    _ = m ((c.tc : Thread nD τ).loc main_arg6) := arg6_u2 m c
private theorem arg7_u5 : Run.U5 m c (Proc.devRef .tc main_arg7) = m ((c.tc : Thread nD τ).loc main_arg7) := by
  calc Run.U5 m c (Proc.devRef .tc main_arg7)
    _ = Run.U4 m c (Proc.devRef .tc main_arg7) := kept_across c4
    _ = Run.U3 m c (Proc.devRef .tc main_arg7) := kept_across c3
    _ = Run.U2 m c (Proc.devRef .tc main_arg7) := kept_across c2
    _ = m ((c.tc : Thread nD τ).loc main_arg7) := arg7_u2 m c
private theorem arg8_u5 : Run.U5 m c (Proc.devRef .tc main_arg8) = m ((c.tc : Thread nD τ).loc main_arg8) := by
  calc Run.U5 m c (Proc.devRef .tc main_arg8)
    _ = Run.U4 m c (Proc.devRef .tc main_arg8) := kept_across c4
    _ = Run.U3 m c (Proc.devRef .tc main_arg8) := kept_across c3
    _ = Run.U2 m c (Proc.devRef .tc main_arg8) := kept_across c2
    _ = m ((c.tc : Thread nD τ).loc main_arg8) := arg8_u2 m c

private theorem arg0_u8 : Run.U8 m c (Proc.devRef .tc main_arg0) = m ((c.tc : Thread nD τ).loc main_arg0) := by
  calc Run.U8 m c (Proc.devRef .tc main_arg0)
    _ = Run.U7 m c (Proc.devRef .tc main_arg0) := kept_across c7
    _ = Run.U6 m c (Proc.devRef .tc main_arg0) := kept_across c6
    _ = Run.U5 m c (Proc.devRef .tc main_arg0) := kept_across c5
    _ = m ((c.tc : Thread nD τ).loc main_arg0) := arg0_u5 m c
private theorem arg1_u8 : Run.U8 m c (Proc.devRef .tc main_arg1) = m ((c.tc : Thread nD τ).loc main_arg1) := by
  calc Run.U8 m c (Proc.devRef .tc main_arg1)
    _ = Run.U7 m c (Proc.devRef .tc main_arg1) := kept_across c7
    _ = Run.U6 m c (Proc.devRef .tc main_arg1) := kept_across c6
    _ = Run.U5 m c (Proc.devRef .tc main_arg1) := kept_across c5
    _ = m ((c.tc : Thread nD τ).loc main_arg1) := arg1_u5 m c
private theorem arg2_u8 : Run.U8 m c (Proc.devRef .tc main_arg2) = m ((c.tc : Thread nD τ).loc main_arg2) := by
  calc Run.U8 m c (Proc.devRef .tc main_arg2)
    _ = Run.U7 m c (Proc.devRef .tc main_arg2) := kept_across c7
    _ = Run.U6 m c (Proc.devRef .tc main_arg2) := kept_across c6
    _ = Run.U5 m c (Proc.devRef .tc main_arg2) := kept_across c5
    _ = m ((c.tc : Thread nD τ).loc main_arg2) := arg2_u5 m c
private theorem arg3_u8 : Run.U8 m c (Proc.devRef .tc main_arg3) = m ((c.tc : Thread nD τ).loc main_arg3) := by
  calc Run.U8 m c (Proc.devRef .tc main_arg3)
    _ = Run.U7 m c (Proc.devRef .tc main_arg3) := kept_across c7
    _ = Run.U6 m c (Proc.devRef .tc main_arg3) := kept_across c6
    _ = Run.U5 m c (Proc.devRef .tc main_arg3) := kept_across c5
    _ = m ((c.tc : Thread nD τ).loc main_arg3) := arg3_u5 m c
private theorem arg4_u8 : Run.U8 m c (Proc.devRef .tc main_arg4) = m ((c.tc : Thread nD τ).loc main_arg4) := by
  calc Run.U8 m c (Proc.devRef .tc main_arg4)
    _ = Run.U7 m c (Proc.devRef .tc main_arg4) := kept_across c7
    _ = Run.U6 m c (Proc.devRef .tc main_arg4) := kept_across c6
    _ = Run.U5 m c (Proc.devRef .tc main_arg4) := kept_across c5
    _ = m ((c.tc : Thread nD τ).loc main_arg4) := arg4_u5 m c
private theorem arg5_u8 : Run.U8 m c (Proc.devRef .tc main_arg5) = m ((c.tc : Thread nD τ).loc main_arg5) := by
  calc Run.U8 m c (Proc.devRef .tc main_arg5)
    _ = Run.U7 m c (Proc.devRef .tc main_arg5) := kept_across c7
    _ = Run.U6 m c (Proc.devRef .tc main_arg5) := kept_across c6
    _ = Run.U5 m c (Proc.devRef .tc main_arg5) := kept_across c5
    _ = m ((c.tc : Thread nD τ).loc main_arg5) := arg5_u5 m c
private theorem arg6_u8 : Run.U8 m c (Proc.devRef .tc main_arg6) = m ((c.tc : Thread nD τ).loc main_arg6) := by
  calc Run.U8 m c (Proc.devRef .tc main_arg6)
    _ = Run.U7 m c (Proc.devRef .tc main_arg6) := kept_across c7
    _ = Run.U6 m c (Proc.devRef .tc main_arg6) := kept_across c6
    _ = Run.U5 m c (Proc.devRef .tc main_arg6) := kept_across c5
    _ = m ((c.tc : Thread nD τ).loc main_arg6) := arg6_u5 m c
private theorem arg7_u8 : Run.U8 m c (Proc.devRef .tc main_arg7) = m ((c.tc : Thread nD τ).loc main_arg7) := by
  calc Run.U8 m c (Proc.devRef .tc main_arg7)
    _ = Run.U7 m c (Proc.devRef .tc main_arg7) := kept_across c7
    _ = Run.U6 m c (Proc.devRef .tc main_arg7) := kept_across c6
    _ = Run.U5 m c (Proc.devRef .tc main_arg7) := kept_across c5
    _ = m ((c.tc : Thread nD τ).loc main_arg7) := arg7_u5 m c
private theorem arg8_u8 : Run.U8 m c (Proc.devRef .tc main_arg8) = m ((c.tc : Thread nD τ).loc main_arg8) := by
  calc Run.U8 m c (Proc.devRef .tc main_arg8)
    _ = Run.U7 m c (Proc.devRef .tc main_arg8) := kept_across c7
    _ = Run.U6 m c (Proc.devRef .tc main_arg8) := kept_across c6
    _ = Run.U5 m c (Proc.devRef .tc main_arg8) := kept_across c5
    _ = m ((c.tc : Thread nD τ).loc main_arg8) := arg8_u5 m c

/-! ### The index lists: results of stretch 0, read back by the later stretches -/

theorem v1_at3 : Run.U3 m c (Proc.devRef .tc Cert.ReferenceIdeal.main_v1) = Run.U1 m c (Proc.devRef .tc Cert.ReferenceIdeal.main_v1) := by
  calc Run.U3 m c (Proc.devRef .tc main_v1)
    _ = Run.U2 m c (Proc.devRef .tc main_v1) := kept_across c2
    _ = Run.U1 m c (Proc.devRef .tc main_v1) := kept_across c1
theorem v3_at3 : Run.U3 m c (Proc.devRef .tc Cert.ReferenceIdeal.main_v3) = Run.U1 m c (Proc.devRef .tc Cert.ReferenceIdeal.main_v3) := by
  calc Run.U3 m c (Proc.devRef .tc main_v3)
    _ = Run.U2 m c (Proc.devRef .tc main_v3) := kept_across c2
    _ = Run.U1 m c (Proc.devRef .tc main_v3) := kept_across c1
theorem v1_at4 : Run.U4 m c (Proc.devRef .tc Cert.ReferenceIdeal.main_v1) = Run.U1 m c (Proc.devRef .tc Cert.ReferenceIdeal.main_v1) := by
  calc Run.U4 m c (Proc.devRef .tc main_v1)
    _ = Run.U3 m c (Proc.devRef .tc main_v1) := kept_across c3
    _ = Run.U1 m c (Proc.devRef .tc main_v1) := v1_at3 m c
theorem v3_at4 : Run.U4 m c (Proc.devRef .tc Cert.ReferenceIdeal.main_v3) = Run.U1 m c (Proc.devRef .tc Cert.ReferenceIdeal.main_v3) := by
  calc Run.U4 m c (Proc.devRef .tc main_v3)
    _ = Run.U3 m c (Proc.devRef .tc main_v3) := kept_across c3
    _ = Run.U1 m c (Proc.devRef .tc main_v3) := v3_at3 m c
theorem v1_at6 : Run.U6 m c (Proc.devRef .tc Cert.ReferenceIdeal.main_v1) = Run.U1 m c (Proc.devRef .tc Cert.ReferenceIdeal.main_v1) := by
  calc Run.U6 m c (Proc.devRef .tc main_v1)
    _ = Run.U5 m c (Proc.devRef .tc main_v1) := kept_across c5
    _ = Run.U4 m c (Proc.devRef .tc main_v1) := kept_across c4
    _ = Run.U1 m c (Proc.devRef .tc main_v1) := v1_at4 m c
theorem v3_at6 : Run.U6 m c (Proc.devRef .tc Cert.ReferenceIdeal.main_v3) = Run.U1 m c (Proc.devRef .tc Cert.ReferenceIdeal.main_v3) := by
  calc Run.U6 m c (Proc.devRef .tc main_v3)
    _ = Run.U5 m c (Proc.devRef .tc main_v3) := kept_across c5
    _ = Run.U4 m c (Proc.devRef .tc main_v3) := kept_across c4
    _ = Run.U1 m c (Proc.devRef .tc main_v3) := v3_at4 m c
theorem v1_at7 : Run.U7 m c (Proc.devRef .tc Cert.ReferenceIdeal.main_v1) = Run.U1 m c (Proc.devRef .tc Cert.ReferenceIdeal.main_v1) := by
  calc Run.U7 m c (Proc.devRef .tc main_v1)
    _ = Run.U6 m c (Proc.devRef .tc main_v1) := kept_across c6
    _ = Run.U1 m c (Proc.devRef .tc main_v1) := v1_at6 m c
theorem v3_at7 : Run.U7 m c (Proc.devRef .tc Cert.ReferenceIdeal.main_v3) = Run.U1 m c (Proc.devRef .tc Cert.ReferenceIdeal.main_v3) := by
  calc Run.U7 m c (Proc.devRef .tc main_v3)
    _ = Run.U6 m c (Proc.devRef .tc main_v3) := kept_across c6
    _ = Run.U1 m c (Proc.devRef .tc main_v3) := v3_at6 m c

/-! ### Two layer outputs, each read back across the one stretch that follows the stretch computing it -/

theorem v66_at4 : Run.U4 m c (Proc.devRef .tc Cert.ReferenceIdeal.main_v66) = Run.U3 m c (Proc.devRef .tc Cert.ReferenceIdeal.main_v66) :=
  kept_across c3
theorem v128_at7 : Run.U7 m c (Proc.devRef .tc Cert.ReferenceIdeal.main_v128) = Run.U6 m c (Proc.devRef .tc Cert.ReferenceIdeal.main_v128) :=
  kept_across c6

/-! ### The arguments where the stretches read them, and at the return -/

theorem arg4_at2 : Run.U2 m c (Proc.devRef .tc Cert.ReferenceIdeal.main_arg4) = m ((c.tc : Thread nD τ).loc Cert.ReferenceIdeal.main_arg4) :=
  arg4_u2 m c
theorem arg5_at2 : Run.U2 m c (Proc.devRef .tc Cert.ReferenceIdeal.main_arg5) = m ((c.tc : Thread nD τ).loc Cert.ReferenceIdeal.main_arg5) :=
  arg5_u2 m c
theorem arg6_at5 : Run.U5 m c (Proc.devRef .tc Cert.ReferenceIdeal.main_arg6) = m ((c.tc : Thread nD τ).loc Cert.ReferenceIdeal.main_arg6) :=
  arg6_u5 m c
theorem arg7_at5 : Run.U5 m c (Proc.devRef .tc Cert.ReferenceIdeal.main_arg7) = m ((c.tc : Thread nD τ).loc Cert.ReferenceIdeal.main_arg7) :=
  arg7_u5 m c
theorem arg8_at8 : Run.U8 m c (Proc.devRef .tc Cert.ReferenceIdeal.main_arg8) = m ((c.tc : Thread nD τ).loc Cert.ReferenceIdeal.main_arg8) :=
  arg8_u8 m c
theorem arg0_kept : Run.U9 m c (Proc.devRef .tc Cert.ReferenceIdeal.main_arg0) = m ((c.tc : Thread nD τ).loc Cert.ReferenceIdeal.main_arg0) :=
  (kept_across c8 : Run.U9 m c (Proc.devRef .tc main_arg0) = Run.U8 m c (Proc.devRef .tc main_arg0)).trans (arg0_u8 m c)
theorem arg1_kept : Run.U9 m c (Proc.devRef .tc Cert.ReferenceIdeal.main_arg1) = m ((c.tc : Thread nD τ).loc Cert.ReferenceIdeal.main_arg1) :=
  (kept_across c8 : Run.U9 m c (Proc.devRef .tc main_arg1) = Run.U8 m c (Proc.devRef .tc main_arg1)).trans (arg1_u8 m c)
theorem arg2_kept : Run.U9 m c (Proc.devRef .tc Cert.ReferenceIdeal.main_arg2) = m ((c.tc : Thread nD τ).loc Cert.ReferenceIdeal.main_arg2) :=
  (kept_across c8 : Run.U9 m c (Proc.devRef .tc main_arg2) = Run.U8 m c (Proc.devRef .tc main_arg2)).trans (arg2_u8 m c)
theorem arg3_kept : Run.U9 m c (Proc.devRef .tc Cert.ReferenceIdeal.main_arg3) = m ((c.tc : Thread nD τ).loc Cert.ReferenceIdeal.main_arg3) :=
  (kept_across c8 : Run.U9 m c (Proc.devRef .tc main_arg3) = Run.U8 m c (Proc.devRef .tc main_arg3)).trans (arg3_u8 m c)
theorem arg4_kept : Run.U9 m c (Proc.devRef .tc Cert.ReferenceIdeal.main_arg4) = m ((c.tc : Thread nD τ).loc Cert.ReferenceIdeal.main_arg4) :=
  (kept_across c8 : Run.U9 m c (Proc.devRef .tc main_arg4) = Run.U8 m c (Proc.devRef .tc main_arg4)).trans (arg4_u8 m c)
theorem arg5_kept : Run.U9 m c (Proc.devRef .tc Cert.ReferenceIdeal.main_arg5) = m ((c.tc : Thread nD τ).loc Cert.ReferenceIdeal.main_arg5) :=
  (kept_across c8 : Run.U9 m c (Proc.devRef .tc main_arg5) = Run.U8 m c (Proc.devRef .tc main_arg5)).trans (arg5_u8 m c)
theorem arg6_kept : Run.U9 m c (Proc.devRef .tc Cert.ReferenceIdeal.main_arg6) = m ((c.tc : Thread nD τ).loc Cert.ReferenceIdeal.main_arg6) :=
  (kept_across c8 : Run.U9 m c (Proc.devRef .tc main_arg6) = Run.U8 m c (Proc.devRef .tc main_arg6)).trans (arg6_u8 m c)
theorem arg7_kept : Run.U9 m c (Proc.devRef .tc Cert.ReferenceIdeal.main_arg7) = m ((c.tc : Thread nD τ).loc Cert.ReferenceIdeal.main_arg7) :=
  (kept_across c8 : Run.U9 m c (Proc.devRef .tc main_arg7) = Run.U8 m c (Proc.devRef .tc main_arg7)).trans (arg7_u8 m c)
theorem arg8_kept : Run.U9 m c (Proc.devRef .tc Cert.ReferenceIdeal.main_arg8) = m ((c.tc : Thread nD τ).loc Cert.ReferenceIdeal.main_arg8) :=
  (kept_across c8 : Run.U9 m c (Proc.devRef .tc main_arg8) = Run.U8 m c (Proc.devRef .tc main_arg8)).trans (arg8_u8 m c)

end Cert.ReferenceIdeal.Walk

end
-- ==== Proof.Assembly.lean ====
/-
  The two runs meet. The kernel's program is read at its thirteen segment boundaries (the generated frame's folds
  `W0 … W13`), the reference at its nine stretches (`U0 … U9`). Layer by layer: the index lists agree; the inverse
  degrees are one function of them; each projection is `Spec.mm` on both sides (a region of twenty row blocks against
  one host product); the gather / scatter-add chain is the same operations from equal inputs; bias and activation are
  `Spec.biasElu` on both sides (a region against the host's spelling); the last layer's bias is `Spec.bias`. So the
  kernel's result array and the reference's are equal.
-/
import proofs.«118884_j61538291417104_1_alg».proof.Defs
import proofs.«118884_j61538291417104_1_alg».proof.Proof.KRun
import proofs.«118884_j61538291417104_1_alg».proof.Proof.KRegionMM
import proofs.«118884_j61538291417104_1_alg».proof.Proof.KRegionBE
import proofs.«118884_j61538291417104_1_alg».proof.Proof.RefRun
import proofs.«118884_j61538291417104_1_alg».proof.Proof.RefStages
import proofs.«118884_j61538291417104_1_alg».proof.Proof.Lockstep
import proofs.«118884_j61538291417104_1_alg».proof.Proof.Walk

set_option maxRecDepth 16384

noncomputable section

namespace Cert.Assembly

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)
variable (c : Dev Cert.KernelIdeal.nD)

/-- The two launch memories agree on the nine arguments (on core `c`). -/
structure Agree : Prop where
  a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)

/-! ## The incidence lists and the inverse degrees -/

/-- The node index of every incidence, as the kernel's program computes it. -/
abbrev nodes : IVec Cert.KernelIdeal.S600000 32 := Cert.KernelIdeal.Gen.W1 m ρ c (Proc.devRef .tc Cert.KernelIdeal.main_v1)
/-- The hyperedge index of every incidence. -/
abbrev edges : IVec Cert.KernelIdeal.S600000 32 := Cert.KernelIdeal.Gen.W1 m ρ c (Proc.devRef .tc Cert.KernelIdeal.main_v3)

theorem ref_nodes (h : Agree m m' c) : Cert.ReferenceIdeal.Run.U1 m' c (Proc.devRef .tc Cert.ReferenceIdeal.main_v1) = nodes m ρ c :=
  (Cert.Lockstep.idx_node (Cert.KernelIdeal.Gen.W0 m ρ c) (Cert.ReferenceIdeal.Run.U0 m' c) (m ((c : Thread Cert.KernelIdeal.nD Cert.KernelIdeal.τ).loc Cert.KernelIdeal.main_arg1)) rfl h.a1).symm
theorem ref_edges (h : Agree m m' c) : Cert.ReferenceIdeal.Run.U1 m' c (Proc.devRef .tc Cert.ReferenceIdeal.main_v3) = edges m ρ c :=
  (Cert.Lockstep.idx_edge (Cert.KernelIdeal.Gen.W0 m ρ c) (Cert.ReferenceIdeal.Run.U0 m' c) (m ((c : Thread Cert.KernelIdeal.nD Cert.KernelIdeal.τ).loc Cert.KernelIdeal.main_arg1)) rfl h.a1).symm

/-- One over each node's degree. -/
abbrev dinv : FVec Ideal Cert.KernelIdeal.S100000 .f32 := Cert.Lockstep.dinvF (nodes m ρ c)
/-- One over each hyperedge's size. -/
abbrev binv : FVec Ideal Cert.KernelIdeal.S50000 .f32 := Cert.Lockstep.binvF (edges m ρ c)

theorem k_dinv : Cert.KernelIdeal.Gen.W2 m ρ c (Proc.devRef .tc Cert.KernelIdeal.main_v12) = dinv m ρ c := Cert.Lockstep.K_dinv (Cert.KernelIdeal.Gen.W0 m ρ c)
theorem k_binv : Cert.KernelIdeal.Gen.W4 m ρ c (Proc.devRef .tc Cert.KernelIdeal.main_v20) = binv m ρ c := Cert.Lockstep.K_binv (Cert.KernelIdeal.Gen.W0 m ρ c)
theorem r_dinv0 (h : Agree m m' c) : Cert.ReferenceIdeal.Run.U1 m' c (Proc.devRef .tc Cert.ReferenceIdeal.main_v13) = dinv m ρ c :=
  (Cert.Lockstep.R_dinv0 (Cert.ReferenceIdeal.Run.U0 m' c)).trans (congrArg Cert.Lockstep.dinvF (ref_nodes m ρ m' c h))
theorem r_binv0 (h : Agree m m' c) : Cert.ReferenceIdeal.Run.U1 m' c (Proc.devRef .tc Cert.ReferenceIdeal.main_v21) = binv m ρ c :=
  (Cert.Lockstep.R_binv0 (Cert.ReferenceIdeal.Run.U0 m' c)).trans (congrArg Cert.Lockstep.binvF (ref_edges m ρ m' c h))
theorem r_dinv1 (h : Agree m m' c) : Cert.ReferenceIdeal.Run.U4 m' c (Proc.devRef .tc Cert.ReferenceIdeal.main_v75) = dinv m ρ c :=
  (Cert.Lockstep.R_dinv1 (Cert.ReferenceIdeal.Run.U3 m' c)).trans (congrArg Cert.Lockstep.dinvF ((Cert.ReferenceIdeal.Walk.v1_at3 m' c).trans (ref_nodes m ρ m' c h)))
theorem r_binv1 (h : Agree m m' c) : Cert.ReferenceIdeal.Run.U4 m' c (Proc.devRef .tc Cert.ReferenceIdeal.main_v83) = binv m ρ c :=
  (Cert.Lockstep.R_binv1 (Cert.ReferenceIdeal.Run.U3 m' c)).trans (congrArg Cert.Lockstep.binvF ((Cert.ReferenceIdeal.Walk.v3_at3 m' c).trans (ref_edges m ρ m' c h)))
theorem r_dinv2 (h : Agree m m' c) : Cert.ReferenceIdeal.Run.U7 m' c (Proc.devRef .tc Cert.ReferenceIdeal.main_v137) = dinv m ρ c :=
  (Cert.Lockstep.R_dinv2 (Cert.ReferenceIdeal.Run.U6 m' c)).trans (congrArg Cert.Lockstep.dinvF ((Cert.ReferenceIdeal.Walk.v1_at6 m' c).trans (ref_nodes m ρ m' c h)))
theorem r_binv2 (h : Agree m m' c) : Cert.ReferenceIdeal.Run.U7 m' c (Proc.devRef .tc Cert.ReferenceIdeal.main_v145) = binv m ρ c :=
  (Cert.Lockstep.R_binv2 (Cert.ReferenceIdeal.Run.U6 m' c)).trans (congrArg Cert.Lockstep.binvF ((Cert.ReferenceIdeal.Walk.v3_at6 m' c).trans (ref_edges m ρ m' c h)))

/-! ## Layer 1 -/

/-- The first projection. -/
abbrev xw1 : Cert.Spec.SN.Idx → EReal := Cert.Spec.mm (m ((c : Thread Cert.KernelIdeal.nD Cert.KernelIdeal.τ).loc Cert.KernelIdeal.main_arg0)) (m ((c : Thread Cert.KernelIdeal.nD Cert.KernelIdeal.τ).loc Cert.KernelIdeal.main_arg3))

theorem k_xw1 : Cert.KernelIdeal.Gen.W5 m ρ c (Proc.devRef .tc Cert.KernelIdeal.main_v21) = xw1 m c :=
  (Cert.KernelIdeal.Gen.W5_arr m ρ c 2).trans ((Cert.KernelIdeal.RegionMM.mm0 (Cert.KernelIdeal.Gen.V4 m ρ) c).trans
    (congrArg₂ Cert.Spec.mm (Cert.KernelIdeal.Walk.arg0_at4 m ρ c) (Cert.KernelIdeal.Walk.arg3_at4 m ρ c)))
theorem r_xw1 (h : Agree m m' c) : Cert.ReferenceIdeal.Run.U1 m' c (Proc.devRef .tc Cert.ReferenceIdeal.main_v4) = xw1 m c :=
  (Cert.ReferenceIdeal.Stages.dot0 (Cert.ReferenceIdeal.Run.U0 m' c)).trans (congrArg₂ Cert.Spec.mm h.a0 h.a3)

/-- What layer 1's gather / scatter-add chain leaves. -/
abbrev t1 : Cert.Spec.SN.Idx → EReal := Cert.KernelIdeal.Gen.W6 m ρ c (Proc.devRef .tc Cert.KernelIdeal.main_v61)

theorem r_t1 (h : Agree m m' c) : Cert.ReferenceIdeal.Run.U2 m' c (Proc.devRef .tc Cert.ReferenceIdeal.main_v61) = t1 m ρ c :=
  (Cert.Lockstep.tail1 (Cert.KernelIdeal.Gen.W5 m ρ c) (Cert.ReferenceIdeal.Run.U1 m' c) (nodes m ρ c) (edges m ρ c) (dinv m ρ c) (binv m ρ c) (xw1 m c)
    (Cert.KernelIdeal.Walk.v1_at5 m ρ c) (ref_nodes m ρ m' c h) (Cert.KernelIdeal.Walk.v3_at5 m ρ c) (ref_edges m ρ m' c h)
    ((Cert.KernelIdeal.Walk.v12_at5 m ρ c).trans (k_dinv m ρ c)) (r_dinv0 m ρ m' c h)
    ((Cert.KernelIdeal.Walk.v20_at5 m ρ c).trans (k_binv m ρ c)) (r_binv0 m ρ m' c h)
    (k_xw1 m ρ c) (r_xw1 m m' c h)).symm

/-- Layer 1's activations. -/
abbrev h1 : Cert.Spec.SN.Idx → EReal := Cert.Spec.biasElu (t1 m ρ c) (Cert.Spec.row (m ((c : Thread Cert.KernelIdeal.nD Cert.KernelIdeal.τ).loc Cert.KernelIdeal.main_arg4)))

theorem k_row1 : Cert.KernelIdeal.Gen.W6 m ρ c (Proc.devRef .tc Cert.KernelIdeal.main_v62) = Cert.Spec.row (m ((c : Thread Cert.KernelIdeal.nD Cert.KernelIdeal.τ).loc Cert.KernelIdeal.main_arg4)) :=
  (Cert.Lockstep.K_row1 (Cert.KernelIdeal.Gen.W5 m ρ c)).trans ((congrArg (fun b => shapeCast Cert.KernelIdeal.S1x128 b Cert.KernelIdeal.Facts₀.shapeCasts_S128_S1x128) (Cert.KernelIdeal.Walk.arg4_at5 m ρ c)).trans
    (Cert.ReferenceIdeal.Stages.shapeCast_row _))
theorem k_h1 : Cert.KernelIdeal.Gen.W7 m ρ c (Proc.devRef .tc Cert.KernelIdeal.main_v63) = h1 m ρ c :=
  (Cert.KernelIdeal.Gen.W7_arr m ρ c 2).trans ((Cert.KernelIdeal.RegionBE.be1 (Cert.KernelIdeal.Gen.V6 m ρ) c).trans
    (congrArg (Cert.Spec.biasElu (t1 m ρ c)) (k_row1 m ρ c)))

/-- The second projection. -/
abbrev xw2 : Cert.Spec.SN.Idx → EReal := Cert.Spec.mm (h1 m ρ c) (m ((c : Thread Cert.KernelIdeal.nD Cert.KernelIdeal.τ).loc Cert.KernelIdeal.main_arg5))

theorem k_xw2 : Cert.KernelIdeal.Gen.W8 m ρ c (Proc.devRef .tc Cert.KernelIdeal.main_v64) = xw2 m ρ c :=
  (Cert.KernelIdeal.Gen.W8_arr m ρ c 2).trans ((Cert.KernelIdeal.RegionMM.mm2 (Cert.KernelIdeal.Gen.V7 m ρ) c).trans
    (congrArg₂ Cert.Spec.mm (k_h1 m ρ c) (Cert.KernelIdeal.Walk.arg5_at7 m ρ c)))
theorem r_xw2 (h : Agree m m' c) : Cert.ReferenceIdeal.Run.U4 m' c (Proc.devRef .tc Cert.ReferenceIdeal.main_v66) = xw2 m ρ c :=
  (Cert.ReferenceIdeal.Walk.v66_at4 m' c).trans ((Cert.ReferenceIdeal.Stages.layer1 (Cert.ReferenceIdeal.Run.U2 m' c)).trans
    (congrArg₂ Cert.Spec.mm (congrArg₂ Cert.Spec.biasElu (r_t1 m ρ m' c h) (congrArg Cert.Spec.row ((Cert.ReferenceIdeal.Walk.arg4_at2 m' c).trans h.a4)))
      ((Cert.ReferenceIdeal.Walk.arg5_at2 m' c).trans h.a5)))

/-! ## Layer 2 -/

abbrev t2 : Cert.Spec.SN.Idx → EReal := Cert.KernelIdeal.Gen.W9 m ρ c (Proc.devRef .tc Cert.KernelIdeal.main_v104)

theorem r_t2 (h : Agree m m' c) : Cert.ReferenceIdeal.Run.U5 m' c (Proc.devRef .tc Cert.ReferenceIdeal.main_v123) = t2 m ρ c :=
  (Cert.Lockstep.tail2 (Cert.KernelIdeal.Gen.W8 m ρ c) (Cert.ReferenceIdeal.Run.U4 m' c) (nodes m ρ c) (edges m ρ c) (dinv m ρ c) (binv m ρ c) (xw2 m ρ c)
    (Cert.KernelIdeal.Walk.v1_at8 m ρ c) ((Cert.ReferenceIdeal.Walk.v1_at4 m' c).trans (ref_nodes m ρ m' c h)) (Cert.KernelIdeal.Walk.v3_at8 m ρ c) ((Cert.ReferenceIdeal.Walk.v3_at4 m' c).trans (ref_edges m ρ m' c h))
    ((Cert.KernelIdeal.Walk.v12_at8 m ρ c).trans (k_dinv m ρ c)) (r_dinv1 m ρ m' c h)
    ((Cert.KernelIdeal.Walk.v20_at8 m ρ c).trans (k_binv m ρ c)) (r_binv1 m ρ m' c h)
    (k_xw2 m ρ c) (r_xw2 m ρ m' c h)).symm

abbrev h2 : Cert.Spec.SN.Idx → EReal := Cert.Spec.biasElu (t2 m ρ c) (Cert.Spec.row (m ((c : Thread Cert.KernelIdeal.nD Cert.KernelIdeal.τ).loc Cert.KernelIdeal.main_arg6)))

theorem k_row2 : Cert.KernelIdeal.Gen.W9 m ρ c (Proc.devRef .tc Cert.KernelIdeal.main_v105) = Cert.Spec.row (m ((c : Thread Cert.KernelIdeal.nD Cert.KernelIdeal.τ).loc Cert.KernelIdeal.main_arg6)) :=
  (Cert.Lockstep.K_row2 (Cert.KernelIdeal.Gen.W8 m ρ c)).trans ((congrArg (fun b => shapeCast Cert.KernelIdeal.S1x128 b Cert.KernelIdeal.Facts₀.shapeCasts_S128_S1x128) (Cert.KernelIdeal.Walk.arg6_at8 m ρ c)).trans
    (Cert.ReferenceIdeal.Stages.shapeCast_row _))
theorem k_h2 : Cert.KernelIdeal.Gen.W10 m ρ c (Proc.devRef .tc Cert.KernelIdeal.main_v106) = h2 m ρ c :=
  (Cert.KernelIdeal.Gen.W10_arr m ρ c 2).trans ((Cert.KernelIdeal.RegionBE.be3 (Cert.KernelIdeal.Gen.V9 m ρ) c).trans
    (congrArg (Cert.Spec.biasElu (t2 m ρ c)) (k_row2 m ρ c)))

abbrev xw3 : Cert.Spec.SN.Idx → EReal := Cert.Spec.mm (h2 m ρ c) (m ((c : Thread Cert.KernelIdeal.nD Cert.KernelIdeal.τ).loc Cert.KernelIdeal.main_arg7))

theorem k_xw3 : Cert.KernelIdeal.Gen.W11 m ρ c (Proc.devRef .tc Cert.KernelIdeal.main_v107) = xw3 m ρ c :=
  (Cert.KernelIdeal.Gen.W11_arr m ρ c 2).trans ((Cert.KernelIdeal.RegionMM.mm4 (Cert.KernelIdeal.Gen.V10 m ρ) c).trans
    (congrArg₂ Cert.Spec.mm (k_h2 m ρ c) (Cert.KernelIdeal.Walk.arg7_at10 m ρ c)))
theorem r_xw3 (h : Agree m m' c) : Cert.ReferenceIdeal.Run.U7 m' c (Proc.devRef .tc Cert.ReferenceIdeal.main_v128) = xw3 m ρ c :=
  (Cert.ReferenceIdeal.Walk.v128_at7 m' c).trans ((Cert.ReferenceIdeal.Stages.layer2 (Cert.ReferenceIdeal.Run.U5 m' c)).trans
    (congrArg₂ Cert.Spec.mm (congrArg₂ Cert.Spec.biasElu (r_t2 m ρ m' c h) (congrArg Cert.Spec.row ((Cert.ReferenceIdeal.Walk.arg6_at5 m' c).trans h.a6)))
      ((Cert.ReferenceIdeal.Walk.arg7_at5 m' c).trans h.a7)))

/-! ## Layer 3 -/

abbrev t3 : Cert.Spec.SN.Idx → EReal := Cert.KernelIdeal.Gen.W12 m ρ c (Proc.devRef .tc Cert.KernelIdeal.main_v147)

theorem r_t3 (h : Agree m m' c) : Cert.ReferenceIdeal.Run.U8 m' c (Proc.devRef .tc Cert.ReferenceIdeal.main_v185) = t3 m ρ c :=
  (Cert.Lockstep.tail3 (Cert.KernelIdeal.Gen.W11 m ρ c) (Cert.ReferenceIdeal.Run.U7 m' c) (nodes m ρ c) (edges m ρ c) (dinv m ρ c) (binv m ρ c) (xw3 m ρ c)
    (Cert.KernelIdeal.Walk.v1_at11 m ρ c) ((Cert.ReferenceIdeal.Walk.v1_at7 m' c).trans (ref_nodes m ρ m' c h)) (Cert.KernelIdeal.Walk.v3_at11 m ρ c) ((Cert.ReferenceIdeal.Walk.v3_at7 m' c).trans (ref_edges m ρ m' c h))
    ((Cert.KernelIdeal.Walk.v12_at11 m ρ c).trans (k_dinv m ρ c)) (r_dinv2 m ρ m' c h)
    ((Cert.KernelIdeal.Walk.v20_at11 m ρ c).trans (k_binv m ρ c)) (r_binv2 m ρ m' c h)
    (k_xw3 m ρ c) (r_xw3 m ρ m' c h)).symm

theorem k_row3 : Cert.KernelIdeal.Gen.W12 m ρ c (Proc.devRef .tc Cert.KernelIdeal.main_v148) = Cert.Spec.row (m ((c : Thread Cert.KernelIdeal.nD Cert.KernelIdeal.τ).loc Cert.KernelIdeal.main_arg8)) :=
  (Cert.Lockstep.K_row3 (Cert.KernelIdeal.Gen.W11 m ρ c)).trans ((congrArg (fun b => shapeCast Cert.KernelIdeal.S1x128 b Cert.KernelIdeal.Facts₀.shapeCasts_S128_S1x128) (Cert.KernelIdeal.Walk.arg8_at11 m ρ c)).trans
    (Cert.ReferenceIdeal.Stages.shapeCast_row _))

/-- The network's output. -/
abbrev out : Cert.Spec.SN.Idx → EReal := Cert.Spec.bias (t3 m ρ c) (Cert.Spec.row (m ((c : Thread Cert.KernelIdeal.nD Cert.KernelIdeal.τ).loc Cert.KernelIdeal.main_arg8)))

theorem k_out : Cert.KernelIdeal.Gen.W13 m ρ c (Proc.devRef .tc Cert.KernelIdeal.main_v149) = out m ρ c :=
  (Cert.KernelIdeal.Gen.W13_arr m ρ c 2).trans ((Cert.KernelIdeal.RegionBE.b5 (Cert.KernelIdeal.Gen.V12 m ρ) c).trans
    (congrArg (Cert.Spec.bias (t3 m ρ c)) (k_row3 m ρ c)))
theorem r_out (h : Agree m m' c) : Cert.ReferenceIdeal.Run.U9 m' c (Proc.devRef .tc Cert.ReferenceIdeal.main_v188) = out m ρ c :=
  (Cert.ReferenceIdeal.Stages.layer3 (Cert.ReferenceIdeal.Run.U8 m' c)).trans
    (congrArg₂ Cert.Spec.bias (r_t3 m ρ m' c h) (congrArg Cert.Spec.row ((Cert.ReferenceIdeal.Walk.arg8_at8 m' c).trans h.a8)))

/-- THE RESULTS AGREE: the reference's result array is the kernel's. -/
theorem result_eq (h : Agree m m' c) : Cert.ReferenceIdeal.Run.U9 m' c (Proc.devRef .tc Cert.ReferenceIdeal.main_v188) = Cert.KernelIdeal.Gen.W13 m ρ c (Proc.devRef .tc Cert.KernelIdeal.main_v149) :=
  (r_out m ρ m' c h).trans (k_out m ρ c).symm

end Cert.Assembly

end
-- ==== Proof.lean ====
/-
  The certificate of a three-layer hypergraph convolution network against its jnp reference, over the extended reals.

  Every layer is out = D⁻¹ H B⁻¹ Hᵀ (x W) + b, followed (in the two inner layers) by the exponential linear unit. The
  kernel's program computes x W in a pallas_call over twenty blocks of 5000 rows (the blocks' bf16 truncations are the
  identity at the ideal instance, the matmul into a zero accumulator a plain sum), the incidence gathers and
  scatter-adds on the host, and bias and activation in a second pallas_call; the reference does all of it on the host,
  its product one `dot_general`, its activation jax.nn.elu (`expm1` of the clamped argument, times one), and it
  recomputes the inverse degrees in every layer. Nothing in the comparison needs the inputs to be finite: the two
  sides are the same sums and the same pointwise operations, index by index (Proof/Assembly.lean).

  The frames of the two kernel programs are the generated ones; the reference's frame is its run with the results
  dropped. The idealization rewrote nothing, so `preserves` is `True`.
-/
import proofs.«118884_j61538291417104_1_alg».proof.Defs
import proofs.«118884_j61538291417104_1_alg».proof.Proof.Gen.Kernel
import proofs.«118884_j61538291417104_1_alg».proof.Proof.Gen.Kernel.Frame
import proofs.«118884_j61538291417104_1_alg».proof.Proof.Gen.KernelIdeal
import proofs.«118884_j61538291417104_1_alg».proof.Proof.Gen.KernelIdeal.Frame
import proofs.«118884_j61538291417104_1_alg».proof.Proof.Gen.ReferenceIdeal
import proofs.«118884_j61538291417104_1_alg».proof.Proof.Gen.Pre_finite_inputs
import proofs.«118884_j61538291417104_1_alg».proof.Proof.Assembly
import Idealize.ShloMosaic.Adequacy
import Idealize.ShloMosaic.Init

noncomputable section

namespace Cert.Proof

open Idealize.ShloMosaic Idealize.ShloMosaic.TcCoe Idealize.SL.Sem Idealize.ShloMosaic.StableHlo

theorem frame_kernel : Cert.frame_Kernel := fun m ρ _ => Cert.Kernel.Gen.frame m ρ

theorem frame_kernelIdeal : Cert.frame_KernelIdeal := fun m ρ _ => Cert.KernelIdeal.Gen.frame m ρ

/-- The reference's run leaves every argument as launched: no operation of it writes one. -/
theorem frame_referenceIdeal : Cert.frame_ReferenceIdeal := fun m ρ _ =>
  (θ_run Cert.ReferenceIdeal.defs _ _).mono (fun r h c =>
    ⟨(h c Cert.ReferenceIdeal.main_arg0).trans ((congrFun (Cert.ReferenceIdeal.Run.after_ops m c) _).trans (Cert.ReferenceIdeal.Walk.arg0_kept m c)),
     (h c Cert.ReferenceIdeal.main_arg1).trans ((congrFun (Cert.ReferenceIdeal.Run.after_ops m c) _).trans (Cert.ReferenceIdeal.Walk.arg1_kept m c)),
     (h c Cert.ReferenceIdeal.main_arg2).trans ((congrFun (Cert.ReferenceIdeal.Run.after_ops m c) _).trans (Cert.ReferenceIdeal.Walk.arg2_kept m c)),
     (h c Cert.ReferenceIdeal.main_arg3).trans ((congrFun (Cert.ReferenceIdeal.Run.after_ops m c) _).trans (Cert.ReferenceIdeal.Walk.arg3_kept m c)),
     (h c Cert.ReferenceIdeal.main_arg4).trans ((congrFun (Cert.ReferenceIdeal.Run.after_ops m c) _).trans (Cert.ReferenceIdeal.Walk.arg4_kept m c)),
     (h c Cert.ReferenceIdeal.main_arg5).trans ((congrFun (Cert.ReferenceIdeal.Run.after_ops m c) _).trans (Cert.ReferenceIdeal.Walk.arg5_kept m c)),
     (h c Cert.ReferenceIdeal.main_arg6).trans ((congrFun (Cert.ReferenceIdeal.Run.after_ops m c) _).trans (Cert.ReferenceIdeal.Walk.arg6_kept m c)),
     (h c Cert.ReferenceIdeal.main_arg7).trans ((congrFun (Cert.ReferenceIdeal.Run.after_ops m c) _).trans (Cert.ReferenceIdeal.Walk.arg7_kept m c)),
     (h c Cert.ReferenceIdeal.main_arg8).trans ((congrFun (Cert.ReferenceIdeal.Run.after_ops m c) _).trans (Cert.ReferenceIdeal.Walk.arg8_kept m c))⟩)
    (Cert.ReferenceIdeal.Run.run (F := Ideal) m ρ)

/-- From memories agreeing on the arguments the two idealized programs end with equal result arrays: the kernel's,
    named by its run at the last segment boundary, is the reference's fold (Proof/Assembly.lean `result_eq`). -/
theorem algebraic : Cert.algebraic_KernelIdeal_ReferenceIdeal := by
  intro m ρ m' ρ' _ hagree
  refine ⟨fun c => Cert.KernelIdeal.Gen.W13 m ρ c (Proc.devRef .tc Cert.KernelIdeal.main_v149), Cert.KernelIdeal.Run.run_result (F := Ideal) m ρ, ?_⟩
  refine (θ_run Cert.ReferenceIdeal.defs _ _).mono (fun r h c => ?_) (Cert.ReferenceIdeal.Run.run (F := Ideal) m' ρ')
  have hA : Cert.Assembly.Agree m m' c := ⟨(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2⟩
  exact ⟨(h c Cert.ReferenceIdeal.main_v188).trans ((congrFun (Cert.ReferenceIdeal.Run.after_ops m' c) _).trans (Cert.Assembly.result_eq m ρ m' c hA)),
     (h c Cert.ReferenceIdeal.main_arg0).trans ((congrFun (Cert.ReferenceIdeal.Run.after_ops m' c) _).trans (Cert.ReferenceIdeal.Walk.arg0_kept m' c)),
     (h c Cert.ReferenceIdeal.main_arg1).trans ((congrFun (Cert.ReferenceIdeal.Run.after_ops m' c) _).trans (Cert.ReferenceIdeal.Walk.arg1_kept m' c)),
     (h c Cert.ReferenceIdeal.main_arg2).trans ((congrFun (Cert.ReferenceIdeal.Run.after_ops m' c) _).trans (Cert.ReferenceIdeal.Walk.arg2_kept m' c)),
     (h c Cert.ReferenceIdeal.main_arg3).trans ((congrFun (Cert.ReferenceIdeal.Run.after_ops m' c) _).trans (Cert.ReferenceIdeal.Walk.arg3_kept m' c)),
     (h c Cert.ReferenceIdeal.main_arg4).trans ((congrFun (Cert.ReferenceIdeal.Run.after_ops m' c) _).trans (Cert.ReferenceIdeal.Walk.arg4_kept m' c)),
     (h c Cert.ReferenceIdeal.main_arg5).trans ((congrFun (Cert.ReferenceIdeal.Run.after_ops m' c) _).trans (Cert.ReferenceIdeal.Walk.arg5_kept m' c)),
     (h c Cert.ReferenceIdeal.main_arg6).trans ((congrFun (Cert.ReferenceIdeal.Run.after_ops m' c) _).trans (Cert.ReferenceIdeal.Walk.arg6_kept m' c)),
     (h c Cert.ReferenceIdeal.main_arg7).trans ((congrFun (Cert.ReferenceIdeal.Run.after_ops m' c) _).trans (Cert.ReferenceIdeal.Walk.arg7_kept m' c)),
     (h c Cert.ReferenceIdeal.main_arg8).trans ((congrFun (Cert.ReferenceIdeal.Run.after_ops m' c) _).trans (Cert.ReferenceIdeal.Walk.arg8_kept m' c))⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
